-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S16x1024 : Shape := ⟨2, ![16, 1024]⟩
abbrev S16 : Shape := ⟨1, ![16]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S16x1024 .f32) (main_arg2 : FVec F S16 .f32) (main_arg3 : FVec F S16 .f32) (main_arg4 : FVec F S1024x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S2x2048x1024 : Shape := ⟨3, ![2, 2048, 1024]⟩
abbrev S16x1024 : Shape := ⟨2, ![16, 1024]⟩
abbrev S16 : Shape := ⟨1, ![16]⟩
abbrev S1024x1024 : Shape := ⟨2, ![1024, 1024]⟩
abbrev S1x16 : Shape := ⟨2, ![1, 16]⟩
abbrev S2x2048x16 : Shape := ⟨3, ![2, 2048, 16]⟩
abbrev S2x16x1024 : Shape := ⟨3, ![2, 16, 1024]⟩
abbrev S2x1x16 : Shape := ⟨3, ![2, 1, 16]⟩
abbrev S1x512x1024 : Shape := ⟨3, ![1, 512, 1024]⟩
abbrev S1x512x16 : Shape := ⟨3, ![1, 512, 16]⟩
abbrev S1x16x1024 : Shape := ⟨3, ![1, 16, 1024]⟩
abbrev S1x1x16 : Shape := ⟨3, ![1, 1, 16]⟩
abbrev S512x1024 : Shape := ⟨2, ![512, 1024]⟩
abbrev S512 : Shape := ⟨1, ![512]⟩
abbrev S512x1 : Shape := ⟨2, ![512, 1]⟩
abbrev S512x16 : Shape := ⟨2, ![512, 16]⟩

abbrev nBuf : Space → Nat
  | .hbm => 12
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S16, .f32⟩
  | .hbm, ⟨3, _⟩ => ⟨S16, .f32⟩
  | .hbm, ⟨4, _⟩ => ⟨S1024x1024, .f32⟩
  | .hbm, ⟨5, _⟩ => ⟨S1024x1024, .f32⟩
  | .hbm, ⟨6, _⟩ => ⟨S1x16, .f32⟩
  | .hbm, ⟨7, _⟩ => ⟨S1x16, .f32⟩
  | .hbm, ⟨8, _⟩ => ⟨S2x2048x16, .f32⟩
  | .hbm, ⟨9, _⟩ => ⟨S2x16x1024, .f32⟩
  | .hbm, ⟨10, _⟩ => ⟨S2x1x16, .f32⟩
  | .hbm, ⟨11, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S16x1024, .f32⟩
  | .local _ .vmem, ⟨3, _⟩ => ⟨S1x16, .f32⟩
  | .local _ .vmem, ⟨4, _⟩ => ⟨S1x16, .f32⟩
  | .local _ .vmem, ⟨5, _⟩ => ⟨S1x512x16, .f32⟩
  | .local _ .vmem, ⟨6, _⟩ => ⟨S1x512x16, .f32⟩
  | .local _ .vmem, ⟨7, _⟩ => ⟨S1x16x1024, .f32⟩
  | .local _ .vmem, ⟨8, _⟩ => ⟨S1x16x1024, .f32⟩
  | .local _ .vmem, ⟨9, _⟩ => ⟨S1x1x16, .f32⟩
  | .local _ .vmem, ⟨10, _⟩ => ⟨S1x1x16, .f32⟩
  | .local _ .vmem, ⟨11, _⟩ => ⟨S1x512x16, .f32⟩
  | .local _ .vmem, ⟨12, _⟩ => ⟨S1x512x16, .f32⟩
  | .local _ .vmem, ⟨13, _⟩ => ⟨S1x16x1024, .f32⟩
  | .local _ .vmem, ⟨14, _⟩ => ⟨S1x16x1024, .f32⟩
  | .local _ .vmem, ⟨15, _⟩ => ⟨S1x1x16, .f32⟩
  | .local _ .vmem, ⟨16, _⟩ => ⟨S1x1x16, .f32⟩
  | .local _ .vmem, ⟨17, _⟩ => ⟨S1024x1024, .f32⟩
  | .local _ .vmem, ⟨18, _⟩ => ⟨S1024x1024, .f32⟩
  | .local _ .vmem, ⟨19, _⟩ => ⟨S1x512x1024, .f32⟩
  | .local _ .vmem, ⟨20, _⟩ => ⟨S1x512x1024, .f32⟩
  | .local _ .vmem, ⟨21, _⟩ => ⟨S16x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v46 : BitVec 1 := Scalar.cmpi .eq arg1 c0_i32
  let v47 : BitVec 32 := Scalar.extui v46
  let c0_i32_22 : BitVec 32 := 0#32
  let v48 : BitVec 1 := Scalar.cmpi .ne v47 c0_i32_22
  v48

def k0_cond2 (i : grid0.Coords) : BitVec 1 :=
  let arg1 : BitVec 32 := BitVec.ofNat 32 (i 1).val
  let c0_i32_23 : BitVec 32 := 0#32
  let v49 : BitVec 1 := Scalar.cmpi .ne arg1 c0_i32_23
  let v50 : BitVec 32 := Scalar.extui v49
  let c0_i32_24 : BitVec 32 := 0#32
  let v51 : BitVec 1 := Scalar.cmpi .ne v50 c0_i32_24
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S16_S1x16 : S16.ShapeCasts S1x16
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S16x1024_S16x1024_0_0 : ∀ a, (![0, 0] : Fin 2 → Nat) a + S16x1024.size a ≤ S16x1024.size a
  h_S16x1024 : 0 < S16x1024.numel
  inb_S1x16_S1x16_0_0 : ∀ a, (![0, 0] : Fin 2 → Nat) a + S1x16.size a ≤ S1x16.size a
  h_S1x16 : 0 < S1x16.numel
  shapeCasts_S1x16_S16 : S1x16.ShapeCasts S16
  reduces_S512x1024_S512 : S512x1024.Reduces [1] S512
  shapeCasts_S512_S512x1 : S512.ShapeCasts S512x1
  reduces_S16x1024_S16 : S16x1024.Reduces [1] S16
  broadcasts_S512x1_S512x16 : S512x1.Broadcasts S512x16
  broadcasts_S1x16_S512x16 : S1x16.Broadcasts S512x16
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  shapeCasts_S512x16_S1x512x16 : S512x16.ShapeCasts S1x512x16
  reduces_S512x16_S16 : S512x16.Reduces [0] S16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  inb_S1024x1024_S1024x1024_0_0 : ∀ a, (![0, 0] : Fin 2 → Nat) a + S1024x1024.size a ≤ S1024x1024.size a
  h_S1024x1024 : 0 < S1024x1024.numel
  shapeCasts_S16x1024_S16x1024 : S16x1024.ShapeCasts S16x1024
  reduces_S512x16_S512 : S512x16.Reduces [1] S512
  broadcasts_S512x1_S512x1024 : S512x1.Broadcasts S512x1024
  shapeCasts_S512x1024_S1x512x1024 : S512x1024.ShapeCasts S1x512x1024
  dot_S512x1024_S16x1024_S512x16_1_1_0_0_n_n_wf : DotDims.WF S512x1024 S16x1024 S512x16 [1] [1] [0] [0] [] []
  dot_S512x16_S512x1024_S16x1024_0_0_1_1_n_n_wf : DotDims.WF S512x16 S512x1024 S16x1024 [0] [0] [1] [1] [] []
  dot_S16x1024_S1024x1024_S16x1024_1_0_0_1_n_n_wf : DotDims.WF S16x1024 S1024x1024 S16x1024 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x16.size a ≤ S2x2048x16.size a
  hwx0_4 : ∀ i : grid0.Coords, EltTy.bits .f32 = 32 ∨ (Rect.block (s := S2x2048x16) S1x512x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1024.size a ≤ S2x16x1024.size a
  hwx0_5 : ∀ i : grid0.Coords, EltTy.bits .f32 = 32 ∨ (Rect.block (s := S2x16x1024) S1x16x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x16.size a ≤ S2x1x16.size a
  hwx0_6 : ∀ i : grid0.Coords, EltTy.bits .f32 = 32 ∨ (Rect.block (s := S2x1x16) S1x1x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16.size a ≤ S2x2048x16.size a
  hwx1_0 : ∀ i : grid1.Coords, EltTy.bits .f32 = 32 ∨ (Rect.block (s := S2x2048x16) S1x512x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1024.size a ≤ S2x16x1024.size a
  hwx1_1 : ∀ i : grid1.Coords, EltTy.bits .f32 = 32 ∨ (Rect.block (s := S2x16x1024) S1x16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x16.size a ≤ S2x1x16.size a
  hwx1_2 : ∀ i : grid1.Coords, EltTy.bits .f32 = 32 ∨ (Rect.block (s := S2x1x16) S1x1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .f32 = 32 ∨ (Rect.block (s := S1024x1024) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S2x2048x1024.size a
  hwx1_5 : ∀ i : grid1.Coords, EltTy.bits .f32 = 32 ∨ (Rect.block (s := S2x2048x1024) S1x512x1024.size (cc1_transform_5 i) (hinb1_5 i)).WholeWords (EltTy.packing .f32)

variable [Facts₀]

def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S512x1024_S16x1024_0_0_1_1_n_n : DotDims S512x16 S512x1024 S16x1024 where
  lhsContracting := [0]
  rhsContracting := [0]
  lhsNonContracting := [1]
  rhsNonContracting := [1]
  lhsBatch := []
  rhsBatch := []
  wf := dot_S512x16_S512x1024_S16x1024_0_0_1_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x512x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x16x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

abbrev win1_0 : Pipeline.Window sig grid1 :=
  Pipeline.Window.ofSpec (Memref.whole main_v2_0) S1x512x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S16x1024 : Shape := ⟨2, ![16, 1024]⟩
abbrev S16 : Shape := ⟨1, ![16]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S2x2048x16 : Shape := ⟨3, ![2, 2048, 16]⟩
abbrev S1x1x16 : Shape := ⟨3, ![1, 1, 16]⟩
abbrev S2x2048x2048 : Shape := ⟨3, ![2, 2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S16, .f32⟩
  | .hbm, ⟨3, _⟩ => ⟨S16, .f32⟩
  | .hbm, ⟨4, _⟩ => ⟨S1024x1024, .f32⟩
  | .hbm, ⟨5, _⟩ => ⟨S1024x1024, .f32⟩
  | .hbm, ⟨6, _⟩ => ⟨S16, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S16x1024, .f32⟩
  | .hbm, ⟨12, _⟩ => ⟨S_, .f32⟩
  | .hbm, ⟨13, _⟩ => ⟨S16, .f32⟩
  | .hbm, ⟨14, _⟩ => ⟨S2x2048x16, .f32⟩
  | .hbm, ⟨15, _⟩ => ⟨S1x1x16, .f32⟩
  | .hbm, ⟨16, _⟩ => ⟨S2x2048x16, .f32⟩
  | .hbm, ⟨17, _⟩ => ⟨S2x2048x16, .f32⟩
  | .hbm, ⟨18, _⟩ => ⟨S2x2048x16, .f32⟩
  | .hbm, ⟨19, _⟩ => ⟨S_, .f32⟩
  | .hbm, ⟨20, _⟩ => ⟨S2x2048x16, .f32⟩
  | .hbm, ⟨21, _⟩ => ⟨S2x2048x16, .f32⟩
  | .hbm, ⟨22, _⟩ => ⟨S2x2048x16, .f32⟩
  | .hbm, ⟨23, _⟩ => ⟨S_, .f32⟩
  | .hbm, ⟨24, _⟩ => ⟨S2x2048x16, .f32⟩
  | .hbm, ⟨25, _⟩ => ⟨S2x2048x16, .f32⟩
  | .hbm, ⟨26, _⟩ => ⟨S1x1x16, .f32⟩
  | .hbm, ⟨27, _⟩ => ⟨S2x2048x16, .f32⟩
  | .hbm, ⟨28, _⟩ => ⟨S1x1x16, .f32⟩
  | .hbm, ⟨29, _⟩ => ⟨S1x1x16, .f32⟩
  | .hbm, ⟨30, _⟩ => ⟨S_, .f32⟩
  | .hbm, ⟨31, _⟩ => ⟨S1x1x16, .f32⟩
  | .hbm, ⟨32, _⟩ => ⟨S1x1x16, .f32⟩
  | .hbm, ⟨33, _⟩ => ⟨S_, .f32⟩
  | .hbm, ⟨34, _⟩ => ⟨S1x1x16, .f32⟩
  | .hbm, ⟨35, _⟩ => ⟨S1x1x16, .f32⟩
  | .hbm, ⟨36, _⟩ => ⟨S2x2048x16, .f32⟩
  | .hbm, ⟨37, _⟩ => ⟨S2x2048x16, .f32⟩
  | .hbm, ⟨38, _⟩ => ⟨S2x2048x16, .f32⟩
  | .hbm, ⟨39, _⟩ => ⟨S2x2048x16, .f32⟩
  | .hbm, ⟨40, _⟩ => ⟨S2x2048x16, .f32⟩
  | .hbm, ⟨41, _⟩ => ⟨S2x2048x2048, .f32⟩
  | .hbm, ⟨42, _⟩ => ⟨S_, .f32⟩
  | .hbm, ⟨43, _⟩ => ⟨S2x2048, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S2x2048x2048, .f32⟩
  | .hbm, ⟨49, _⟩ => ⟨S2x2048x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  reducesTo_S16x1024_S16_d1 : S16x1024.ReducesTo [1] S16
  bcast_S16_S1x1x16_2 : S16.BroadcastsInDim S1x1x16 (![2] : Fin 1 → Fin S1x1x16.rank)
  bcast_S2x2048x1_S2x2048x16_0_1_2 : S2x2048x1.BroadcastsInDim S2x2048x16 (![0, 1, 2] : Fin 3 → Fin S2x2048x16.rank)
  bcast_S1x1x16_S2x2048x16_0_1_2 : S1x1x16.BroadcastsInDim S2x2048x16 (![0, 1, 2] : Fin 3 → Fin S2x2048x16.rank)
  bcast_S_S2x2048x16 : S_.BroadcastsInDim S2x2048x16 (![] : Fin 0 → Fin S2x2048x16.rank)
  bcast_S_S1x1x16 : S_.BroadcastsInDim S1x1x16 (![] : Fin 0 → Fin S1x1x16.rank)
  reducesTo_S2x2048x2048_S2x2048_d2 : S2x2048x2048.ReducesTo [2] S2x2048
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  dot_S2x2048x1024_S16x1024_S2x2048x16_2_1_01_0_n_n_wf : DotDims.WF S2x2048x1024 S16x1024 S2x2048x16 [2] [1] [0, 1] [0] [] []
  dot_S2x2048x16_S2x2048x16_S2x2048x2048_2_2_1_1_0_0_wf : DotDims.WF S2x2048x16 S2x2048x16 S2x2048x2048 [2] [2] [1] [1] [0] [0]
  dot_S2x2048x1024_S1024x1024_S2x2048x1024_2_0_01_1_n_n_wf : DotDims.WF S2x2048x1024 S1024x1024 S2x2048x1024 [2] [0] [0, 1] [1] [] []
  dot_S2x2048x2048_S2x2048x1024_S2x2048x1024_2_1_1_2_0_0_wf : DotDims.WF S2x2048x2048 S2x2048x1024 S2x2048x1024 [2] [1] [1] [2] [0] [0]

variable [Facts₀]

def dot_S2x2048x1024_S16x1024_S2x2048x16_2_1_01_0_n_n : DotDims S2x2048x1024 S16x1024 S2x2048x16 where
  lhsContracting := [2]
  rhsContracting := [1]
  lhsNonContracting := [0, 1]
  rhsNonContracting := [0]
  lhsBatch := []
  rhsBatch := []
  wf := dot_S2x2048x1024_S16x1024_S2x2048x16_2_1_01_0_n_n_wf
def dot_S2x2048x16_S2x2048x16_S2x2048x2048_2_2_1_1_0_0 : DotDims S2x2048x16 S2x2048x16 S2x2048x2048 where
  lhsContracting := [2]
  rhsContracting := [2]
  lhsNonContracting := [1]
  rhsNonContracting := [1]
  lhsBatch := [0]
  rhsBatch := [0]
  wf := dot_S2x2048x16_S2x2048x16_S2x2048x2048_2_2_1_1_0_0_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x2048x2048_S2x2048x1024_S2x2048x1024_2_1_1_2_0_0 : DotDims S2x2048x2048 S2x2048x1024 S2x2048x1024 where
  lhsContracting := [2]
  rhsContracting := [1]
  lhsNonContracting := [1]
  rhsNonContracting := [2]
  lhsBatch := [0]
  rhsBatch := [0]
  wf := dot_S2x2048x2048_S2x2048x1024_S2x2048x1024_2_1_1_2_0_0_wf

class Facts : Prop extends Facts₀ where

variable [Facts]
-- ==== Proof.K.Outs.lean ====
/-
  What one call of each kernel body leaves in its output blocks, as pure functions of the blocks it reads
  (for any float instance): the affinity tile, the two accumulators at a batch's first tile and at a later one,
  the folded matrix and the output tile.
-/
import proofs.«104191_g80702435492106_cont_9to1c4b_850_6_alg».proof.Proof.Gen.Kernel.Skeleton

noncomputable section

namespace Cert.Kernel.Outs

open Idealize.ShloMosaic Cert.Kernel Cert.Kernel.Gen

variable {F : FTy → Type} [FloatOps F]

/-- The affinity tile `amp · exp(-dist · inv)` of a block of 512 token rows against the 16 splats. -/
def affT (x : Vec F S1x512x1024 .f32) (p : Vec F S16x1024 .f32) (ls amp : Vec F S1x16 .f32) : Vec F S1x512x16 .f32 :=
  k0_pay2 (k0_pay10 x p ls) (k0_pay11 amp)
/-- `affᵀ x` of one tile: what the first tile of a batch stores. -/
def cFirst (x : Vec F S1x512x1024 .f32) (p : Vec F S16x1024 .f32) (ls amp : Vec F S1x16 .f32) : Vec F S1x16x1024 .f32 :=
  k0_pay5 (k0_pay9 x) (k0_pay10 x p ls) (k0_pay11 amp)
/-- The tile's column sums of the affinities: what the first tile of a batch stores. -/
def gFirst (x : Vec F S1x512x1024 .f32) (p : Vec F S16x1024 .f32) (ls amp : Vec F S1x16 .f32) : Vec F S1x1x16 .f32 :=
  k0_pay6 (k0_pay10 x p ls) (k0_pay11 amp)
/-- A later tile adds its `affᵀ x` to what the block holds. -/
def cNext (x : Vec F S1x512x1024 .f32) (p : Vec F S16x1024 .f32) (ls amp : Vec F S1x16 .f32) (co : Vec F S1x16x1024 .f32) : Vec F S1x16x1024 .f32 :=
  k0_pay7 (k0_pay9 x) (k0_pay10 x p ls) (k0_pay11 amp) co
/-- A later tile adds its column sums to what the block holds. -/
def gNext (x : Vec F S1x512x1024 .f32) (p : Vec F S16x1024 .f32) (ls amp : Vec F S1x16 .f32) (go : Vec F S1x1x16 .f32) : Vec F S1x1x16 .f32 :=
  k0_pay8 (k0_pay10 x p ls) (k0_pay11 amp) go
/-- The folded matrix `(C Wv) Wo` of a batch. -/
def mFold (cb : Vec F S1x16x1024 .f32) (wv wo : Vec F S1024x1024 .f32) : Vec F S16x1024 .f32 :=
  k1_pay1 cb wv wo
/-- The output tile `(aff M) / (aff · g + ε)`. -/
def outT (a : Vec F S1x512x16 .f32) (g : Vec F S1x1x16 .f32) (mm : Vec F S16x1024 .f32) : Vec F S1x512x1024 .f32 :=
  k1_pay2 a g mm

end Cert.Kernel.Outs

end
-- ==== Proof.K.Body0.lean ====
/-
  The first kernel's body as a triple, at a batch's first tile and at a later one: on whole blocks holding the token
  rows, the splat centres, the log-scales and the amplitudes it leaves the affinity tile in its first output block and
  stores (first tile) or adds (later tile) the tile's share of `affᵀ x` and of the column sums in the other two.
-/
import proofs.«104191_g80702435492106_cont_9to1c4b_850_6_alg».proof.Proof.K.Outs
import proofs.«104191_g80702435492106_cont_9to1c4b_850_6_alg».proof.Proof.Gen.Kernel.Launch
import proofs.«104191_g80702435492106_cont_9to1c4b_850_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offset of a whole-block access, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 4000000 in
/-- A batch's first tile (the first branch taken, the second not): the two accumulator blocks may hold anything and
    end at the tile's own share. -/
theorem sound_kernel0_A (c : Dev nD) (E : Set ℕ) (i : grid0.Coords) (hc1 : k0_cond1 i = 1#1) (hc2 : ¬ k0_cond2 i = 1#1)
    (arg2 : Memref sig .tc .vmem S1x512x1024 .f32) (harg2 : arg2.IsWhole) (arg3 : Memref sig .tc .vmem S16x1024 .f32) (harg3 : arg3.IsWhole)
    (arg4 : Memref sig .tc .vmem S1x16 .f32) (harg4 : arg4.IsWhole) (arg5 : Memref sig .tc .vmem S1x16 .f32) (harg5 : arg5.IsWhole)
    (arg6 : Memref sig .tc .vmem S1x512x16 .f32) (harg6 : arg6.IsWhole) (arg7 : Memref sig .tc .vmem S1x16x1024 .f32) (harg7 : arg7.IsWhole)
    (arg8 : Memref sig .tc .vmem S1x1x16 .f32) (harg8 : arg8.IsWhole)
    (x0 : Vec F S1x512x1024 .f32) (x1 : Vec F S16x1024 .f32) (x2 x3 : Vec F S1x16 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (Outs.affT x0 x1 x2 x3)
            ∗ owns (c : Thread nD τ) arg7 fullShare (Outs.cFirst x0 x1 x2 x3)
            ∗ owns (c : Thread nD τ) arg8 fullShare (Outs.gFirst x0 x1 x2 x3)) -∗ K ⟨⟩))
      ⊢ wp frame (wpE (defs₀ (F := F)) Variants.none c none) E
          (cc0__pass1 i arg2 harg2 arg3 harg3 arg4 harg4 arg5 harg5 arg6 harg6 arg7 harg7 arg8 harg8) K := by
  simp only [cc0__pass1_eq_skeleton, k0_part1_eq_skeleton]; unfold cc0__pass1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero (S := S1x512x16) hz3 Facts₀.inb_S1x512x16_S1x512x16_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  isplitl [H5]
  · iexists _; isplitr
    swap; · iexact H5
    ipureintro
    rw [View.read_writes_eq_canon _ _ _ (fun y => ⟨_, List.mem_singleton_self _, View.mem_set_unit_zero (S := S1x16x1024) hz3 Facts₀.inb_S1x16x1024_S1x16x1024_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  iexists _; isplitr
  swap; · iexact H6
  ipureintro
  rw [View.read_writes_eq_canon _ _ _ (fun y => ⟨_, List.mem_singleton_self _, View.mem_set_unit_zero (S := S1x1x16) hz3 Facts₀.inb_S1x1x16_S1x1x16_0_0_0 y⟩)]
  sl_unfold_words
  rw [View.canon_unit_zero hz3]
  simp only [View.readAt_eq_ld, harg2.read_unread, harg3.read_unread, harg4.read_unread, harg5.read_unread, harg7.read_unread, harg8.read_unread,
    View.ld_unit_zero (S := S1x512x1024) hz3, View.ld_unit_zero (S := S16x1024) hz2, View.ld_unit_zero (S := S1x16) hz2,
    View.ld_unit_zero (S := S1x16x1024) hz3, View.ld_unit_zero (S := S1x1x16) hz3]
  rfl

set_option maxHeartbeats 4000000 in
/-- A later tile of a batch (the first branch not taken, the second taken): the two accumulator blocks hold `co`, `go`
    and end at those plus the tile's share. -/
theorem sound_kernel0_B (c : Dev nD) (E : Set ℕ) (i : grid0.Coords) (hc1 : ¬ k0_cond1 i = 1#1) (hc2 : k0_cond2 i = 1#1)
    (arg2 : Memref sig .tc .vmem S1x512x1024 .f32) (harg2 : arg2.IsWhole) (arg3 : Memref sig .tc .vmem S16x1024 .f32) (harg3 : arg3.IsWhole)
    (arg4 : Memref sig .tc .vmem S1x16 .f32) (harg4 : arg4.IsWhole) (arg5 : Memref sig .tc .vmem S1x16 .f32) (harg5 : arg5.IsWhole)
    (arg6 : Memref sig .tc .vmem S1x512x16 .f32) (harg6 : arg6.IsWhole) (arg7 : Memref sig .tc .vmem S1x16x1024 .f32) (harg7 : arg7.IsWhole)
    (arg8 : Memref sig .tc .vmem S1x1x16 .f32) (harg8 : arg8.IsWhole)
    (x0 : Vec F S1x512x1024 .f32) (x1 : Vec F S16x1024 .f32) (x2 x3 : Vec F S1x16 .f32) (co : Vec F S1x16x1024 .f32) (go : Vec F S1x1x16 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare co
        ∗ owns (c : Thread nD τ) arg8 fullShare go
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (Outs.affT x0 x1 x2 x3)
            ∗ owns (c : Thread nD τ) arg7 fullShare (Outs.cNext x0 x1 x2 x3 co)
            ∗ owns (c : Thread nD τ) arg8 fullShare (Outs.gNext x0 x1 x2 x3 go)) -∗ K ⟨⟩))
      ⊢ wp frame (wpE (defs₀ (F := F)) Variants.none c none) E
          (cc0__pass1 i arg2 harg2 arg3 harg3 arg4 harg4 arg5 harg5 arg6 harg6 arg7 harg7 arg8 harg8) K := by
  simp only [cc0__pass1_eq_skeleton, k0_part1_eq_skeleton]; unfold cc0__pass1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg7.eq_unread hf5; obtain rfl := harg8.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero (S := S1x512x16) hz3 Facts₀.inb_S1x512x16_S1x512x16_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  isplitl [H5]
  · iexists _; isplitr
    swap; · iexact H5
    ipureintro
    rw [View.read_writes_eq_canon _ _ _ (fun y => ⟨_, List.mem_singleton_self _, View.mem_set_unit_zero (S := S1x16x1024) hz3 Facts₀.inb_S1x16x1024_S1x16x1024_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  iexists _; isplitr
  swap; · iexact H6
  ipureintro
  rw [View.read_writes_eq_canon _ _ _ (fun y => ⟨_, List.mem_singleton_self _, View.mem_set_unit_zero (S := S1x1x16) hz3 Facts₀.inb_S1x1x16_S1x1x16_0_0_0 y⟩)]
  sl_unfold_words
  rw [View.canon_unit_zero hz3]
  simp only [View.readAt_eq_ld, harg2.read_unread, harg3.read_unread, harg4.read_unread, harg5.read_unread, harg7.read_unread, harg8.read_unread,
    View.ld_unit_zero (S := S1x512x1024) hz3, View.ld_unit_zero (S := S16x1024) hz2, View.ld_unit_zero (S := S1x16) hz2,
    View.ld_unit_zero (S := S1x16x1024) hz3, View.ld_unit_zero (S := S1x1x16) hz3]
  rfl

end Cert.Kernel.Hand

end
-- ==== Proof.K.Region0.lean ====
/-
  The first kernel's region, point by point, at any contents `V` of the buffers when the region is entered: the blocks
  the eight grid points (two batches of four tiles) read, what each leaves in its three output blocks — the affinity
  tile; the two accumulators, reset at a batch's first tile and added to at the three later ones —, and the body's
  obligation to the pipeline at every point.
-/
import proofs.«104191_g80702435492106_cont_9to1c4b_850_6_alg».proof.Proof.K.Body0
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current block holds its block of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid -/

/-- "This is a batch's first tile" holds at the points 0 and 4. -/
theorem hcond0_1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- "This is a later tile" holds at the others. -/
theorem hcond0_2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- One of the two branches stores into each accumulator at every point: neither is ever idle. -/
theorem live0_5 : ∀ i : grid0.Coords, cfg0.idle 5 i = false := by decide +kernel
theorem live0_6 : ∀ i : grid0.Coords, cfg0.idle 6 i = false := by decide +kernel

/-! ## The accumulation -/

/-- What the two accumulator blocks hold after the body at position `n`: a batch's first tile stores its share,
    a later tile adds its share to what the point before left. -/
def accAt0 (c : Dev nD) : (n : ℕ) → n < cfg0.N → Vec F S1x16x1024 .f32 × Vec F S1x1x16 .f32
  | 0, hn => (Outs.cFirst (iblk0 V c 0 ⟨0, hn⟩) (iblk0 V c 1 ⟨0, hn⟩) (iblk0 V c 2 ⟨0, hn⟩) (iblk0 V c 3 ⟨0, hn⟩), Outs.gFirst (iblk0 V c 0 ⟨0, hn⟩) (iblk0 V c 1 ⟨0, hn⟩) (iblk0 V c 2 ⟨0, hn⟩) (iblk0 V c 3 ⟨0, hn⟩))
  | n + 1, hn =>
    if (n + 1) % 4 = 0 then
      (Outs.cFirst (iblk0 V c 0 ⟨n + 1, hn⟩) (iblk0 V c 1 ⟨n + 1, hn⟩) (iblk0 V c 2 ⟨n + 1, hn⟩) (iblk0 V c 3 ⟨n + 1, hn⟩), Outs.gFirst (iblk0 V c 0 ⟨n + 1, hn⟩) (iblk0 V c 1 ⟨n + 1, hn⟩) (iblk0 V c 2 ⟨n + 1, hn⟩) (iblk0 V c 3 ⟨n + 1, hn⟩))
    else
      (Outs.cNext (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn)).1,
       Outs.gNext (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn)).2)

/-- At a batch's first tile. -/
theorem accAt0_A (c : Dev nD) (t : Fin cfg0.N) (h0 : t.val % 4 = 0) :
    accAt0 V c t.val t.isLt = (Outs.cFirst (iblk0 V c 0 t) (iblk0 V c 1 t) (iblk0 V c 2 t) (iblk0 V c 3 t), Outs.gFirst (iblk0 V c 0 t) (iblk0 V c 1 t) (iblk0 V c 2 t) (iblk0 V c 3 t)) := by
  obtain ⟨n, hn⟩ := t
  cases n with
  | zero => exact rfl
  | succ n => exact (if_pos h0).trans rfl

/-- At a later tile. -/
theorem accAt0_B (c : Dev nD) (t : Fin cfg0.N) (h0 : ¬t.val % 4 = 0) :
    accAt0 V c t.val t.isLt
      = (Outs.cNext (iblk0 V c 0 t) (iblk0 V c 1 t) (iblk0 V c 2 t) (iblk0 V c 3 t) (accAt0 V c (t.val - 1) (Nat.lt_of_le_of_lt (Nat.sub_le _ _) t.isLt)).1,
         Outs.gNext (iblk0 V c 0 t) (iblk0 V c 1 t) (iblk0 V c 2 t) (iblk0 V c 3 t) (accAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The pipeline's proof data -/

/-- The proof data of the first pipeline on core `c`: the arrays as the region finds them; after the body at point `t`
    each input's block in place, the affinity tile, and the accumulators at `accAt0`; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => Outs.affT (iblk0 V c 0 t) (iblk0 V c 1 t) (iblk0 V c 2 t) (iblk0 V c 3 t)
    | ⟨5, _⟩ => (accAt0 V c t.val t.isLt).1
    | ⟨6, _⟩ => (accAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = Outs.affT (iblk0 V c 0 t) (iblk0 V c 1 t) (iblk0 V c 2 t) (iblk0 V c 3 t) := by dsimp only [dat0]
theorem after0_5 (c : Dev nD) (t : Fin cfg0.N) : (dat0 V c).after 5 t = (accAt0 V c t.val t.isLt).1 := by dsimp only [dat0]
theorem after0_6 (c : Dev nD) (t : Fin cfg0.N) : (dat0 V c).after 6 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later tile an accumulator's current block holds what the point before left: the point is not the first and
    the block was not written back between (it is written back after a batch's last tile only). -/
theorem before0_5_B (c : Dev nD) (t : Fin cfg0.N) (h0 : ¬t.val % 4 = 0) (d) :
    (dat0 V c).before 5 t d = (accAt0 V c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    live0_5 (fun _ _ => rfl)]
  dsimp only [dat0]
theorem before0_6_B (c : Dev nD) (t : Fin cfg0.N) (h0 : ¬t.val % 4 = 0) (d) :
    (dat0 V c).before 6 t d = (accAt0 V c (t.val - 1) (Nat.lt_of_le_of_lt (Nat.sub_le _ _) t.isLt)).2 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    live0_6 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t
    ∗ (dat0 V c).leavesExact 6 t)

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).leavesExact 5 t = owns (c : Thread nD τ) (st0_5 t) fullShare ((dat0 V c).after 5 t) from by
        unfold Dat.leavesExact; rw [live0_5 (cfg0.grid.coords t)],
    show (dat0 V c).leavesExact 6 t = owns (c : Thread nD τ) (st0_6 t) fullShare ((dat0 V c).after 6 t) from by
        unfold Dat.leavesExact; rw [live0_6 (cfg0.grid.coords t)],
    after0_5, after0_6]
  by_cases h0 : t.val % 4 = 0
  · rw [accAt0_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t) ((hcond0_1 t).mpr h0) (fun h => (hcond0_2 t).mp h h0)
      _ _ _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt0_B V c t h0]
    simp only [before0_5_B V c t h0, before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) (fun h => h0 ((hcond0_1 t).mp h)) ((hcond0_2 t).mpr h0)
      _ _ _ _ _ _ _ _ _ _ _ _ _ _ (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
/-
  The second kernel's body as a triple: at a batch's first tile it folds `(C Wv) Wo` into its scratch block and then
  computes the output tile from it; at a later tile the scratch block holds the folded matrix already and is kept.
-/
import proofs.«104191_g80702435492106_cont_9to1c4b_850_6_alg».proof.Proof.K.Outs
import proofs.«104191_g80702435492106_cont_9to1c4b_850_6_alg».proof.Proof.K.Body0
import proofs.«104191_g80702435492106_cont_9to1c4b_850_6_alg».proof.Proof.Gen.Kernel.Launch
import proofs.«104191_g80702435492106_cont_9to1c4b_850_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, "this is a batch's first tile", from the grid coordinates. -/
abbrev cond1_0 (i : grid1.Coords) : Prop :=
  (Scalar.cmpi .ne (Scalar.extui (Scalar.cmpi .eq (BitVec.ofNat 32 (i 1).val) 0#32)) 0#32) = 1#1
/-- It holds at the points 0 and 4 — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

set_option maxHeartbeats 4000000 in
/-- A batch's first tile: the scratch block may hold anything and ends at the folded matrix. -/
theorem sound_kernel1_A (c : Dev nD) (E : Set ℕ) (i : grid1.Coords) (hc : cond1_0 i)
    (arg2 : Memref sig .tc .vmem S1x512x16 .f32) (harg2 : arg2.IsWhole) (arg3 : Memref sig .tc .vmem S1x16x1024 .f32) (harg3 : arg3.IsWhole)
    (arg4 : Memref sig .tc .vmem S1x1x16 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x512x1024 .f32) (harg7 : arg7.IsWhole)
    (arg8 : Memref sig .tc .vmem S16x1024 .f32) (harg8 : arg8.IsWhole)
    (a : Vec F S1x512x16 .f32) (cb : Vec F S1x16x1024 .f32) (g : Vec F S1x1x16 .f32) (wv wo : Vec F S1024x1024 .f32) (K : PUnit → sProp 𝕄) :
    iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
        ∗ (∃ d, owns (c : Thread nD τ) arg7 fullShare d) ∗ (∃ d, owns (c : Thread nD τ) arg8 fullShare d)
        ∗ (iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
            ∗ owns (c : Thread nD τ) arg7 fullShare (Outs.outT a g (Outs.mFold cb wv wo))
            ∗ owns (c : Thread nD τ) arg8 fullShare (Outs.mFold cb wv wo)) -∗ K ⟨⟩))
      ⊢ wp frame (wpE (defs₀ (F := F)) Variants.none c none) E
          (cc1__pass2 i arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (fun y => ⟨_, List.mem_singleton_self _, View.mem_set_unit_zero (S := S1x512x1024) hz3 Facts₀.inb_S1x512x1024_S1x512x1024_0_0_0 y⟩)]
    sl_unfold_words
    rw [View.canon_unit_zero hz3]
    simp only [View.readAt_eq_ld, harg2.read_unread, harg3.read_unread, harg4.read_unread, harg5.read_unread, harg6.read_unread,
      View.ld_unit_zero (S := S1x512x16) hz3, View.ld_unit_zero (S := S1x1x16) hz3, View.ld_unit_zero (S := S1x16x1024) hz3,
      View.ld_unit_zero (S := S1024x1024) hz2, View.readCov_unit_zero (S := S16x1024) _ hz2]
    rfl
  iexists _; isplitr
  swap; · iexact H6
  ipureintro
  sl_unfold_words
  rw [View.read_writes_eq_canon _ _ _ (fun y => ⟨_, List.mem_singleton_self _, View.mem_set_unit_zero (S := S16x1024) hz2 Facts₀.inb_S16x1024_S16x1024_0_0 y⟩)]
  rw [View.canon_unit_zero hz2]
  simp only [View.readAt_eq_ld, harg2.read_unread, harg3.read_unread, harg4.read_unread, harg5.read_unread, harg6.read_unread,
    View.ld_unit_zero (S := S1x512x16) hz3, View.ld_unit_zero (S := S1x1x16) hz3, View.ld_unit_zero (S := S1x16x1024) hz3,
    View.ld_unit_zero (S := S1024x1024) hz2, View.readCov_unit_zero (S := S16x1024) _ hz2]
  rfl

set_option maxHeartbeats 4000000 in
/-- A later tile: the scratch block holds `ms` and keeps it. -/
theorem sound_kernel1_B (c : Dev nD) (E : Set ℕ) (i : grid1.Coords) (hc : ¬ cond1_0 i)
    (arg2 : Memref sig .tc .vmem S1x512x16 .f32) (harg2 : arg2.IsWhole) (arg3 : Memref sig .tc .vmem S1x16x1024 .f32) (harg3 : arg3.IsWhole)
    (arg4 : Memref sig .tc .vmem S1x1x16 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x512x1024 .f32) (harg7 : arg7.IsWhole)
    (arg8 : Memref sig .tc .vmem S16x1024 .f32) (harg8 : arg8.IsWhole)
    (a : Vec F S1x512x16 .f32) (cb : Vec F S1x16x1024 .f32) (g : Vec F S1x1x16 .f32) (wv wo : Vec F S1024x1024 .f32) (ms : Vec F S16x1024 .f32) (K : PUnit → sProp 𝕄) :
    iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
        ∗ (∃ d, owns (c : Thread nD τ) arg7 fullShare d) ∗ owns (c : Thread nD τ) arg8 fullShare ms
        ∗ (iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
            ∗ owns (c : Thread nD τ) arg7 fullShare (Outs.outT a g ms)
            ∗ owns (c : Thread nD τ) arg8 fullShare ms) -∗ K ⟨⟩))
      ⊢ wp frame (wpE (defs₀ (F := F)) Variants.none c none) E
          (cc1__pass2 i arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg8.eq_unread hf6
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (fun y => ⟨_, List.mem_singleton_self _, View.mem_set_unit_zero (S := S1x512x1024) hz3 Facts₀.inb_S1x512x1024_S1x512x1024_0_0_0 y⟩)]
    sl_unfold_words
    rw [View.canon_unit_zero hz3]
    simp only [View.readAt_eq_ld, harg2.read_unread, harg3.read_unread, harg4.read_unread, harg5.read_unread, harg6.read_unread, harg8.read_unread,
      View.ld_unit_zero (S := S1x512x16) hz3, View.ld_unit_zero (S := S16x1024) hz2, View.ld_unit_zero (S := S1x1x16) hz3,
      View.ld_unit_zero (S := S1x16x1024) hz3, View.ld_unit_zero (S := S1024x1024) hz2]
    rfl
  iexists _; isplitr; · ipureintro; exact harg8.read_unread _
  iexact H6

end Cert.Kernel.Hand

end
-- ==== Proof.K.Region1.lean ====
/-
  The second kernel's region, point by point, at any contents `V` of the buffers when the region is entered: the blocks
  the eight grid points read, the folded matrix the scratch block carries from a batch's first tile through its later
  ones, the output tile each point leaves, and the body's obligation to the pipeline at every point.
-/
import proofs.«104191_g80702435492106_cont_9to1c4b_850_6_alg».proof.Proof.K.Body1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current block holds its block of the array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The scratch block -/

/-- The kernel's scratch block, a whole buffer of its own. -/
abbrev scM1 : Memref sig .tc .vmem S16x1024 .f32 := Memref.whole cc1_scratch0

/-- What the scratch block holds after the body at position `n`: the folded matrix of the batch the point is in,
    computed at the batch's first tile and kept by the later ones. -/
def mAt1 (c : Dev nD) : (n : ℕ) → n < cfg1.N → Vec F S16x1024 .f32
  | 0, hn => Outs.mFold (iblk1 V c 1 ⟨0, hn⟩) (iblk1 V c 3 ⟨0, hn⟩) (iblk1 V c 4 ⟨0, hn⟩)
  | n + 1, hn =>
    if (n + 1) % 4 = 0 then Outs.mFold (iblk1 V c 1 ⟨n + 1, hn⟩) (iblk1 V c 3 ⟨n + 1, hn⟩) (iblk1 V c 4 ⟨n + 1, hn⟩)
    else mAt1 c n (Nat.lt_of_succ_lt hn)

theorem mAt1_A (c : Dev nD) (t : Fin cfg1.N) (h0 : t.val % 4 = 0) :
    mAt1 V c t.val t.isLt = Outs.mFold (iblk1 V c 1 t) (iblk1 V c 3 t) (iblk1 V c 4 t) := by
  obtain ⟨n, hn⟩ := t
  cases n with
  | zero => exact rfl
  | succ n => exact (if_pos h0).trans rfl

theorem mAt1_B (c : Dev nD) (t : Fin cfg1.N) (h0 : ¬t.val % 4 = 0) :
    mAt1 V c t.val t.isLt = mAt1 V c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (if_neg h0).trans rfl

/-- The region's invariant with the scratch block as a memref owned at some contents, beside the scoped buffers of the
    other kernel and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1 fullShare d)) ∗ (∃ r, prngReg c r)) := by
  unfold Pipeline.ΦA; rw [scopedRest1_eq]; simp only [scM1, owns_whole]; try rfl

/-- The region's invariant before position `n`: before the first point every scoped buffer holds anything; afterwards
    the scratch block holds what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare (mAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare (mAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare (mAt1 V c (n - 1) (by omega))) ∗ (∃ r, prngReg c r)) := by
  cases n with
  | zero => exact absurd rfl hz
  | succ n => rfl

/-! ## The pipeline's proof data -/

/-- The proof data of the second pipeline on core `c`: the arrays as the region finds them; after the body at point `t`
    each input's block in place and the output tile from the affinity tile, the column sums and the scratch block's
    folded matrix; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => Outs.outT (iblk1 V c 0 t) (iblk1 V c 2 t) (mAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = Outs.outT (iblk1 V c 0 t) (iblk1 V c 2 t) (mAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 3200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ,
    after1_0, after1_1, after1_2, after1_3, after1_4, after1_5]
  have hN : t.val < 8 := lt_of_lt_of_eq t.isLt (show cfg1.N = 8 from N_1)
  by_cases h0 : t.val % 4 = 0
  · rw [mAt1_A V c t h0]
    by_cases hz : t.val = 0
    · rw [PhiS1_castSucc V c t, PhiS1_zero V c _ _ hz, PhiA1_eq]
      iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0)
        _ _ _ _ _ _ _ _ _ _ _ _ _ _ (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [R0 R1 R2 R3 R4 R5 R6 R7 R8 R9 R10 HS Hg]
      · isplitl [R0 R1 R2 R3 R4 R5 R6 R7 R8 R9 R10 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS1_castSucc V c t, PhiS1_pos V c _ _ hz]
      iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0)
        _ _ _ _ _ _ _ _ _ _ _ _ _ _ (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [R0 R1 R2 R3 R4 R5 R6 R7 R8 R9 R10 HS Hg]
      · isplitl [R0 R1 R2 R3 R4 R5 R6 R7 R8 R9 R10 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [mAt1_B V c t h0]
    have hz : t.val ≠ 0 := fun e => h0 (by rw [e])
    rw [PhiS1_castSucc V c t, PhiS1_pos V c _ _ hz]
    iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => h0 ((hcond1_0 t).mp h))
      _ _ _ _ _ _ _ _ _ _ _ _ _ _ (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [R0 R1 R2 R3 R4 R5 R6 R7 R8 R9 R10 HS Hg]
    · isplitl [R0 R1 R2 R3 R4 R5 R6 R7 R8 R9 R10 HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the scratch block's contents forgotten. -/
theorem hout1 (c : Dev nD) : (dat1 V c).Φ (Fin.last cfg1.N) ⊢ Pipeline.ΦA spec1 c := by
  have hl : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ hl, PhiA1_eq]
  iintro ⟨⟨R0, R1, R2, R3, R4, R5, R6, R7, R8, R9, R10, HS⟩, Hg⟩
  isplitl [R0 R1 R2 R3 R4 R5 R6 R7 R8 R9 R10 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexists _; iexact HS
  iexact Hg

end Region1

end Cert.Kernel.Hand

end
-- ==== Proof.K.Run.lean ====
/-
  The whole program, from the launch to the return: the two reshapes of the host, the first kernel's region, the second's.
  Every weakly fair execution terminates, and the final memory holds each unscoped buffer at the fold of what the three
  items leave: the arguments as launched, the result at what the second region's write-backs leave.
-/
import proofs.«104191_g80702435492106_cont_9to1c4b_850_6_alg».proof.Proof.K.Region0
import proofs.«104191_g80702435492106_cont_9to1c4b_850_6_alg».proof.Proof.K.Region1
import proofs.«104191_g80702435492106_cont_9to1c4b_850_6_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the host's two reshapes, read at the TensorCore's references: what the first region's proof data take. -/
abbrev V1 : (c : Dev nD) → (b : Ref sig .tc) → Buf (Elt F) ((c : Thread nD τ).loc b) := fun c b => Gen.V1 m c b
/-- At the first region's exit: its arrays at what the pipeline leaves, every other buffer as entered. -/
def W2 (c : Dev nD) : Valuation τ sig (Elt F) :=
  Pipeline.withArrays spec0 c (Gen.V1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = Gen.V1 m c (Proc.devRef .tc main_arg0) := (W2_arr m c 0).trans (((dat0 (V1 m) c).arrAt_in 0 rfl _).trans (A_eq0 (V1 m) c 0))
    _ = Gen.V0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = Gen.V1 m c (Proc.devRef .tc main_arg1) := (W2_arr m c 1).trans (((dat0 (V1 m) c).arrAt_in 1 rfl _).trans (A_eq0 (V1 m) c 1))
    _ = Gen.V0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = Gen.V1 m c (Proc.devRef .tc main_arg2) := W2_of_ne m c main_arg2 (by decide)
    _ = Gen.V0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = Gen.V1 m c (Proc.devRef .tc main_arg3) := W2_of_ne m c main_arg3 (by decide)
    _ = Gen.V0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 3).trans (((dat1 (V2 m) c).arrAt_in 3 rfl _).trans (A_eq1 (V2 m) c 3))
    _ = Gen.V1 m c (Proc.devRef .tc main_arg4) := W2_of_ne m c main_arg4 (by decide)
    _ = Gen.V0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 4).trans (((dat1 (V2 m) c).arrAt_in 4 rfl _).trans (A_eq1 (V2 m) c 4))
    _ = Gen.V1 m c (Proc.devRef .tc main_arg5) := W2_of_ne m c main_arg5 (by decide)
    _ = Gen.V0 m c (Proc.devRef .tc main_arg5) := Gen.V1_of m c main_arg5 (by decide)
    _ = m ((c : Thread nD τ).loc main_arg5) := rfl

/-- The result's buffer ends at what the second region's write-backs leave. -/
theorem W3_main_v3 (c : Dev nD) : W3 m c (Proc.devRef .tc main_v3) = (dat1 (V2 m) c).arrAt 5 cfg1.N :=
  W3_arr m c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ (dat1 (V2 m) c).Φ 0 := by
      have := hin1 (V2 m) c; unfold Pipeline.ΦA at this; exact this
    rw [show (pdats m 1 c).Φ 0 = (dat1 (V2 m) c).Φ 0 from rfl]
    iintro ⟨Hp, -, Hr⟩
    iapply h
    isplitl [Hr]; · iexact Hr
    iexact Hp
  hout c := by
    have h : (dat1 (V2 m) c).Φ (Fin.last cfg1.N)
        ⊢ (iprop(Pipeline.scopedRest (Ix := Unit) (Name := ℕ) (U := UR sig nD τ) (Lvl := ℕ) (Val := Elt F) spec1 c ∗ ∃ r, prngReg c r) : sProp 𝕄) := by
      have := hout1 (V2 m) c; unfold Pipeline.ΦA at this; exact this
    rw [Pipeline.ownSems0_none, show (pdats m 1 c).Φ (Fin.last _) = (dat1 (V2 m) c).Φ (Fin.last cfg1.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds each unscoped buffer of each core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

/-- The value run: the result's array ends at what the second region's write-backs leave, the arguments as launched. -/
theorem run_value : θ_run defs (onTc (τ := τ) (main (F := F))) ⟨m, fun _ => 0, ρ⟩ (fun r => ∀ c : Dev nD,
      r.2.mem ((c.tc : Thread nD τ).loc main_v3) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

end Cert.Kernel.Hand

end
-- ==== Proof.KI.Outs.lean ====
/-
  What one call of each kernel body leaves in its output blocks, as pure functions of the blocks it reads
  (for any float instance): the affinity tile, the two accumulators at a batch's first tile and at a later one,
  the folded matrix and the output tile.
-/
import proofs.«104191_g80702435492106_cont_9to1c4b_850_6_alg».proof.Proof.Gen.KernelIdeal.Skeleton

noncomputable section

namespace Cert.KernelIdeal.Outs

open Idealize.ShloMosaic Cert.KernelIdeal Cert.KernelIdeal.Gen

variable {F : FTy → Type} [FloatOps F]

/-- The affinity tile `amp · exp(-dist · inv)` of a block of 512 token rows against the 16 splats. -/
def affT (x : Vec F S1x512x1024 .f32) (p : Vec F S16x1024 .f32) (ls amp : Vec F S1x16 .f32) : Vec F S1x512x16 .f32 :=
  k0_pay2 (k0_pay10 x p ls) (k0_pay11 amp)
/-- `affᵀ x` of one tile: what the first tile of a batch stores. -/
def cFirst (x : Vec F S1x512x1024 .f32) (p : Vec F S16x1024 .f32) (ls amp : Vec F S1x16 .f32) : Vec F S1x16x1024 .f32 :=
  k0_pay5 (k0_pay9 x) (k0_pay10 x p ls) (k0_pay11 amp)
/-- The tile's column sums of the affinities: what the first tile of a batch stores. -/
def gFirst (x : Vec F S1x512x1024 .f32) (p : Vec F S16x1024 .f32) (ls amp : Vec F S1x16 .f32) : Vec F S1x1x16 .f32 :=
  k0_pay6 (k0_pay10 x p ls) (k0_pay11 amp)
/-- A later tile adds its `affᵀ x` to what the block holds. -/
def cNext (x : Vec F S1x512x1024 .f32) (p : Vec F S16x1024 .f32) (ls amp : Vec F S1x16 .f32) (co : Vec F S1x16x1024 .f32) : Vec F S1x16x1024 .f32 :=
  k0_pay7 (k0_pay9 x) (k0_pay10 x p ls) (k0_pay11 amp) co
/-- A later tile adds its column sums to what the block holds. -/
def gNext (x : Vec F S1x512x1024 .f32) (p : Vec F S16x1024 .f32) (ls amp : Vec F S1x16 .f32) (go : Vec F S1x1x16 .f32) : Vec F S1x1x16 .f32 :=
  k0_pay8 (k0_pay10 x p ls) (k0_pay11 amp) go
/-- The folded matrix `(C Wv) Wo` of a batch. -/
def mFold (cb : Vec F S1x16x1024 .f32) (wv wo : Vec F S1024x1024 .f32) : Vec F S16x1024 .f32 :=
  k1_pay1 cb wv wo
/-- The output tile `(aff M) / (aff · g + ε)`. -/
def outT (a : Vec F S1x512x16 .f32) (g : Vec F S1x1x16 .f32) (mm : Vec F S16x1024 .f32) : Vec F S1x512x1024 .f32 :=
  k1_pay2 a g mm

end Cert.KernelIdeal.Outs

end
-- ==== Proof.KI.Body0.lean ====
/-
  The first kernel's body as a triple, at a batch's first tile and at a later one: on whole blocks holding the token
  rows, the splat centres, the log-scales and the amplitudes it leaves the affinity tile in its first output block and
  stores (first tile) or adds (later tile) the tile's share of `affᵀ x` and of the column sums in the other two.
-/
import proofs.«104191_g80702435492106_cont_9to1c4b_850_6_alg».proof.Proof.KI.Outs
import proofs.«104191_g80702435492106_cont_9to1c4b_850_6_alg».proof.Proof.Gen.KernelIdeal.Launch
import proofs.«104191_g80702435492106_cont_9to1c4b_850_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offset of a whole-block access, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 4000000 in
/-- A batch's first tile (the first branch taken, the second not): the two accumulator blocks may hold anything and
    end at the tile's own share. -/
theorem sound_kernel0_A (c : Dev nD) (E : Set ℕ) (i : grid0.Coords) (hc1 : k0_cond1 i = 1#1) (hc2 : ¬ k0_cond2 i = 1#1)
    (arg2 : Memref sig .tc .vmem S1x512x1024 .f32) (harg2 : arg2.IsWhole) (arg3 : Memref sig .tc .vmem S16x1024 .f32) (harg3 : arg3.IsWhole)
    (arg4 : Memref sig .tc .vmem S1x16 .f32) (harg4 : arg4.IsWhole) (arg5 : Memref sig .tc .vmem S1x16 .f32) (harg5 : arg5.IsWhole)
    (arg6 : Memref sig .tc .vmem S1x512x16 .f32) (harg6 : arg6.IsWhole) (arg7 : Memref sig .tc .vmem S1x16x1024 .f32) (harg7 : arg7.IsWhole)
    (arg8 : Memref sig .tc .vmem S1x1x16 .f32) (harg8 : arg8.IsWhole)
    (x0 : Vec F S1x512x1024 .f32) (x1 : Vec F S16x1024 .f32) (x2 x3 : Vec F S1x16 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (Outs.affT x0 x1 x2 x3)
            ∗ owns (c : Thread nD τ) arg7 fullShare (Outs.cFirst x0 x1 x2 x3)
            ∗ owns (c : Thread nD τ) arg8 fullShare (Outs.gFirst x0 x1 x2 x3)) -∗ K ⟨⟩))
      ⊢ wp frame (wpE (defs₀ (F := F)) Variants.none c none) E
          (cc0__pass1 i arg2 harg2 arg3 harg3 arg4 harg4 arg5 harg5 arg6 harg6 arg7 harg7 arg8 harg8) K := by
  simp only [cc0__pass1_eq_skeleton, k0_part1_eq_skeleton]; unfold cc0__pass1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero (S := S1x512x16) hz3 Facts₀.inb_S1x512x16_S1x512x16_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  isplitl [H5]
  · iexists _; isplitr
    swap; · iexact H5
    ipureintro
    rw [View.read_writes_eq_canon _ _ _ (fun y => ⟨_, List.mem_singleton_self _, View.mem_set_unit_zero (S := S1x16x1024) hz3 Facts₀.inb_S1x16x1024_S1x16x1024_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  iexists _; isplitr
  swap; · iexact H6
  ipureintro
  rw [View.read_writes_eq_canon _ _ _ (fun y => ⟨_, List.mem_singleton_self _, View.mem_set_unit_zero (S := S1x1x16) hz3 Facts₀.inb_S1x1x16_S1x1x16_0_0_0 y⟩)]
  sl_unfold_words
  rw [View.canon_unit_zero hz3]
  simp only [View.readAt_eq_ld, harg2.read_unread, harg3.read_unread, harg4.read_unread, harg5.read_unread, harg7.read_unread, harg8.read_unread,
    View.ld_unit_zero (S := S1x512x1024) hz3, View.ld_unit_zero (S := S16x1024) hz2, View.ld_unit_zero (S := S1x16) hz2,
    View.ld_unit_zero (S := S1x16x1024) hz3, View.ld_unit_zero (S := S1x1x16) hz3]
  rfl

set_option maxHeartbeats 4000000 in
/-- A later tile of a batch (the first branch not taken, the second taken): the two accumulator blocks hold `co`, `go`
    and end at those plus the tile's share. -/
theorem sound_kernel0_B (c : Dev nD) (E : Set ℕ) (i : grid0.Coords) (hc1 : ¬ k0_cond1 i = 1#1) (hc2 : k0_cond2 i = 1#1)
    (arg2 : Memref sig .tc .vmem S1x512x1024 .f32) (harg2 : arg2.IsWhole) (arg3 : Memref sig .tc .vmem S16x1024 .f32) (harg3 : arg3.IsWhole)
    (arg4 : Memref sig .tc .vmem S1x16 .f32) (harg4 : arg4.IsWhole) (arg5 : Memref sig .tc .vmem S1x16 .f32) (harg5 : arg5.IsWhole)
    (arg6 : Memref sig .tc .vmem S1x512x16 .f32) (harg6 : arg6.IsWhole) (arg7 : Memref sig .tc .vmem S1x16x1024 .f32) (harg7 : arg7.IsWhole)
    (arg8 : Memref sig .tc .vmem S1x1x16 .f32) (harg8 : arg8.IsWhole)
    (x0 : Vec F S1x512x1024 .f32) (x1 : Vec F S16x1024 .f32) (x2 x3 : Vec F S1x16 .f32) (co : Vec F S1x16x1024 .f32) (go : Vec F S1x1x16 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare co
        ∗ owns (c : Thread nD τ) arg8 fullShare go
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (Outs.affT x0 x1 x2 x3)
            ∗ owns (c : Thread nD τ) arg7 fullShare (Outs.cNext x0 x1 x2 x3 co)
            ∗ owns (c : Thread nD τ) arg8 fullShare (Outs.gNext x0 x1 x2 x3 go)) -∗ K ⟨⟩))
      ⊢ wp frame (wpE (defs₀ (F := F)) Variants.none c none) E
          (cc0__pass1 i arg2 harg2 arg3 harg3 arg4 harg4 arg5 harg5 arg6 harg6 arg7 harg7 arg8 harg8) K := by
  simp only [cc0__pass1_eq_skeleton, k0_part1_eq_skeleton]; unfold cc0__pass1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg7.eq_unread hf5; obtain rfl := harg8.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero (S := S1x512x16) hz3 Facts₀.inb_S1x512x16_S1x512x16_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  isplitl [H5]
  · iexists _; isplitr
    swap; · iexact H5
    ipureintro
    rw [View.read_writes_eq_canon _ _ _ (fun y => ⟨_, List.mem_singleton_self _, View.mem_set_unit_zero (S := S1x16x1024) hz3 Facts₀.inb_S1x16x1024_S1x16x1024_0_0_0 y⟩)]
    sl_unfold_words
    rw [View.canon_unit_zero hz3]
    simp only [View.readAt_eq_ld, harg2.read_unread, harg3.read_unread, harg4.read_unread, harg5.read_unread, harg7.read_unread, harg8.read_unread,
      View.ld_unit_zero (S := S1x512x1024) hz3, View.ld_unit_zero (S := S16x1024) hz2, View.ld_unit_zero (S := S1x16) hz2,
      View.ld_unit_zero (S := S1x16x1024) hz3, View.ld_unit_zero (S := S1x1x16) hz3]
    rfl
  iexists _; isplitr
  swap; · iexact H6
  ipureintro
  rw [View.read_writes_eq_canon _ _ _ (fun y => ⟨_, List.mem_singleton_self _, View.mem_set_unit_zero (S := S1x1x16) hz3 Facts₀.inb_S1x1x16_S1x1x16_0_0_0 y⟩)]
  sl_unfold_words
  rw [View.canon_unit_zero hz3]
  simp only [View.readAt_eq_ld, harg2.read_unread, harg3.read_unread, harg4.read_unread, harg5.read_unread, harg7.read_unread, harg8.read_unread,
    View.ld_unit_zero (S := S1x512x1024) hz3, View.ld_unit_zero (S := S16x1024) hz2, View.ld_unit_zero (S := S1x16) hz2,
    View.ld_unit_zero (S := S1x16x1024) hz3, View.ld_unit_zero (S := S1x1x16) hz3]
  rfl

end Cert.KernelIdeal.Hand

end
-- ==== Proof.KI.Region0.lean ====
/-
  The first kernel's region, point by point, at any contents `V` of the buffers when the region is entered: the blocks
  the eight grid points (two batches of four tiles) read, what each leaves in its three output blocks — the affinity
  tile; the two accumulators, reset at a batch's first tile and added to at the three later ones —, and the body's
  obligation to the pipeline at every point.
-/
import proofs.«104191_g80702435492106_cont_9to1c4b_850_6_alg».proof.Proof.KI.Body0
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current block holds its block of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid -/

/-- "This is a batch's first tile" holds at the points 0 and 4. -/
theorem hcond0_1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- "This is a later tile" holds at the others. -/
theorem hcond0_2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- One of the two branches stores into each accumulator at every point: neither is ever idle. -/
theorem live0_5 : ∀ i : grid0.Coords, cfg0.idle 5 i = false := by decide +kernel
theorem live0_6 : ∀ i : grid0.Coords, cfg0.idle 6 i = false := by decide +kernel

/-! ## The accumulation -/

/-- What the two accumulator blocks hold after the body at position `n`: a batch's first tile stores its share,
    a later tile adds its share to what the point before left. -/
def accAt0 (c : Dev nD) : (n : ℕ) → n < cfg0.N → Vec F S1x16x1024 .f32 × Vec F S1x1x16 .f32
  | 0, hn => (Outs.cFirst (iblk0 V c 0 ⟨0, hn⟩) (iblk0 V c 1 ⟨0, hn⟩) (iblk0 V c 2 ⟨0, hn⟩) (iblk0 V c 3 ⟨0, hn⟩), Outs.gFirst (iblk0 V c 0 ⟨0, hn⟩) (iblk0 V c 1 ⟨0, hn⟩) (iblk0 V c 2 ⟨0, hn⟩) (iblk0 V c 3 ⟨0, hn⟩))
  | n + 1, hn =>
    if (n + 1) % 4 = 0 then
      (Outs.cFirst (iblk0 V c 0 ⟨n + 1, hn⟩) (iblk0 V c 1 ⟨n + 1, hn⟩) (iblk0 V c 2 ⟨n + 1, hn⟩) (iblk0 V c 3 ⟨n + 1, hn⟩), Outs.gFirst (iblk0 V c 0 ⟨n + 1, hn⟩) (iblk0 V c 1 ⟨n + 1, hn⟩) (iblk0 V c 2 ⟨n + 1, hn⟩) (iblk0 V c 3 ⟨n + 1, hn⟩))
    else
      (Outs.cNext (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn)).1,
       Outs.gNext (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn)).2)

/-- At a batch's first tile. -/
theorem accAt0_A (c : Dev nD) (t : Fin cfg0.N) (h0 : t.val % 4 = 0) :
    accAt0 V c t.val t.isLt = (Outs.cFirst (iblk0 V c 0 t) (iblk0 V c 1 t) (iblk0 V c 2 t) (iblk0 V c 3 t), Outs.gFirst (iblk0 V c 0 t) (iblk0 V c 1 t) (iblk0 V c 2 t) (iblk0 V c 3 t)) := by
  obtain ⟨n, hn⟩ := t
  cases n with
  | zero => exact rfl
  | succ n => exact (if_pos h0).trans rfl

/-- At a later tile. -/
theorem accAt0_B (c : Dev nD) (t : Fin cfg0.N) (h0 : ¬t.val % 4 = 0) :
    accAt0 V c t.val t.isLt
      = (Outs.cNext (iblk0 V c 0 t) (iblk0 V c 1 t) (iblk0 V c 2 t) (iblk0 V c 3 t) (accAt0 V c (t.val - 1) (Nat.lt_of_le_of_lt (Nat.sub_le _ _) t.isLt)).1,
         Outs.gNext (iblk0 V c 0 t) (iblk0 V c 1 t) (iblk0 V c 2 t) (iblk0 V c 3 t) (accAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The pipeline's proof data -/

/-- The proof data of the first pipeline on core `c`: the arrays as the region finds them; after the body at point `t`
    each input's block in place, the affinity tile, and the accumulators at `accAt0`; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => Outs.affT (iblk0 V c 0 t) (iblk0 V c 1 t) (iblk0 V c 2 t) (iblk0 V c 3 t)
    | ⟨5, _⟩ => (accAt0 V c t.val t.isLt).1
    | ⟨6, _⟩ => (accAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = Outs.affT (iblk0 V c 0 t) (iblk0 V c 1 t) (iblk0 V c 2 t) (iblk0 V c 3 t) := by dsimp only [dat0]
theorem after0_5 (c : Dev nD) (t : Fin cfg0.N) : (dat0 V c).after 5 t = (accAt0 V c t.val t.isLt).1 := by dsimp only [dat0]
theorem after0_6 (c : Dev nD) (t : Fin cfg0.N) : (dat0 V c).after 6 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later tile an accumulator's current block holds what the point before left: the point is not the first and
    the block was not written back between (it is written back after a batch's last tile only). -/
theorem before0_5_B (c : Dev nD) (t : Fin cfg0.N) (h0 : ¬t.val % 4 = 0) (d) :
    (dat0 V c).before 5 t d = (accAt0 V c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    live0_5 (fun _ _ => rfl)]
  dsimp only [dat0]
theorem before0_6_B (c : Dev nD) (t : Fin cfg0.N) (h0 : ¬t.val % 4 = 0) (d) :
    (dat0 V c).before 6 t d = (accAt0 V c (t.val - 1) (Nat.lt_of_le_of_lt (Nat.sub_le _ _) t.isLt)).2 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    live0_6 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t
    ∗ (dat0 V c).leavesExact 6 t)

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).leavesExact 5 t = owns (c : Thread nD τ) (st0_5 t) fullShare ((dat0 V c).after 5 t) from by
        unfold Dat.leavesExact; rw [live0_5 (cfg0.grid.coords t)],
    show (dat0 V c).leavesExact 6 t = owns (c : Thread nD τ) (st0_6 t) fullShare ((dat0 V c).after 6 t) from by
        unfold Dat.leavesExact; rw [live0_6 (cfg0.grid.coords t)],
    after0_5, after0_6]
  by_cases h0 : t.val % 4 = 0
  · rw [accAt0_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t) ((hcond0_1 t).mpr h0) (fun h => (hcond0_2 t).mp h h0)
      _ _ _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt0_B V c t h0]
    simp only [before0_5_B V c t h0, before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) (fun h => h0 ((hcond0_1 t).mp h)) ((hcond0_2 t).mpr h0)
      _ _ _ _ _ _ _ _ _ _ _ _ _ _ (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
/-
  The second kernel's body as a triple: at a batch's first tile it folds `(C Wv) Wo` into its scratch block and then
  computes the output tile from it; at a later tile the scratch block holds the folded matrix already and is kept.
-/
import proofs.«104191_g80702435492106_cont_9to1c4b_850_6_alg».proof.Proof.KI.Outs
import proofs.«104191_g80702435492106_cont_9to1c4b_850_6_alg».proof.Proof.KI.Body0
import proofs.«104191_g80702435492106_cont_9to1c4b_850_6_alg».proof.Proof.Gen.KernelIdeal.Launch
import proofs.«104191_g80702435492106_cont_9to1c4b_850_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, "this is a batch's first tile", from the grid coordinates. -/
abbrev cond1_0 (i : grid1.Coords) : Prop :=
  (Scalar.cmpi .ne (Scalar.extui (Scalar.cmpi .eq (BitVec.ofNat 32 (i 1).val) 0#32)) 0#32) = 1#1
/-- It holds at the points 0 and 4 — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

set_option maxHeartbeats 4000000 in
/-- A batch's first tile: the scratch block may hold anything and ends at the folded matrix. -/
theorem sound_kernel1_A (c : Dev nD) (E : Set ℕ) (i : grid1.Coords) (hc : cond1_0 i)
    (arg2 : Memref sig .tc .vmem S1x512x16 .f32) (harg2 : arg2.IsWhole) (arg3 : Memref sig .tc .vmem S1x16x1024 .f32) (harg3 : arg3.IsWhole)
    (arg4 : Memref sig .tc .vmem S1x1x16 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x512x1024 .f32) (harg7 : arg7.IsWhole)
    (arg8 : Memref sig .tc .vmem S16x1024 .f32) (harg8 : arg8.IsWhole)
    (a : Vec F S1x512x16 .f32) (cb : Vec F S1x16x1024 .f32) (g : Vec F S1x1x16 .f32) (wv wo : Vec F S1024x1024 .f32) (K : PUnit → sProp 𝕄) :
    iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
        ∗ (∃ d, owns (c : Thread nD τ) arg7 fullShare d) ∗ (∃ d, owns (c : Thread nD τ) arg8 fullShare d)
        ∗ (iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
            ∗ owns (c : Thread nD τ) arg7 fullShare (Outs.outT a g (Outs.mFold cb wv wo))
            ∗ owns (c : Thread nD τ) arg8 fullShare (Outs.mFold cb wv wo)) -∗ K ⟨⟩))
      ⊢ wp frame (wpE (defs₀ (F := F)) Variants.none c none) E
          (cc1__pass2 i arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (fun y => ⟨_, List.mem_singleton_self _, View.mem_set_unit_zero (S := S1x512x1024) hz3 Facts₀.inb_S1x512x1024_S1x512x1024_0_0_0 y⟩)]
    sl_unfold_words
    rw [View.canon_unit_zero hz3]
    simp only [View.readAt_eq_ld, harg2.read_unread, harg3.read_unread, harg4.read_unread, harg5.read_unread, harg6.read_unread,
      View.ld_unit_zero (S := S1x512x16) hz3, View.ld_unit_zero (S := S1x1x16) hz3, View.ld_unit_zero (S := S1x16x1024) hz3,
      View.ld_unit_zero (S := S1024x1024) hz2, View.readCov_unit_zero (S := S16x1024) _ hz2]
    rfl
  iexists _; isplitr
  swap; · iexact H6
  ipureintro
  sl_unfold_words
  rw [View.read_writes_eq_canon _ _ _ (fun y => ⟨_, List.mem_singleton_self _, View.mem_set_unit_zero (S := S16x1024) hz2 Facts₀.inb_S16x1024_S16x1024_0_0 y⟩)]
  rw [View.canon_unit_zero hz2]
  simp only [View.readAt_eq_ld, harg2.read_unread, harg3.read_unread, harg4.read_unread, harg5.read_unread, harg6.read_unread,
    View.ld_unit_zero (S := S1x512x16) hz3, View.ld_unit_zero (S := S1x1x16) hz3, View.ld_unit_zero (S := S1x16x1024) hz3,
    View.ld_unit_zero (S := S1024x1024) hz2, View.readCov_unit_zero (S := S16x1024) _ hz2]
  rfl

set_option maxHeartbeats 4000000 in
/-- A later tile: the scratch block holds `ms` and keeps it. -/
theorem sound_kernel1_B (c : Dev nD) (E : Set ℕ) (i : grid1.Coords) (hc : ¬ cond1_0 i)
    (arg2 : Memref sig .tc .vmem S1x512x16 .f32) (harg2 : arg2.IsWhole) (arg3 : Memref sig .tc .vmem S1x16x1024 .f32) (harg3 : arg3.IsWhole)
    (arg4 : Memref sig .tc .vmem S1x1x16 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x512x1024 .f32) (harg7 : arg7.IsWhole)
    (arg8 : Memref sig .tc .vmem S16x1024 .f32) (harg8 : arg8.IsWhole)
    (a : Vec F S1x512x16 .f32) (cb : Vec F S1x16x1024 .f32) (g : Vec F S1x1x16 .f32) (wv wo : Vec F S1024x1024 .f32) (ms : Vec F S16x1024 .f32) (K : PUnit → sProp 𝕄) :
    iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
        ∗ (∃ d, owns (c : Thread nD τ) arg7 fullShare d) ∗ owns (c : Thread nD τ) arg8 fullShare ms
        ∗ (iprop(owns (c : Thread nD τ) arg2 fullShare a ∗ owns (c : Thread nD τ) arg3 fullShare cb
        ∗ owns (c : Thread nD τ) arg4 fullShare g ∗ owns (c : Thread nD τ) arg5 fullShare wv ∗ owns (c : Thread nD τ) arg6 fullShare wo
            ∗ owns (c : Thread nD τ) arg7 fullShare (Outs.outT a g ms)
            ∗ owns (c : Thread nD τ) arg8 fullShare ms) -∗ K ⟨⟩))
      ⊢ wp frame (wpE (defs₀ (F := F)) Variants.none c none) E
          (cc1__pass2 i arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg8.eq_unread hf6
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (fun y => ⟨_, List.mem_singleton_self _, View.mem_set_unit_zero (S := S1x512x1024) hz3 Facts₀.inb_S1x512x1024_S1x512x1024_0_0_0 y⟩)]
    sl_unfold_words
    rw [View.canon_unit_zero hz3]
    simp only [View.readAt_eq_ld, harg2.read_unread, harg3.read_unread, harg4.read_unread, harg5.read_unread, harg6.read_unread, harg8.read_unread,
      View.ld_unit_zero (S := S1x512x16) hz3, View.ld_unit_zero (S := S16x1024) hz2, View.ld_unit_zero (S := S1x1x16) hz3,
      View.ld_unit_zero (S := S1x16x1024) hz3, View.ld_unit_zero (S := S1024x1024) hz2]
    rfl
  iexists _; isplitr; · ipureintro; exact harg8.read_unread _
  iexact H6

end Cert.KernelIdeal.Hand

end
-- ==== Proof.KI.Region1.lean ====
/-
  The second kernel's region, point by point, at any contents `V` of the buffers when the region is entered: the blocks
  the eight grid points read, the folded matrix the scratch block carries from a batch's first tile through its later
  ones, the output tile each point leaves, and the body's obligation to the pipeline at every point.
-/
import proofs.«104191_g80702435492106_cont_9to1c4b_850_6_alg».proof.Proof.KI.Body1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current block holds its block of the array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The scratch block -/

/-- The kernel's scratch block, a whole buffer of its own. -/
abbrev scM1 : Memref sig .tc .vmem S16x1024 .f32 := Memref.whole cc1_scratch0

/-- What the scratch block holds after the body at position `n`: the folded matrix of the batch the point is in,
    computed at the batch's first tile and kept by the later ones. -/
def mAt1 (c : Dev nD) : (n : ℕ) → n < cfg1.N → Vec F S16x1024 .f32
  | 0, hn => Outs.mFold (iblk1 V c 1 ⟨0, hn⟩) (iblk1 V c 3 ⟨0, hn⟩) (iblk1 V c 4 ⟨0, hn⟩)
  | n + 1, hn =>
    if (n + 1) % 4 = 0 then Outs.mFold (iblk1 V c 1 ⟨n + 1, hn⟩) (iblk1 V c 3 ⟨n + 1, hn⟩) (iblk1 V c 4 ⟨n + 1, hn⟩)
    else mAt1 c n (Nat.lt_of_succ_lt hn)

theorem mAt1_A (c : Dev nD) (t : Fin cfg1.N) (h0 : t.val % 4 = 0) :
    mAt1 V c t.val t.isLt = Outs.mFold (iblk1 V c 1 t) (iblk1 V c 3 t) (iblk1 V c 4 t) := by
  obtain ⟨n, hn⟩ := t
  cases n with
  | zero => exact rfl
  | succ n => exact (if_pos h0).trans rfl

theorem mAt1_B (c : Dev nD) (t : Fin cfg1.N) (h0 : ¬t.val % 4 = 0) :
    mAt1 V c t.val t.isLt = mAt1 V c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (if_neg h0).trans rfl

/-- The region's invariant with the scratch block as a memref owned at some contents, beside the scoped buffers of the
    other kernel and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1 fullShare d)) ∗ (∃ r, prngReg c r)) := by
  unfold Pipeline.ΦA; rw [scopedRest1_eq]; simp only [scM1, owns_whole]; try rfl

/-- The region's invariant before position `n`: before the first point every scoped buffer holds anything; afterwards
    the scratch block holds what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare (mAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare (mAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare (mAt1 V c (n - 1) (by omega))) ∗ (∃ r, prngReg c r)) := by
  cases n with
  | zero => exact absurd rfl hz
  | succ n => rfl

/-! ## The pipeline's proof data -/

/-- The proof data of the second pipeline on core `c`: the arrays as the region finds them; after the body at point `t`
    each input's block in place and the output tile from the affinity tile, the column sums and the scratch block's
    folded matrix; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => Outs.outT (iblk1 V c 0 t) (iblk1 V c 2 t) (mAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = Outs.outT (iblk1 V c 0 t) (iblk1 V c 2 t) (mAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 3200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ,
    after1_0, after1_1, after1_2, after1_3, after1_4, after1_5]
  have hN : t.val < 8 := lt_of_lt_of_eq t.isLt (show cfg1.N = 8 from N_1)
  by_cases h0 : t.val % 4 = 0
  · rw [mAt1_A V c t h0]
    by_cases hz : t.val = 0
    · rw [PhiS1_castSucc V c t, PhiS1_zero V c _ _ hz, PhiA1_eq]
      iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0)
        _ _ _ _ _ _ _ _ _ _ _ _ _ _ (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [R0 R1 R2 R3 R4 R5 R6 R7 R8 R9 R10 HS Hg]
      · isplitl [R0 R1 R2 R3 R4 R5 R6 R7 R8 R9 R10 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS1_castSucc V c t, PhiS1_pos V c _ _ hz]
      iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0)
        _ _ _ _ _ _ _ _ _ _ _ _ _ _ (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [R0 R1 R2 R3 R4 R5 R6 R7 R8 R9 R10 HS Hg]
      · isplitl [R0 R1 R2 R3 R4 R5 R6 R7 R8 R9 R10 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [mAt1_B V c t h0]
    have hz : t.val ≠ 0 := fun e => h0 (by rw [e])
    rw [PhiS1_castSucc V c t, PhiS1_pos V c _ _ hz]
    iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => h0 ((hcond1_0 t).mp h))
      _ _ _ _ _ _ _ _ _ _ _ _ _ _ (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [R0 R1 R2 R3 R4 R5 R6 R7 R8 R9 R10 HS Hg]
    · isplitl [R0 R1 R2 R3 R4 R5 R6 R7 R8 R9 R10 HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the scratch block's contents forgotten. -/
theorem hout1 (c : Dev nD) : (dat1 V c).Φ (Fin.last cfg1.N) ⊢ Pipeline.ΦA spec1 c := by
  have hl : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ hl, PhiA1_eq]
  iintro ⟨⟨R0, R1, R2, R3, R4, R5, R6, R7, R8, R9, R10, HS⟩, Hg⟩
  isplitl [R0 R1 R2 R3 R4 R5 R6 R7 R8 R9 R10 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexists _; iexact HS
  iexact Hg

end Region1

end Cert.KernelIdeal.Hand

end
-- ==== Proof.KI.Run.lean ====
/-
  The whole program, from the launch to the return: the two reshapes of the host, the first kernel's region, the second's.
  Every weakly fair execution terminates, and the final memory holds each unscoped buffer at the fold of what the three
  items leave: the arguments as launched, the result at what the second region's write-backs leave.
-/
import proofs.«104191_g80702435492106_cont_9to1c4b_850_6_alg».proof.Proof.KI.Region0
import proofs.«104191_g80702435492106_cont_9to1c4b_850_6_alg».proof.Proof.KI.Region1
import proofs.«104191_g80702435492106_cont_9to1c4b_850_6_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the host's two reshapes, read at the TensorCore's references: what the first region's proof data take. -/
abbrev V1 : (c : Dev nD) → (b : Ref sig .tc) → Buf (Elt F) ((c : Thread nD τ).loc b) := fun c b => Gen.V1 m c b
/-- At the first region's exit: its arrays at what the pipeline leaves, every other buffer as entered. -/
def W2 (c : Dev nD) : Valuation τ sig (Elt F) :=
  Pipeline.withArrays spec0 c (Gen.V1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = Gen.V1 m c (Proc.devRef .tc main_arg0) := (W2_arr m c 0).trans (((dat0 (V1 m) c).arrAt_in 0 rfl _).trans (A_eq0 (V1 m) c 0))
    _ = Gen.V0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = Gen.V1 m c (Proc.devRef .tc main_arg1) := (W2_arr m c 1).trans (((dat0 (V1 m) c).arrAt_in 1 rfl _).trans (A_eq0 (V1 m) c 1))
    _ = Gen.V0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = Gen.V1 m c (Proc.devRef .tc main_arg2) := W2_of_ne m c main_arg2 (by decide)
    _ = Gen.V0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = Gen.V1 m c (Proc.devRef .tc main_arg3) := W2_of_ne m c main_arg3 (by decide)
    _ = Gen.V0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 3).trans (((dat1 (V2 m) c).arrAt_in 3 rfl _).trans (A_eq1 (V2 m) c 3))
    _ = Gen.V1 m c (Proc.devRef .tc main_arg4) := W2_of_ne m c main_arg4 (by decide)
    _ = Gen.V0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 4).trans (((dat1 (V2 m) c).arrAt_in 4 rfl _).trans (A_eq1 (V2 m) c 4))
    _ = Gen.V1 m c (Proc.devRef .tc main_arg5) := W2_of_ne m c main_arg5 (by decide)
    _ = Gen.V0 m c (Proc.devRef .tc main_arg5) := Gen.V1_of m c main_arg5 (by decide)
    _ = m ((c : Thread nD τ).loc main_arg5) := rfl

/-- The result's buffer ends at what the second region's write-backs leave. -/
theorem W3_main_v3 (c : Dev nD) : W3 m c (Proc.devRef .tc main_v3) = (dat1 (V2 m) c).arrAt 5 cfg1.N :=
  W3_arr m c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ (dat1 (V2 m) c).Φ 0 := by
      have := hin1 (V2 m) c; unfold Pipeline.ΦA at this; exact this
    rw [show (pdats m 1 c).Φ 0 = (dat1 (V2 m) c).Φ 0 from rfl]
    iintro ⟨Hp, -, Hr⟩
    iapply h
    isplitl [Hr]; · iexact Hr
    iexact Hp
  hout c := by
    have h : (dat1 (V2 m) c).Φ (Fin.last cfg1.N)
        ⊢ (iprop(Pipeline.scopedRest (Ix := Unit) (Name := ℕ) (U := UR sig nD τ) (Lvl := ℕ) (Val := Elt F) spec1 c ∗ ∃ r, prngReg c r) : sProp 𝕄) := by
      have := hout1 (V2 m) c; unfold Pipeline.ΦA at this; exact this
    rw [Pipeline.ownSems0_none, show (pdats m 1 c).Φ (Fin.last _) = (dat1 (V2 m) c).Φ (Fin.last cfg1.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds each unscoped buffer of each core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

/-- The value run: the result's array ends at what the second region's write-backs leave, the arguments as launched. -/
theorem run_value : θ_run defs (onTc (τ := τ) (main (F := F))) ⟨m, fun _ => 0, ρ⟩ (fun r => ∀ c : Dev nD,
      r.2.mem ((c.tc : Thread nD τ).loc main_v3) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

end Cert.KernelIdeal.Hand

end
-- ==== Proof.Spec.lean ====
/-
  The mathematics of the claim over the real numbers, free of any program.

  Splat attention: token row x[b,s,:] meets K = 16 splats (centre p[k,:], log-scale ls[k], amplitude amp[k]) with affinity
  a[b,s,k] = amp[k] * exp(-dist / (2 scale² + ε)), dist = max(|x|² + |p|² - 2 x·p, 0).  The reference forms the S × S matrix
  A = a aᵀ, divides each row by its sum plus ε, and applies it to (x Wv), then Wo.  The kernel never forms A: it
  accumulates g = Σ_s a[b,s,:] and C = aᵀ x tile by tile (four tiles of 512 rows), folds M = (C Wv) Wo once per batch and
  returns (a M) / (a g + ε).  Both are the same real function: the row sum of A is a·g, and the products reassociate.
-/
import Idealize.ShloMosaic.PureOps.Ideal

noncomputable section

open scoped BigOperators

namespace Cert.Spec

/-! ## One row against one splat -/

/-- The squared length of a row. -/
def rsq (r : Fin 1024 → ℝ) : ℝ := ∑ d, r d * r d
/-- The inner product of two rows. -/
def rdot (r q : Fin 1024 → ℝ) : ℝ := ∑ d, r d * q d
/-- The squared distance, clamped at zero. -/
def rdist (r q : Fin 1024 → ℝ) : ℝ := max (rsq r + rsq q - 2 * rdot r q) 0
/-- The affinity as the reference spells it: a quotient by `2 (e^l)² + ε`. -/
def affRrow (r q : Fin 1024 → ℝ) (l a ε : ℝ) : ℝ :=
  a * Real.exp (-(rdist r q) / (2 * (Real.exp l * Real.exp l) + ε))
/-- The affinity as the kernel spells it: a product with the reciprocal of `2 e^{2l} + ε`. -/
def affKrow (r q : Fin 1024 → ℝ) (l a ε : ℝ) : ℝ :=
  a * Real.exp ((0 - rdist r q) * (1 / (2 * Real.exp (2 * l) + ε)))

/-- The two spellings agree: `(e^l)² = e^{2l}` and a quotient is the product with the reciprocal. -/
theorem affKrow_eq (r q : Fin 1024 → ℝ) (l a ε : ℝ) : affKrow r q l a ε = affRrow r q l a ε := by
  unfold affKrow affRrow
  have h : Real.exp (2 * l) = Real.exp l * Real.exp l := by
    rw [two_mul, Real.exp_add]
  rw [h, zero_sub, mul_one_div]

/-- The affinity's scale denominator is positive. -/
theorem scaleK_pos (l ε : ℝ) (hε : 0 < ε) : 0 < 2 * Real.exp (2 * l) + ε := by
  have h := Real.exp_pos (2 * l)
  linarith
theorem scaleR_pos (l ε : ℝ) (hε : 0 < ε) : 0 < 2 * (Real.exp l * Real.exp l) + ε := by
  have h := mul_pos (Real.exp_pos l) (Real.exp_pos l)
  linarith

/-! ## Whole arrays -/

section Arrays

variable (x : Fin 2 → Fin 2048 → Fin 1024 → ℝ) (p : Fin 16 → Fin 1024 → ℝ) (ls amp : Fin 16 → ℝ)
  (wv wo : Fin 1024 → Fin 1024 → ℝ) (ε : ℝ)

/-- The reference's affinities. -/
def affR (b : Fin 2) (s : Fin 2048) (k : Fin 16) : ℝ := affRrow (x b s) (p k) (ls k) (amp k) ε
/-- The kernel's affinities. -/
def affK (b : Fin 2) (s : Fin 2048) (k : Fin 16) : ℝ := affKrow (x b s) (p k) (ls k) (amp k) ε

theorem affK_eq : affK x p ls amp ε = affR x p ls amp ε := by
  funext b s k; exact affKrow_eq _ _ _ _ _

variable (a : Fin 2 → Fin 2048 → Fin 16 → ℝ)

/-! ### The reference -/

/-- The rank-16 attention matrix. -/
def attn (b : Fin 2) (i j : Fin 2048) : ℝ := ∑ k, a b i k * a b j k
/-- Its row sums. -/
def rowsum (b : Fin 2) (i : Fin 2048) : ℝ := ∑ j, attn a b i j
/-- The value projection. -/
def vproj (b : Fin 2) (j : Fin 2048) (d : Fin 1024) : ℝ := ∑ d', x b j d' * wv d' d
/-- The reference's result. -/
def outR (b : Fin 2) (i : Fin 2048) (e : Fin 1024) : ℝ :=
  ∑ d, (∑ j, (attn a b i j / (rowsum a b i + ε)) * vproj x wv b j d) * wo d e

/-! ### The kernel -/

/-- Row `s` of tile `j` (four tiles of 512 rows). -/
def tile (j : Fin 4) (s : Fin 512) : Fin 2048 := ⟨512 * j.val + s.val, by omega⟩
/-- One tile's share of the column sums of the affinities. -/
def gPart (b : Fin 2) (j : Fin 4) (k : Fin 16) : ℝ := ∑ s : Fin 512, a b (tile j s) k
/-- One tile's share of `aᵀ x`. -/
def cPart (b : Fin 2) (j : Fin 4) (k : Fin 16) (d : Fin 1024) : ℝ := ∑ s : Fin 512, a b (tile j s) k * x b (tile j s) d
/-- The column sums as the kernel accumulates them, tile after tile. -/
def gAcc (b : Fin 2) (k : Fin 16) : ℝ := ((gPart a b 0 k + gPart a b 1 k) + gPart a b 2 k) + gPart a b 3 k
/-- `aᵀ x` as the kernel accumulates it, tile after tile. -/
def cAcc (b : Fin 2) (k : Fin 16) (d : Fin 1024) : ℝ :=
  ((cPart x a b 0 k d + cPart x a b 1 k d) + cPart x a b 2 k d) + cPart x a b 3 k d
/-- The folded matrix `(C Wv) Wo`. -/
def mK (b : Fin 2) (k : Fin 16) (e : Fin 1024) : ℝ := ∑ d, (∑ d', cAcc x a b k d' * wv d' d) * wo d e
/-- The kernel's denominator. -/
def denK (b : Fin 2) (i : Fin 2048) : ℝ := (∑ k, a b i k * gAcc a b k) + ε
/-- The kernel's result. -/
def outK (b : Fin 2) (i : Fin 2048) (e : Fin 1024) : ℝ := (∑ k, a b i k * mK x wv wo a b k e) / denK ε a b i

/-- A sum over the 2048 rows is the sum of the four tiles' sums, in the kernel's order. -/
theorem sum_tiles (f : Fin 2048 → ℝ) :
    (((∑ s : Fin 512, f (tile 0 s)) + ∑ s : Fin 512, f (tile 1 s)) + ∑ s : Fin 512, f (tile 2 s)) + ∑ s : Fin 512, f (tile 3 s)
      = ∑ i : Fin 2048, f i := by
  -- Row `512 j + s` is the image of the pair `(j, s)` under the standard bijection `Fin 4 × Fin 512 ≃ Fin 2048`.
  have h : ∑ i : Fin 2048, f i = ∑ j : Fin 4, ∑ s : Fin 512, f (tile j s) := by
    have h1 : ∑ i : Fin 2048, f i = ∑ js : Fin 4 × Fin 512, f (finProdFinEquiv js) :=
      ((finProdFinEquiv (m := 4) (n := 512)).sum_comp f).symm
    rw [h1, Fintype.sum_prod_type]
    refine Finset.sum_congr rfl fun j _ => Finset.sum_congr rfl fun s _ => ?_
    congr 1
    apply Fin.ext
    simp only [finProdFinEquiv_apply_val, tile]
    omega
  rw [h, Fin.sum_univ_four]

/-- The accumulated column sums are the column sums over all 2048 rows. -/
private theorem gAcc_eq (b : Fin 2) (k : Fin 16) : gAcc a b k = ∑ s : Fin 2048, a b s k := by
  unfold gAcc gPart
  exact sum_tiles (fun s => a b s k)

/-- The accumulated `aᵀ x` is the sum over all 2048 rows. -/
private theorem cAcc_eq (b : Fin 2) (k : Fin 16) (d : Fin 1024) :
    cAcc x a b k d = ∑ s : Fin 2048, a b s k * x b s d := by
  unfold cAcc cPart
  exact sum_tiles (fun s => a b s k * x b s d)

/-- The kernel's denominator is the reference's: the row sum of `a aᵀ` is `a · g`. -/
theorem denK_eq (b : Fin 2) (i : Fin 2048) : denK ε a b i = rowsum a b i + ε := by
  unfold denK rowsum attn
  congr 1
  rw [Finset.sum_comm]
  refine Finset.sum_congr rfl fun k _ => ?_
  rw [gAcc_eq, Finset.mul_sum]

/-- `(aᵀ x) Wv = aᵀ (x Wv)`. -/
private theorem cAcc_wv (b : Fin 2) (k : Fin 16) (d : Fin 1024) :
    ∑ d', cAcc x a b k d' * wv d' d = ∑ s : Fin 2048, a b s k * vproj x wv b s d := by
  unfold vproj
  simp only [cAcc_eq, Finset.sum_mul, Finset.mul_sum]
  rw [Finset.sum_comm]
  refine Finset.sum_congr rfl fun s _ => Finset.sum_congr rfl fun d' _ => ?_
  ring

/-- The numerators agree: `a ((aᵀ x Wv) Wo) = ((a aᵀ) (x Wv)) Wo`. -/
private theorem num_eq (b : Fin 2) (i : Fin 2048) (e : Fin 1024) :
    ∑ k, a b i k * mK x wv wo a b k e = ∑ d, (∑ j, attn a b i j * vproj x wv b j d) * wo d e := by
  unfold mK attn
  simp only [cAcc_wv, Finset.sum_mul, Finset.mul_sum]
  rw [Finset.sum_comm]
  refine Finset.sum_congr rfl fun d _ => ?_
  rw [Finset.sum_comm]
  refine Finset.sum_congr rfl fun j _ => Finset.sum_congr rfl fun k _ => ?_
  ring

/-- THE LAW: the factored form is the reference's, over the reals (a quotient by zero being zero on both sides). -/
theorem outK_eq : outK x wv wo ε a = outR x wv wo ε a := by
  funext b i e
  unfold outK outR
  rw [num_eq, denK_eq, Finset.sum_div]
  refine Finset.sum_congr rfl fun d _ => ?_
  rw [mul_div_right_comm]
  congr 1
  rw [Finset.sum_div]
  refine Finset.sum_congr rfl fun j _ => ?_
  rw [mul_div_right_comm]

/-- With positive affinities up to the amplitude's sign the denominator is positive:
    `a·g = Σ_k amp_k² e_ik Σ_j e_jk ≥ 0`. -/
theorem denK_pos (hε : 0 < ε) (am : Fin 16 → ℝ) (e : Fin 2 → Fin 2048 → Fin 16 → ℝ) (he : ∀ b s k, 0 < e b s k)
    (ha : ∀ b s k, a b s k = am k * e b s k) (b : Fin 2) (i : Fin 2048) : 0 < denK ε a b i := by
  unfold denK
  have h : 0 ≤ ∑ k, a b i k * gAcc a b k := by
    refine Finset.sum_nonneg fun k _ => ?_
    rw [gAcc_eq]
    simp only [ha]
    rw [← Finset.mul_sum]
    have hs : 0 ≤ ∑ s, e b s k := Finset.sum_nonneg fun s _ => (he b s k).le
    have hr : am k * e b i k * (am k * ∑ s, e b s k) = (am k * am k) * (e b i k * ∑ s, e b s k) := by ring
    rw [hr]
    exact mul_nonneg (mul_self_nonneg _) (mul_nonneg (he b i k).le hs)
  linarith

end Arrays

/-- The kernel's denominator at the kernel's affinities is positive. -/
theorem denK_affK_pos (x : Fin 2 → Fin 2048 → Fin 1024 → ℝ) (p : Fin 16 → Fin 1024 → ℝ) (ls amp : Fin 16 → ℝ) (ε : ℝ) (hε : 0 < ε)
    (b : Fin 2) (i : Fin 2048) : 0 < denK ε (affK x p ls amp ε) b i := by
  -- The kernel's affinity is the amplitude times an exponential, and an exponential is positive.
  exact denK_pos (ε := ε) (a := affK x p ls amp ε) hε amp
    (fun b s k => Real.exp ((0 - rdist (x b s) (p k)) * (1 / (2 * Real.exp (2 * ls k) + ε))))
    (fun _ _ _ => Real.exp_pos _) (fun _ _ _ => rfl) b i

/-- The reference's denominator at the reference's affinities is positive. -/
theorem rowsum_affR_pos (x : Fin 2 → Fin 2048 → Fin 1024 → ℝ) (p : Fin 16 → Fin 1024 → ℝ) (ls amp : Fin 16 → ℝ) (ε : ℝ) (hε : 0 < ε)
    (b : Fin 2) (i : Fin 2048) : 0 < rowsum (affR x p ls amp ε) b i + ε := by
  rw [← denK_eq, ← affK_eq]
  exact denK_affK_pos x p ls amp ε hε b i

end Cert.Spec

end
-- ==== Proof.Consts.lean ====
/-
  The one float literal both programs share, ε = f32(1e-8), as a positive real.
-/
import Idealize.ShloMosaic.PureOps.Ideal

noncomputable section

namespace Cert.Consts

open Idealize.ShloMosaic

/-- The real number the pattern `0x322BCC77` denotes. -/
def eps : ℝ := (Ideal.ofBits .f32 0x322BCC77#32).toReal

/-- The pattern has sign `0`, exponent field `100` and fraction field `2870391`: it denotes the dyadic
    `(2 ^ 23 + 2870391) · 2 ^ (100 - 127 - 23) = 11258999 · 2 ^ (-50)`. -/
private theorem ofBits_eps_dyadic :
    Ideal.ofBits .f32 0x322BCC77#32 = (((11258999 : ℝ) * (2 : ℝ) ^ (-50 : Int) : ℝ) : EReal) := by
  simp [Ideal.ofBits, Ideal.ieee, -EReal.coe_mul]

/-- So `eps` is that dyadic. -/
private theorem eps_eq : eps = (11258999 : ℝ) * (2 : ℝ) ^ (-50 : Int) := by
  rw [eps, ofBits_eps_dyadic, EReal.toReal_coe]

/-- The pattern denotes that real (it is a finite pattern). -/
theorem ofBits_eps : Ideal.ofBits .f32 0x322BCC77#32 = ((eps : ℝ) : EReal) := by
  rw [eps_eq, ofBits_eps_dyadic]

/-- It is positive. -/
theorem eps_pos : 0 < eps := by
  rw [eps_eq]; positivity

/-- The zero pattern. -/
theorem ofBits_zero : Ideal.ofBits .f32 0x00000000#32 = ((0 : ℝ) : EReal) := by
  simp [Ideal.ofBits, Ideal.ieee]
/-- The pattern of one. -/
theorem ofBits_one : Ideal.ofBits .f32 0x3F800000#32 = ((1 : ℝ) : EReal) := by
  simp [Ideal.ofBits, Ideal.ieee, -EReal.coe_mul]; norm_num
/-- The pattern of two. -/
theorem ofBits_two : Ideal.ofBits .f32 0x40000000#32 = ((2 : ℝ) : EReal) := by
  simp [Ideal.ofBits, Ideal.ieee, -EReal.coe_mul]; norm_num

end Cert.Consts

end
-- ==== Proof.KI.Tile0.lean ====
/-
  The first kernel's blocks read at an index, over the reals: with every entry of the blocks it reads a real number,
  the affinity tile is the row-against-splat affinity, a batch's first tile stores its share of `affᵀ x` and of the
  column sums, and a later tile adds its share to what the block holds.
-/
import proofs.«104191_g80702435492106_cont_9to1c4b_850_6_alg».proof.Proof.KI.Outs
import proofs.«104191_g80702435492106_cont_9to1c4b_850_6_alg».proof.Proof.Spec
import proofs.«104191_g80702435492106_cont_9to1c4b_850_6_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Spec Cert.Consts

/-! ## The extended reals: the coercion of a finite sum -/

/-- The coercion of a finite sum of reals is the sum of the coercions. -/
private theorem coe_sum {ι : Type} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-! ## Layout operations at an index given by coordinates -/

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis of a matrix -/

/-- The sum along the rows' entries: at row `r` the sum over the columns. -/
private theorem rowSum_apply {m n : ℕ} (v : FVec Ideal ⟨2, ![m, n]⟩ .f32)
    (h : (⟨2, ![m, n]⟩ : Shape).Reduces [1] ⟨1, ![m]⟩) (hφ : FKind.Formats .f32)
    (hacc : (0x00000000#32 : BitVec 32) = 0x00000000#32) (r : Fin m) :
    multiReduction .add [1] ⟨1, ![m]⟩ v 0x00000000#32 h hφ hacc (ix1 r) = ∑ d : Fin n, v (ix2 r d) :=
  (Ideal.multiReduction_add_single v 0x00000000#32 h hφ hacc (ix1 r)).trans
    (Finset.sum_congr rfl fun d _ => congrArg v (funext fun a => by
      match a with
      | ⟨0, _⟩ => rfl
      | ⟨1, _⟩ => rfl))

/-- The sum down the columns: at column `c` the sum over the rows. -/
private theorem colSum_apply {m n : ℕ} (v : FVec Ideal ⟨2, ![m, n]⟩ .f32)
    (h : (⟨2, ![m, n]⟩ : Shape).Reduces [0] ⟨1, ![n]⟩) (hφ : FKind.Formats .f32)
    (hacc : (0x00000000#32 : BitVec 32) = 0x00000000#32) (c : Fin n) :
    multiReduction .add [0] ⟨1, ![n]⟩ v 0x00000000#32 h hφ hacc (ix1 c) = ∑ r : Fin m, v (ix2 r c) :=
  (Ideal.multiReduction_add_single v 0x00000000#32 h hφ hacc (ix1 c)).trans
    (Finset.sum_congr rfl fun r _ => congrArg v (funext fun a => by
      match a with
      | ⟨0, _⟩ => rfl
      | ⟨1, _⟩ => rfl))

/-! ## The two matrix products at an index -/

/-- Rows against splat centres, contracting the feature axis of both: the left index on axis 0 is the row. -/
private theorem lhs_rowdot_0 (i : S512x16.Idx) (q : dot_S512x1024_S16x1024_S512x16_1_1_0_0_n_n.contr.Idx) :
    (dot_S512x1024_S16x1024_S512x16_1_1_0_0_n_n.lhsIdx i q 0).val = (i 0).val := by
  unfold DotDims.lhsIdx
  rw [dif_neg (show ¬(0 : Fin S512x1024.rank) ∈ dot_S512x1024_S16x1024_S512x16_1_1_0_0_n_n.lhsBatch by decide), dif_pos (show (0 : Fin S512x1024.rank) ∈ dot_S512x1024_S16x1024_S512x16_1_1_0_0_n_n.lhsNonContracting by decide)]
  rfl
private theorem lhs_rowdot_1 (i : S512x16.Idx) (q : dot_S512x1024_S16x1024_S512x16_1_1_0_0_n_n.contr.Idx) :
    (dot_S512x1024_S16x1024_S512x16_1_1_0_0_n_n.lhsIdx i q 1).val = (q ⟨0, by decide⟩).val :=
  dot_S512x1024_S16x1024_S512x16_1_1_0_0_n_n.lhsIdx_val_of_single rfl i q
private theorem rhs_rowdot_0 (i : S512x16.Idx) (q : dot_S512x1024_S16x1024_S512x16_1_1_0_0_n_n.contr.Idx) :
    (dot_S512x1024_S16x1024_S512x16_1_1_0_0_n_n.rhsIdx i q 0).val = (i 1).val := by
  unfold DotDims.rhsIdx
  rw [dif_neg (show ¬(0 : Fin S16x1024.rank) ∈ dot_S512x1024_S16x1024_S512x16_1_1_0_0_n_n.rhsBatch by decide), dif_pos (show (0 : Fin S16x1024.rank) ∈ dot_S512x1024_S16x1024_S512x16_1_1_0_0_n_n.rhsNonContracting by decide)]
  rfl
private theorem rhs_rowdot_1 (i : S512x16.Idx) (q : dot_S512x1024_S16x1024_S512x16_1_1_0_0_n_n.contr.Idx) :
    (dot_S512x1024_S16x1024_S512x16_1_1_0_0_n_n.rhsIdx i q 1).val = (q ⟨0, by decide⟩).val :=
  dot_S512x1024_S16x1024_S512x16_1_1_0_0_n_n.rhsIdx_val_of_single rfl i q

/-- The product of the rows with the splat centres, from a zero accumulator: at `(s, k)` the inner product of row `s`
    and centre `k`. -/
private theorem rowdot_apply (prec : Option ContractPrecision) (lhs : FVec Ideal S512x1024 .f32) (rhs : FVec Ideal S16x1024 .f32)
    (s : Fin 512) (k : Fin 16) :
    matmul dot_S512x1024_S16x1024_S512x16_1_1_0_0_n_n prec lhs rhs (constant (F := Ideal) S512x16 .f32 0x00000000#32) (ix2 s k)
      = ∑ d : Fin 1024, lhs (ix2 s d) * rhs (ix2 k d) := by
  simp only [matmul]
  rw [Ideal.matmul_constant_zero_apply, ← Equiv.sum_comp (contrEquiv1 dot_S512x1024_S16x1024_S512x16_1_1_0_0_n_n 1024 rfl rfl).symm]
  refine Finset.sum_congr rfl fun d _ => ?_
  have hk := contrEquiv1_symm_val dot_S512x1024_S16x1024_S512x16_1_1_0_0_n_n 1024 rfl rfl d
  have el : dot_S512x1024_S16x1024_S512x16_1_1_0_0_n_n.lhsIdx (ix2 s k) ((contrEquiv1 dot_S512x1024_S16x1024_S512x16_1_1_0_0_n_n 1024 rfl rfl).symm d) = ix2 s d := funext fun a => Fin.ext (by
    match a with
    | ⟨0, _⟩ => exact lhs_rowdot_0 _ _
    | ⟨1, _⟩ => exact (lhs_rowdot_1 _ _).trans hk)
  have er : dot_S512x1024_S16x1024_S512x16_1_1_0_0_n_n.rhsIdx (ix2 s k) ((contrEquiv1 dot_S512x1024_S16x1024_S512x16_1_1_0_0_n_n 1024 rfl rfl).symm d) = ix2 k d := funext fun a => Fin.ext (by
    match a with
    | ⟨0, _⟩ => exact rhs_rowdot_0 _ _
    | ⟨1, _⟩ => exact (rhs_rowdot_1 _ _).trans hk)
  rw [el, er]

/-- The affinities against the rows, contracting the row axis of both: the left index on axis 0 is the contraction's. -/
private theorem lhs_afftx_0 (i : S16x1024.Idx) (q : dot_S512x16_S512x1024_S16x1024_0_0_1_1_n_n.contr.Idx) :
    (dot_S512x16_S512x1024_S16x1024_0_0_1_1_n_n.lhsIdx i q 0).val = (q ⟨0, by decide⟩).val :=
  dot_S512x16_S512x1024_S16x1024_0_0_1_1_n_n.lhsIdx_val_of_single rfl i q
private theorem lhs_afftx_1 (i : S16x1024.Idx) (q : dot_S512x16_S512x1024_S16x1024_0_0_1_1_n_n.contr.Idx) :
    (dot_S512x16_S512x1024_S16x1024_0_0_1_1_n_n.lhsIdx i q 1).val = (i 0).val := by
  unfold DotDims.lhsIdx
  rw [dif_neg (show ¬(1 : Fin S512x16.rank) ∈ dot_S512x16_S512x1024_S16x1024_0_0_1_1_n_n.lhsBatch by decide), dif_pos (show (1 : Fin S512x16.rank) ∈ dot_S512x16_S512x1024_S16x1024_0_0_1_1_n_n.lhsNonContracting by decide)]
  rfl
private theorem rhs_afftx_0 (i : S16x1024.Idx) (q : dot_S512x16_S512x1024_S16x1024_0_0_1_1_n_n.contr.Idx) :
    (dot_S512x16_S512x1024_S16x1024_0_0_1_1_n_n.rhsIdx i q 0).val = (q ⟨0, by decide⟩).val :=
  dot_S512x16_S512x1024_S16x1024_0_0_1_1_n_n.rhsIdx_val_of_single rfl i q
private theorem rhs_afftx_1 (i : S16x1024.Idx) (q : dot_S512x16_S512x1024_S16x1024_0_0_1_1_n_n.contr.Idx) :
    (dot_S512x16_S512x1024_S16x1024_0_0_1_1_n_n.rhsIdx i q 1).val = (i 1).val := by
  unfold DotDims.rhsIdx
  rw [dif_neg (show ¬(1 : Fin S512x1024.rank) ∈ dot_S512x16_S512x1024_S16x1024_0_0_1_1_n_n.rhsBatch by decide), dif_pos (show (1 : Fin S512x1024.rank) ∈ dot_S512x16_S512x1024_S16x1024_0_0_1_1_n_n.rhsNonContracting by decide)]
  rfl

/-- The affinities transposed against the rows, from a zero accumulator: at `(k, d)` the sum over the rows `s` of
    the affinity at `(s, k)` times the row's entry `d`. -/
private theorem afftx_apply (prec : Option ContractPrecision) (lhs : FVec Ideal S512x16 .f32) (rhs : FVec Ideal S512x1024 .f32)
    (k : Fin 16) (d : Fin 1024) :
    matmul dot_S512x16_S512x1024_S16x1024_0_0_1_1_n_n prec lhs rhs (constant (F := Ideal) S16x1024 .f32 0x00000000#32) (ix2 k d)
      = ∑ s : Fin 512, lhs (ix2 s k) * rhs (ix2 s d) := by
  simp only [matmul]
  rw [Ideal.matmul_constant_zero_apply, ← Equiv.sum_comp (contrEquiv1 dot_S512x16_S512x1024_S16x1024_0_0_1_1_n_n 512 rfl rfl).symm]
  refine Finset.sum_congr rfl fun s _ => ?_
  have hk := contrEquiv1_symm_val dot_S512x16_S512x1024_S16x1024_0_0_1_1_n_n 512 rfl rfl s
  have el : dot_S512x16_S512x1024_S16x1024_0_0_1_1_n_n.lhsIdx (ix2 k d) ((contrEquiv1 dot_S512x16_S512x1024_S16x1024_0_0_1_1_n_n 512 rfl rfl).symm s) = ix2 s k := funext fun a => Fin.ext (by
    match a with
    | ⟨0, _⟩ => exact (lhs_afftx_0 _ _).trans hk
    | ⟨1, _⟩ => exact lhs_afftx_1 _ _)
  have er : dot_S512x16_S512x1024_S16x1024_0_0_1_1_n_n.rhsIdx (ix2 k d) ((contrEquiv1 dot_S512x16_S512x1024_S16x1024_0_0_1_1_n_n 512 rfl rfl).symm s) = ix2 s d := funext fun a => Fin.ext (by
    match a with
    | ⟨0, _⟩ => exact (rhs_afftx_0 _ _).trans hk
    | ⟨1, _⟩ => exact rhs_afftx_1 _ _)
  rw [el, er]

/-- The coercion of a maximum of reals is the maximum of the coercions. -/
private theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-! ## The exponential factor's parts that are not entrywise -/

section Parts

variable (X : FVec Ideal S1x512x1024 .f32) (P : FVec Ideal S16x1024 .f32) (LS AMP : FVec Ideal S1x16 .f32)

/-- The rows' squared lengths, repeated along the splats. -/
private def sqX : FVec Ideal S512x16 .f32 :=
  broadcastTo S512x16 (shapeCast S512x1 (multiReduction .add [1] S512 (mulf (k0_pay9 X) (k0_pay9 X)) 0x00000000#32 reduces_S512x1024_S512 (.inl rfl) rfl) shapeCasts_S512_S512x1) broadcasts_S512x1_S512x16
/-- The centres' squared lengths, repeated along the rows. -/
private def sqP : FVec Ideal S512x16 .f32 :=
  broadcastTo S512x16 (shapeCast S1x16 (multiReduction .add [1] S16 (mulf P P) 0x00000000#32 reduces_S16x1024_S16 (.inl rfl) rfl) shapeCasts_S16_S1x16) broadcasts_S1x16_S512x16
/-- The inner products of rows and centres. -/
private def dotXP : FVec Ideal S512x16 .f32 :=
  matmul dot_S512x1024_S16x1024_S512x16_1_1_0_0_n_n (some .fp32) (k0_pay9 X) P (constant S512x16 .f32 0x00000000#32)
/-- The reciprocal scales `1 / (2 e^{2l} + ε)`, repeated along the rows. -/
private def invScale : FVec Ideal S512x16 .f32 :=
  broadcastTo S512x16 (shapeCast S1x16 (divf (broadcast S16 (Scalar.ofBits .f32 0x3F800000#32)) (addf (mulf (broadcast S16 (Scalar.ofBits .f32 0x40000000#32)) (exp (mulf (broadcast S16 (Scalar.ofBits .f32 0x40000000#32)) (shapeCast S16 LS shapeCasts_S1x16_S16)))) (broadcast S16 (Scalar.ofBits .f32 0x322BCC77#32)))) shapeCasts_S16_S1x16) broadcasts_S1x16_S512x16

/-- The exponential factor is entrywise in those four parts. -/
private theorem pay10_eq : k0_pay10 (F := Ideal) X P LS
    = exp (mulf (subf (broadcast S512x16 (Scalar.ofBits .f32 0x00000000#32)) (maximumf (subf (addf (sqX X) (sqP P)) (mulf (broadcast S512x16 (Scalar.ofBits .f32 0x40000000#32)) (dotXP X P))) (broadcast S512x16 (Scalar.ofBits .f32 0x00000000#32)))) (invScale LS)) := rfl

variable (xr : Fin 512 → Fin 1024 → ℝ) (pr : Fin 16 → Fin 1024 → ℝ) (lr ar : Fin 16 → ℝ)

/-- The block's rows as a matrix. -/
private theorem pay9_apply (hX : ∀ (s : Fin 512) (d : Fin 1024), X (ix3 (0 : Fin 1) s d) = ((xr s d : ℝ) : EReal))
    (s : Fin 512) (d : Fin 1024) : k0_pay9 (F := Ideal) X (ix2 s d) = ((xr s d : ℝ) : EReal) := by
  unfold k0_pay9
  exact (shapeCast_1ab_ab_apply X _ s d).trans (hX s d)

private theorem sqX_apply (hX : ∀ (s : Fin 512) (d : Fin 1024), X (ix3 (0 : Fin 1) s d) = ((xr s d : ℝ) : EReal))
    (s : Fin 512) (k : Fin 16) : sqX X (ix2 s k) = ((rsq (xr s) : ℝ) : EReal) := by
  unfold sqX
  refine (broadcastTo_a1_ab_apply _ _ s k).trans ?_
  refine (shapeCast_a_a1_apply _ _ s (0 : Fin 1)).trans ?_
  refine (rowSum_apply _ _ _ _ s).trans ?_
  unfold rsq
  rw [coe_sum]
  refine Finset.sum_congr rfl fun d _ => ?_
  rw [mulf_apply, pay9_apply X xr hX, EReal.coe_mul]

private theorem sqP_apply (hP : ∀ (k : Fin 16) (d : Fin 1024), P (ix2 k d) = ((pr k d : ℝ) : EReal))
    (s : Fin 512) (k : Fin 16) : sqP P (ix2 s k) = ((rsq (pr k) : ℝ) : EReal) := by
  unfold sqP
  refine (broadcastTo_1b_ab_apply _ _ s k).trans ?_
  refine (shapeCast_a_1a_apply _ _ (0 : Fin 1) k).trans ?_
  refine (rowSum_apply _ _ _ _ k).trans ?_
  unfold rsq
  rw [coe_sum]
  refine Finset.sum_congr rfl fun d _ => ?_
  rw [mulf_apply, hP, EReal.coe_mul]

private theorem dotXP_apply (hX : ∀ (s : Fin 512) (d : Fin 1024), X (ix3 (0 : Fin 1) s d) = ((xr s d : ℝ) : EReal))
    (hP : ∀ (k : Fin 16) (d : Fin 1024), P (ix2 k d) = ((pr k d : ℝ) : EReal))
    (s : Fin 512) (k : Fin 16) : dotXP X P (ix2 s k) = ((rdot (xr s) (pr k) : ℝ) : EReal) := by
  unfold dotXP
  refine (rowdot_apply _ _ _ s k).trans ?_
  unfold rdot
  rw [coe_sum]
  refine Finset.sum_congr rfl fun d _ => ?_
  rw [pay9_apply X xr hX, hP, EReal.coe_mul]

private theorem invScale_apply (hL : ∀ k : Fin 16, LS (ix2 (0 : Fin 1) k) = ((lr k : ℝ) : EReal))
    (s : Fin 512) (k : Fin 16) : invScale LS (ix2 s k) = ((1 / (2 * Real.exp (2 * lr k) + eps) : ℝ) : EReal) := by
  unfold invScale
  refine (broadcastTo_1b_ab_apply _ _ s k).trans ?_
  refine (shapeCast_a_1a_apply _ _ (0 : Fin 1) k).trans ?_
  show Ideal.div (Ideal.ofBits .f32 0x3F800000#32) (Ideal.ofBits .f32 0x40000000#32 * Ideal.exp (Ideal.ofBits .f32 0x40000000#32 * shapeCast S16 LS shapeCasts_S1x16_S16 (ix1 k)) + Ideal.ofBits .f32 0x322BCC77#32) = _
  rw [shapeCast_1a_a_apply LS shapeCasts_S1x16_S16 k, hL, ofBits_one, ofBits_two, ofBits_eps, ← EReal.coe_mul, Ideal.exp_coe,
    ← EReal.coe_mul, ← EReal.coe_add, Ideal.div_coe (ne_of_gt (scaleK_pos (lr k) eps eps_pos)), EReal.coe_one, one_mul]

/-- The exponential factor at row `s`, splat `k`. -/
private theorem pay10_apply (hX : ∀ (s : Fin 512) (d : Fin 1024), X (ix3 (0 : Fin 1) s d) = ((xr s d : ℝ) : EReal))
    (hP : ∀ (k : Fin 16) (d : Fin 1024), P (ix2 k d) = ((pr k d : ℝ) : EReal))
    (hL : ∀ k : Fin 16, LS (ix2 (0 : Fin 1) k) = ((lr k : ℝ) : EReal)) (s : Fin 512) (k : Fin 16) :
    k0_pay10 (F := Ideal) X P LS (ix2 s k)
      = ((Real.exp ((0 - rdist (xr s) (pr k)) * (1 / (2 * Real.exp (2 * lr k) + eps))) : ℝ) : EReal) := by
  unfold rdist
  rw [pay10_eq]
  show Ideal.exp ((Ideal.ofBits .f32 0x00000000#32 - max ((sqX X (ix2 s k) + sqP P (ix2 s k)) - Ideal.ofBits .f32 0x40000000#32 * dotXP X P (ix2 s k)) (Ideal.ofBits .f32 0x00000000#32)) * invScale LS (ix2 s k)) = _
  rw [sqX_apply X xr hX, sqP_apply P pr hP, dotXP_apply X P xr pr hX hP, invScale_apply LS lr hL, ofBits_zero, ofBits_two,
    ← EReal.coe_add, ← EReal.coe_mul, ← EReal.coe_sub, ← coe_max, ← EReal.coe_sub, ← EReal.coe_mul, Ideal.exp_coe]

/-- The amplitude, repeated along the rows. -/
private theorem pay11_apply (hA : ∀ k : Fin 16, AMP (ix2 (0 : Fin 1) k) = ((ar k : ℝ) : EReal))
    (s : Fin 512) (k : Fin 16) : k0_pay11 (F := Ideal) AMP (ix2 s k) = ((ar k : ℝ) : EReal) := by
  unfold k0_pay11
  refine (broadcastTo_1b_ab_apply _ _ s k).trans ?_
  refine (shapeCast_a_1a_apply _ _ (0 : Fin 1) k).trans ?_
  exact (shapeCast_1a_a_apply AMP _ k).trans (hA k)

end Parts

/-! ## The affinity, its transpose against the rows, and its column sums -/

section Composites

variable (X : FVec Ideal S1x512x1024 .f32) (P : FVec Ideal S16x1024 .f32) (LS AMP : FVec Ideal S1x16 .f32)
  (xr : Fin 512 → Fin 1024 → ℝ) (pr : Fin 16 → Fin 1024 → ℝ) (lr ar : Fin 16 → ℝ)
  (hX : ∀ (s : Fin 512) (d : Fin 1024), X (ix3 (0 : Fin 1) s d) = ((xr s d : ℝ) : EReal))
  (hP : ∀ (k : Fin 16) (d : Fin 1024), P (ix2 k d) = ((pr k d : ℝ) : EReal))
  (hL : ∀ k : Fin 16, LS (ix2 (0 : Fin 1) k) = ((lr k : ℝ) : EReal))
  (hA : ∀ k : Fin 16, AMP (ix2 (0 : Fin 1) k) = ((ar k : ℝ) : EReal))

include hX hP hL hA

/-- The affinity: the amplitude times the exponential factor. -/
private theorem pay1_apply (s : Fin 512) (k : Fin 16) :
    k0_pay1 (k0_pay10 (F := Ideal) X P LS) (k0_pay11 (F := Ideal) AMP) (ix2 s k)
      = ((affKrow (xr s) (pr k) (lr k) (ar k) eps : ℝ) : EReal) := by
  unfold affKrow
  show mulf (k0_pay11 (F := Ideal) AMP) (k0_pay10 (F := Ideal) X P LS) (ix2 s k) = _
  rw [mulf_apply, pay10_apply X P LS xr pr lr hX hP hL, pay11_apply AMP ar hA, ← EReal.coe_mul]

/-- The affinities transposed against the rows: the sum over the rows. -/
private theorem pay3_apply (k : Fin 16) (d : Fin 1024) :
    k0_pay3 (k0_pay9 (F := Ideal) X) (k0_pay10 (F := Ideal) X P LS) (k0_pay11 (F := Ideal) AMP) (ix2 k d)
      = ((∑ s : Fin 512, affKrow (xr s) (pr k) (lr k) (ar k) eps * xr s d : ℝ) : EReal) := by
  unfold k0_pay3
  refine (afftx_apply _ _ _ k d).trans ?_
  rw [coe_sum]
  refine Finset.sum_congr rfl fun s _ => ?_
  rw [pay1_apply X P LS AMP xr pr lr ar hX hP hL hA, pay9_apply X xr hX, EReal.coe_mul]

/-- The affinities' column sums, as one row. -/
private theorem pay4_apply (k : Fin 16) :
    k0_pay4 (k0_pay10 (F := Ideal) X P LS) (k0_pay11 (F := Ideal) AMP) (ix2 (0 : Fin 1) k)
      = ((∑ s : Fin 512, affKrow (xr s) (pr k) (lr k) (ar k) eps : ℝ) : EReal) := by
  unfold k0_pay4
  refine (shapeCast_a_1a_apply _ _ (0 : Fin 1) k).trans ?_
  refine (colSum_apply _ _ _ _ k).trans ?_
  rw [coe_sum]
  exact Finset.sum_congr rfl fun s _ => pay1_apply X P LS AMP xr pr lr ar hX hP hL hA s k

end Composites

section

variable (X : Vec Ideal S1x512x1024 .f32) (P : Vec Ideal S16x1024 .f32) (LS AMP : Vec Ideal S1x16 .f32)
  (xr : Fin 512 → Fin 1024 → ℝ) (pr : Fin 16 → Fin 1024 → ℝ) (lr ar : Fin 16 → ℝ)
  (hX : ∀ (s : Fin 512) (d : Fin 1024), X (ix3 (0 : Fin 1) s d) = ((xr s d : ℝ) : EReal))
  (hP : ∀ (k : Fin 16) (d : Fin 1024), P (ix2 k d) = ((pr k d : ℝ) : EReal))
  (hL : ∀ k : Fin 16, LS (ix2 (0 : Fin 1) k) = ((lr k : ℝ) : EReal))
  (hA : ∀ k : Fin 16, AMP (ix2 (0 : Fin 1) k) = ((ar k : ℝ) : EReal))

include hX hP hL hA

/-- The affinity tile at row `s`, splat `k`. -/
theorem affT_apply (s : Fin 512) (k : Fin 16) :
    Outs.affT (F := Ideal) X P LS AMP (ix3 (0 : Fin 1) s k) = ((affKrow (xr s) (pr k) (lr k) (ar k) eps : ℝ) : EReal) := by
  unfold Outs.affT k0_pay2
  refine (shapeCast_ab_1ab_apply _ _ (0 : Fin 1) s k).trans ?_
  exact pay1_apply X P LS AMP xr pr lr ar hX hP hL hA s k

/-- A batch's first tile: its share of `affᵀ x`. -/
theorem cFirst_apply (k : Fin 16) (d : Fin 1024) :
    Outs.cFirst (F := Ideal) X P LS AMP (ix3 (0 : Fin 1) k d)
      = ((∑ s : Fin 512, affKrow (xr s) (pr k) (lr k) (ar k) eps * xr s d : ℝ) : EReal) := by
  unfold Outs.cFirst k0_pay5
  refine (shapeCast_ab_1ab_apply _ _ (0 : Fin 1) k d).trans ?_
  exact pay3_apply X P LS AMP xr pr lr ar hX hP hL hA k d

/-- A batch's first tile: its share of the column sums. -/
theorem gFirst_apply (k : Fin 16) :
    Outs.gFirst (F := Ideal) X P LS AMP (ix3 (0 : Fin 1) (0 : Fin 1) k)
      = ((∑ s : Fin 512, affKrow (xr s) (pr k) (lr k) (ar k) eps : ℝ) : EReal) := by
  unfold Outs.gFirst k0_pay6
  refine (shapeCast_ab_1ab_apply _ _ (0 : Fin 1) (0 : Fin 1) k).trans ?_
  exact pay4_apply X P LS AMP xr pr lr ar hX hP hL hA k

/-- A later tile adds its share of `affᵀ x` to the block's contents. -/
theorem cNext_apply (CO : Vec Ideal S1x16x1024 .f32) (cr : Fin 16 → Fin 1024 → ℝ)
    (hC : ∀ (k : Fin 16) (d : Fin 1024), CO (ix3 (0 : Fin 1) k d) = ((cr k d : ℝ) : EReal)) (k : Fin 16) (d : Fin 1024) :
    Outs.cNext (F := Ideal) X P LS AMP CO (ix3 (0 : Fin 1) k d)
      = ((cr k d + ∑ s : Fin 512, affKrow (xr s) (pr k) (lr k) (ar k) eps * xr s d : ℝ) : EReal) := by
  unfold Outs.cNext k0_pay7
  refine (shapeCast_ab_1ab_apply _ _ (0 : Fin 1) k d).trans ?_
  rw [addf_apply, shapeCast_1ab_ab_apply CO _ k d, hC, pay3_apply X P LS AMP xr pr lr ar hX hP hL hA, ← EReal.coe_add]

/-- A later tile adds its share of the column sums to the block's contents. -/
theorem gNext_apply (GO : Vec Ideal S1x1x16 .f32) (gr : Fin 16 → ℝ)
    (hG : ∀ k : Fin 16, GO (ix3 (0 : Fin 1) (0 : Fin 1) k) = ((gr k : ℝ) : EReal)) (k : Fin 16) :
    Outs.gNext (F := Ideal) X P LS AMP GO (ix3 (0 : Fin 1) (0 : Fin 1) k)
      = ((gr k + ∑ s : Fin 512, affKrow (xr s) (pr k) (lr k) (ar k) eps : ℝ) : EReal) := by
  unfold Outs.gNext k0_pay8
  refine (shapeCast_ab_1ab_apply _ _ (0 : Fin 1) (0 : Fin 1) k).trans ?_
  rw [addf_apply, shapeCast_1ab_ab_apply GO _ (0 : Fin 1) k, hG, pay4_apply X P LS AMP xr pr lr ar hX hP hL hA, ← EReal.coe_add]

end

end Cert.KernelIdeal.Tile

end
-- ==== Proof.KI.Array0.lean ====
/-
  From blocks to arrays, first region: with the token rows, the splat centres, the log-scales and the amplitudes real
  numbers when the region is entered, its three result arrays end, entry by entry, at the real specification — the
  affinities; `affᵀ x` and the column sums accumulated over a batch's four tiles and written back after the last.
-/
import proofs.«104191_g80702435492106_cont_9to1c4b_850_6_alg».proof.Proof.KI.Region0
import proofs.«104191_g80702435492106_cont_9to1c4b_850_6_alg».proof.Proof.KI.Tile0
import proofs.«104191_g80702435492106_cont_9to1c4b_850_6_alg».proof.Proof.Spec
import proofs.«104191_g80702435492106_cont_9to1c4b_850_6_alg».proof.Proof.Consts
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.Spec Cert.Consts

/-! ## The blocks' index maps over the grid: point `t` is tile `t % 4` of batch `t / 4` -/

/-- The token rows' and the affinities' blocks move with the tile and the batch, the two accumulators' with the batch
    alone, and the centres, log-scales and amplitudes are read whole at every point. -/
private theorem idx_facts0 : ∀ t : Fin cfg0.N,
      win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = 0 ∧ win0_5.index t (2 : Fin 3) = 0
    ∧ win0_6.index t (0 : Fin 3) = t.val / 4 ∧ win0_6.index t (1 : Fin 3) = 0 ∧ win0_6.index t (2 : Fin 3) = 0 :=
  (by decide +kernel : ∀ t : Fin grid0.N, _)

section Blocks

variable (V : (c : Dev nD) → (b : Ref sig .tc) → Buf (Elt Ideal) ((c : Thread nD τ).loc b)) (c : Dev nD)

/-- The four blocks a point reads, at their literal shapes. -/
private abbrev xblk (t : Fin cfg0.N) : Vec Ideal S1x512x1024 .f32 := iblk0 V c 0 t
private abbrev pblk (t : Fin cfg0.N) : Vec Ideal S16x1024 .f32 := iblk0 V c 1 t
private abbrev lblk (t : Fin cfg0.N) : Vec Ideal S1x16 .f32 := iblk0 V c 2 t
private abbrev ablk (t : Fin cfg0.N) : Vec Ideal S1x16 .f32 := iblk0 V c 3 t

variable (xr : Fin 2 → Fin 2048 → Fin 1024 → ℝ) (pr : Fin 16 → Fin 1024 → ℝ) (lr ar : Fin 16 → ℝ)

/-- The token rows' block at tile `j` of batch `b` is rows `512 j … 512 j + 511` of that batch. -/
private theorem xblk_apply (hX : ∀ (b : Fin 2) (s : Fin 2048) (d : Fin 1024), (V c main_arg0 : S2x2048x1024.Idx → EReal) (ix3 b s d) = ((xr b s d : ℝ) : EReal))
    (t : Fin cfg0.N) (b : Fin 2) (j : Fin 4) (ht : t.val = 4 * b.val + j.val) (s : Fin 512) (d : Fin 1024) :
    xblk V c t (ix3 (0 : Fin 1) s d) = ((xr b (tile j s) d : ℝ) : EReal) := by
  obtain ⟨e0, e1, e2, -⟩ := idx_facts0 t
  refine Eq.trans ?_ (hX b (tile j s) d)
  show (V c main_arg0 : S2x2048x1024.Idx → EReal) (((cfg0.win 0).blk t).view.emb (ix3 (0 : Fin 1) s d)) = _
  refine congrArg _ (funext fun a => Fin.ext ?_)
  have hj : j.val < 4 := j.isLt
  match a with
  | ⟨0, _⟩ => show win0_0.index t (0 : Fin 3) * 1 + 1 * 0 = b.val; omega
  | ⟨1, _⟩ => show win0_0.index t (1 : Fin 3) * 512 + 1 * s.val = 512 * j.val + s.val; omega
  | ⟨2, _⟩ => show win0_0.index t (2 : Fin 3) * 1024 + 1 * d.val = d.val; omega

/-- The splat centres are read whole at every point. -/
private theorem pblk_apply (hP : ∀ (k : Fin 16) (d : Fin 1024), (V c main_arg1 : S16x1024.Idx → EReal) (ix2 k d) = ((pr k d : ℝ) : EReal))
    (t : Fin cfg0.N) (k : Fin 16) (d : Fin 1024) : pblk V c t (ix2 k d) = ((pr k d : ℝ) : EReal) := by
  obtain ⟨-, -, -, e0, e1, -⟩ := idx_facts0 t
  refine Eq.trans ?_ (hP k d)
  show (V c main_arg1 : S16x1024.Idx → EReal) (((cfg0.win 1).blk t).view.emb (ix2 k d)) = _
  refine congrArg _ (funext fun a => Fin.ext ?_)
  match a with
  | ⟨0, _⟩ => show win0_1.index t (0 : Fin 2) * 16 + 1 * k.val = k.val; omega
  | ⟨1, _⟩ => show win0_1.index t (1 : Fin 2) * 1024 + 1 * d.val = d.val; omega

/-- The log-scales are read whole at every point. -/
private theorem lblk_apply (hL : ∀ k : Fin 16, (V c main_v0 : S1x16.Idx → EReal) (ix2 (0 : Fin 1) k) = ((lr k : ℝ) : EReal))
    (t : Fin cfg0.N) (k : Fin 16) : lblk V c t (ix2 (0 : Fin 1) k) = ((lr k : ℝ) : EReal) := by
  obtain ⟨-, -, -, -, -, e0, e1, -⟩ := idx_facts0 t
  refine Eq.trans ?_ (hL k)
  show (V c main_v0 : S1x16.Idx → EReal) (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 16 + 1 * k.val = k.val; omega

/-- The amplitudes are read whole at every point. -/
private theorem ablk_apply (hA : ∀ k : Fin 16, (V c main_v1 : S1x16.Idx → EReal) (ix2 (0 : Fin 1) k) = ((ar k : ℝ) : EReal))
    (t : Fin cfg0.N) (k : Fin 16) : ablk V c t (ix2 (0 : Fin 1) k) = ((ar k : ℝ) : EReal) := by
  obtain ⟨-, -, -, -, -, -, -, e0, e1, -⟩ := idx_facts0 t
  refine Eq.trans ?_ (hA k)
  show (V c main_v1 : S1x16.Idx → EReal) (((cfg0.win 3).blk t).view.emb (ix2 (0 : Fin 1) k)) = _
  refine congrArg _ (funext fun a => Fin.ext ?_)
  match a with
  | ⟨0, _⟩ => show win0_3.index t (0 : Fin 2) * 1 + 1 * 0 = 0; omega
  | ⟨1, _⟩ => show win0_3.index t (1 : Fin 2) * 16 + 1 * k.val = k.val; omega

end Blocks

section Arrays

variable (V : (c : Dev nD) → (b : Ref sig .tc) → Buf (Elt Ideal) ((c : Thread nD τ).loc b)) (c : Dev nD)
  (xr : Fin 2 → Fin 2048 → Fin 1024 → ℝ) (pr : Fin 16 → Fin 1024 → ℝ) (lr ar : Fin 16 → ℝ)

/-- The affinities as an array. -/
private def affArr : S2x2048x16.Idx → EReal := fun i => ((affK xr pr lr ar eps (i 0) (i 1) (i 2) : ℝ) : EReal)

/-- An index of the affinity array is in point `t`'s block iff each coordinate is in the block's range on its axis. -/
private theorem mem_blk0_4 (t : Fin cfg0.N) (i : S2x2048x16.Idx) :
    i ∈ ((cfg0.win 4).blk t).view.set ↔ ∀ a : Fin 3, win0_4.index t a * S1x512x16.size a ≤ (i a).val ∧ (i a).val < win0_4.index t a * S1x512x16.size a + S1x512x16.size a := by
  show i ∈ ((View.whole main_v2_0).slice (win0_4.rect t)).set ↔ _
  rw [View.set_slice_whole, Rect.mem_set_unit]
  exact Iff.rfl

/-- Every entry of the affinity array is in the block of the point of its batch and tile. -/
private theorem cover0_4 (i : S2x2048x16.Idx) : ∃ t : Fin cfg0.N, (cfg0.win 4).flush t = true ∧ i ∈ ((cfg0.win 4).blk t).view.set := by
  have hN : cfg0.N = 8 := N_0
  have h0 : (i 0).val < 2 := (i 0).isLt
  have h1 : (i 1).val < 2048 := (i 1).isLt
  have h2 : (i 2).val < 16 := (i 2).isLt
  have ht : 4 * (i 0).val + (i 1).val / 512 < cfg0.N := by omega
  refine ⟨⟨4 * (i 0).val + (i 1).val / 512, ht⟩, flush0_4 _, ?_⟩
  rw [mem_blk0_4]
  obtain ⟨-, -, -, -, -, -, -, -, -, e0, e1, e2, -⟩ := idx_facts0 ⟨4 * (i 0).val + (i 1).val / 512, ht⟩
  dsimp only at e0 e1 e2
  intro a
  match a with
  | ⟨0, _⟩ =>
    show win0_4.index ⟨4 * (i 0).val + (i 1).val / 512, ht⟩ (0 : Fin 3) * 1 ≤ (i 0).val ∧ (i 0).val < win0_4.index ⟨4 * (i 0).val + (i 1).val / 512, ht⟩ (0 : Fin 3) * 1 + 1
    omega
  | ⟨1, _⟩ =>
    show win0_4.index ⟨4 * (i 0).val + (i 1).val / 512, ht⟩ (1 : Fin 3) * 512 ≤ (i 1).val ∧ (i 1).val < win0_4.index ⟨4 * (i 0).val + (i 1).val / 512, ht⟩ (1 : Fin 3) * 512 + 512
    omega
  | ⟨2, _⟩ =>
    show win0_4.index ⟨4 * (i 0).val + (i 1).val / 512, ht⟩ (2 : Fin 3) * 16 ≤ (i 2).val ∧ (i 2).val < win0_4.index ⟨4 * (i 0).val + (i 1).val / 512, ht⟩ (2 : Fin 3) * 16 + 16
    omega

variable (hX : ∀ (b : Fin 2) (s : Fin 2048) (d : Fin 1024), (V c main_arg0 : S2x2048x1024.Idx → EReal) (ix3 b s d) = ((xr b s d : ℝ) : EReal))
  (hP : ∀ (k : Fin 16) (d : Fin 1024), (V c main_arg1 : S16x1024.Idx → EReal) (ix2 k d) = ((pr k d : ℝ) : EReal))
  (hL : ∀ k : Fin 16, (V c main_v0 : S1x16.Idx → EReal) (ix2 (0 : Fin 1) k) = ((lr k : ℝ) : EReal))
  (hA : ∀ k : Fin 16, (V c main_v1 : S1x16.Idx → EReal) (ix2 (0 : Fin 1) k) = ((ar k : ℝ) : EReal))

include hX hP hL hA

/-- The affinity tile at tile `j` of batch `b`. -/
private theorem affT_at (t : Fin cfg0.N) (b : Fin 2) (j : Fin 4) (ht : t.val = 4 * b.val + j.val) (s : Fin 512) (k : Fin 16) :
    Outs.affT (F := Ideal) (xblk V c t) (pblk V c t) (lblk V c t) (ablk V c t) (ix3 (0 : Fin 1) s k)
      = ((affK xr pr lr ar eps b (tile j s) k : ℝ) : EReal) :=
  Tile.affT_apply (xblk V c t) (pblk V c t) (lblk V c t) (ablk V c t) (fun s d => xr b (tile j s) d) pr lr ar
    (fun s d => xblk_apply V c xr hX t b j ht s d) (fun k d => pblk_apply V c pr hP t k d) (fun k => lblk_apply V c lr hL t k)
    (fun k => ablk_apply V c ar hA t k) s k

/-- What point `t` writes back to the affinity array is its block of the affinities. -/
private theorem flushed0_4_eq (t : Fin cfg0.N) :
    (dat0 V c).flushed 4 t = ((cfg0.win 4).blk t).view.read (Elt Ideal) (affArr xr pr lr ar) := by
  have hN : cfg0.N = 8 := N_0
  have htN : t.val < 8 := lt_of_lt_of_eq t.isLt hN
  have hb : t.val / 4 < 2 := by omega
  have hj : t.val % 4 < 4 := by omega
  show (cfg0.win 4).cut (grid0.coords t) ((dat0 V c).after 4 t) = _
  rw [after0_4]
  obtain ⟨-, -, -, -, -, -, -, -, -, e0, e1, e2, -⟩ := idx_facts0 t
  funext y
  obtain ⟨u, s, k, rfl⟩ : ∃ (u : Fin 1) (s : Fin 512) (k : Fin 16), y = ix3 u s k := ⟨y 0, y 1, y 2, eq_ix3 y⟩
  obtain rfl : u = 0 := Subsingleton.elim _ _
  refine (affT_at V c xr pr lr ar hX hP hL hA t ⟨t.val / 4, hb⟩ ⟨t.val % 4, hj⟩ (by dsimp only; omega) s k).trans ?_
  have he : ((cfg0.win 4).blk t).view.emb (ix3 (0 : Fin 1) s k) = ix3 (⟨t.val / 4, hb⟩ : Fin 2) (tile ⟨t.val % 4, hj⟩ s) k :=
    funext fun a => Fin.ext (by
      match a with
      | ⟨0, _⟩ => show win0_4.index t (0 : Fin 3) * 1 + 1 * 0 = t.val / 4; omega
      | ⟨1, _⟩ => show win0_4.index t (1 : Fin 3) * 512 + 1 * s.val = 512 * (t.val % 4) + s.val; omega
      | ⟨2, _⟩ => show win0_4.index t (2 : Fin 3) * 16 + 1 * k.val = k.val; omega)
  exact (congrArg (affArr xr pr lr ar) he).symm

end Arrays

/-! ## The two accumulators: the partial sums over a batch's tiles, in the kernel's order -/

/-- `aᵀ x` of tiles `0 … j` of batch `b`, added tile after tile. -/
private def cUpTo (x : Fin 2 → Fin 2048 → Fin 1024 → ℝ) (a : Fin 2 → Fin 2048 → Fin 16 → ℝ) (b : Fin 2) (k : Fin 16) (d : Fin 1024) :
    (j : ℕ) → j < 4 → ℝ
  | 0, h => cPart x a b ⟨0, h⟩ k d
  | j + 1, h => cUpTo x a b k d j (Nat.lt_of_succ_lt h) + cPart x a b ⟨j + 1, h⟩ k d
/-- The column sums of tiles `0 … j` of batch `b`, added tile after tile. -/
private def gUpTo (a : Fin 2 → Fin 2048 → Fin 16 → ℝ) (b : Fin 2) (k : Fin 16) : (j : ℕ) → j < 4 → ℝ
  | 0, h => gPart a b ⟨0, h⟩ k
  | j + 1, h => gUpTo a b k j (Nat.lt_of_succ_lt h) + gPart a b ⟨j + 1, h⟩ k

/-- After the fourth tile they are the accumulated sums. -/
private theorem cUpTo_three (x : Fin 2 → Fin 2048 → Fin 1024 → ℝ) (a : Fin 2 → Fin 2048 → Fin 16 → ℝ) (b : Fin 2) (k : Fin 16) (d : Fin 1024)
    (h : 3 < 4) : cUpTo x a b k d 3 h = cAcc x a b k d := rfl
private theorem gUpTo_three (a : Fin 2 → Fin 2048 → Fin 16 → ℝ) (b : Fin 2) (k : Fin 16) (h : 3 < 4) :
    gUpTo a b k 3 h = gAcc a b k := rfl

section Acc

variable (V : (c : Dev nD) → (b : Ref sig .tc) → Buf (Elt Ideal) ((c : Thread nD τ).loc b)) (c : Dev nD)
  (xr : Fin 2 → Fin 2048 → Fin 1024 → ℝ) (pr : Fin 16 → Fin 1024 → ℝ) (lr ar : Fin 16 → ℝ)

/-- The two accumulated arrays. -/
private def cArr : S2x16x1024.Idx → EReal := fun i => ((cAcc xr (affK xr pr lr ar eps) (i 0) (i 1) (i 2) : ℝ) : EReal)
private def gArr : S2x1x16.Idx → EReal := fun i => ((gAcc (affK xr pr lr ar eps) (i 0) (i 2) : ℝ) : EReal)

/-- The accumulators at equal positions are equal. -/
private theorem accAt0_congr {n n' : ℕ} (e : n = n') (h : n < cfg0.N) (h' : n' < cfg0.N) :
    accAt0 V c n h = accAt0 V c n' h' := by
  subst e; rfl

private theorem mem_blk0_5 (t : Fin cfg0.N) (i : S2x16x1024.Idx) :
    i ∈ ((cfg0.win 5).blk t).view.set ↔ ∀ a : Fin 3, win0_5.index t a * S1x16x1024.size a ≤ (i a).val ∧ (i a).val < win0_5.index t a * S1x16x1024.size a + S1x16x1024.size a := by
  show i ∈ ((View.whole main_v2_1).slice (win0_5.rect t)).set ↔ _
  rw [View.set_slice_whole, Rect.mem_set_unit]
  exact Iff.rfl
private theorem mem_blk0_6 (t : Fin cfg0.N) (i : S2x1x16.Idx) :
    i ∈ ((cfg0.win 6).blk t).view.set ↔ ∀ a : Fin 3, win0_6.index t a * S1x1x16.size a ≤ (i a).val ∧ (i a).val < win0_6.index t a * S1x1x16.size a + S1x1x16.size a := by
  show i ∈ ((View.whole main_v2_2).slice (win0_6.rect t)).set ↔ _
  rw [View.set_slice_whole, Rect.mem_set_unit]
  exact Iff.rfl

/-- Every entry of an accumulated array is in the block of its batch's last point, which writes it back. -/
private theorem cover0_5 (i : S2x16x1024.Idx) : ∃ t : Fin cfg0.N, (cfg0.win 5).flush t = true ∧ i ∈ ((cfg0.win 5).blk t).view.set := by
  have hN : cfg0.N = 8 := N_0
  have h0 : (i 0).val < 2 := (i 0).isLt
  have h1 : (i 1).val < 16 := (i 1).isLt
  have h2 : (i 2).val < 1024 := (i 2).isLt
  have ht : 4 * (i 0).val + 3 < cfg0.N := by omega
  refine ⟨⟨4 * (i 0).val + 3, ht⟩, (flush0_5 _).mpr (by dsimp only; omega), ?_⟩
  rw [mem_blk0_5]
  obtain ⟨-, -, -, -, -, -, -, -, -, -, -, -, e0, e1, e2, -⟩ := idx_facts0 ⟨4 * (i 0).val + 3, ht⟩
  dsimp only at e0 e1 e2
  intro a
  match a with
  | ⟨0, _⟩ =>
    show win0_5.index ⟨4 * (i 0).val + 3, ht⟩ (0 : Fin 3) * 1 ≤ (i 0).val ∧ (i 0).val < win0_5.index ⟨4 * (i 0).val + 3, ht⟩ (0 : Fin 3) * 1 + 1
    omega
  | ⟨1, _⟩ =>
    show win0_5.index ⟨4 * (i 0).val + 3, ht⟩ (1 : Fin 3) * 16 ≤ (i 1).val ∧ (i 1).val < win0_5.index ⟨4 * (i 0).val + 3, ht⟩ (1 : Fin 3) * 16 + 16
    omega
  | ⟨2, _⟩ =>
    show win0_5.index ⟨4 * (i 0).val + 3, ht⟩ (2 : Fin 3) * 1024 ≤ (i 2).val ∧ (i 2).val < win0_5.index ⟨4 * (i 0).val + 3, ht⟩ (2 : Fin 3) * 1024 + 1024
    omega
private theorem cover0_6 (i : S2x1x16.Idx) : ∃ t : Fin cfg0.N, (cfg0.win 6).flush t = true ∧ i ∈ ((cfg0.win 6).blk t).view.set := by
  have hN : cfg0.N = 8 := N_0
  have h0 : (i 0).val < 2 := (i 0).isLt
  have h1 : (i 1).val < 1 := (i 1).isLt
  have h2 : (i 2).val < 16 := (i 2).isLt
  have ht : 4 * (i 0).val + 3 < cfg0.N := by omega
  refine ⟨⟨4 * (i 0).val + 3, ht⟩, (flush0_6 _).mpr (by dsimp only; omega), ?_⟩
  rw [mem_blk0_6]
  obtain ⟨-, -, -, -, -, -, -, -, -, -, -, -, -, -, -, e0, e1, e2⟩ := idx_facts0 ⟨4 * (i 0).val + 3, ht⟩
  dsimp only at e0 e1 e2
  intro a
  match a with
  | ⟨0, _⟩ =>
    show win0_6.index ⟨4 * (i 0).val + 3, ht⟩ (0 : Fin 3) * 1 ≤ (i 0).val ∧ (i 0).val < win0_6.index ⟨4 * (i 0).val + 3, ht⟩ (0 : Fin 3) * 1 + 1
    omega
  | ⟨1, _⟩ =>
    show win0_6.index ⟨4 * (i 0).val + 3, ht⟩ (1 : Fin 3) * 1 ≤ (i 1).val ∧ (i 1).val < win0_6.index ⟨4 * (i 0).val + 3, ht⟩ (1 : Fin 3) * 1 + 1
    omega
  | ⟨2, _⟩ =>
    show win0_6.index ⟨4 * (i 0).val + 3, ht⟩ (2 : Fin 3) * 16 ≤ (i 2).val ∧ (i 2).val < win0_6.index ⟨4 * (i 0).val + 3, ht⟩ (2 : Fin 3) * 16 + 16
    omega

variable (hX : ∀ (b : Fin 2) (s : Fin 2048) (d : Fin 1024), (V c main_arg0 : S2x2048x1024.Idx → EReal) (ix3 b s d) = ((xr b s d : ℝ) : EReal))
  (hP : ∀ (k : Fin 16) (d : Fin 1024), (V c main_arg1 : S16x1024.Idx → EReal) (ix2 k d) = ((pr k d : ℝ) : EReal))
  (hL : ∀ k : Fin 16, (V c main_v0 : S1x16.Idx → EReal) (ix2 (0 : Fin 1) k) = ((lr k : ℝ) : EReal))
  (hA : ∀ k : Fin 16, (V c main_v1 : S1x16.Idx → EReal) (ix2 (0 : Fin 1) k) = ((ar k : ℝ) : EReal))

include hX hP hL hA

/-- What tile `j` of batch `b` stores when it is the first, and adds when it is a later one. -/
private theorem cFirst_at (t : Fin cfg0.N) (b : Fin 2) (j : Fin 4) (ht : t.val = 4 * b.val + j.val) (k : Fin 16) (d : Fin 1024) :
    Outs.cFirst (F := Ideal) (xblk V c t) (pblk V c t) (lblk V c t) (ablk V c t) (ix3 (0 : Fin 1) k d)
      = ((cPart xr (affK xr pr lr ar eps) b j k d : ℝ) : EReal) :=
  Tile.cFirst_apply (xblk V c t) (pblk V c t) (lblk V c t) (ablk V c t) (fun s d => xr b (tile j s) d) pr lr ar
    (fun s d => xblk_apply V c xr hX t b j ht s d) (fun k d => pblk_apply V c pr hP t k d) (fun k => lblk_apply V c lr hL t k)
    (fun k => ablk_apply V c ar hA t k) k d
private theorem gFirst_at (t : Fin cfg0.N) (b : Fin 2) (j : Fin 4) (ht : t.val = 4 * b.val + j.val) (k : Fin 16) :
    Outs.gFirst (F := Ideal) (xblk V c t) (pblk V c t) (lblk V c t) (ablk V c t) (ix3 (0 : Fin 1) (0 : Fin 1) k)
      = ((gPart (affK xr pr lr ar eps) b j k : ℝ) : EReal) :=
  Tile.gFirst_apply (xblk V c t) (pblk V c t) (lblk V c t) (ablk V c t) (fun s d => xr b (tile j s) d) pr lr ar
    (fun s d => xblk_apply V c xr hX t b j ht s d) (fun k d => pblk_apply V c pr hP t k d) (fun k => lblk_apply V c lr hL t k)
    (fun k => ablk_apply V c ar hA t k) k
private theorem cNext_at (t : Fin cfg0.N) (b : Fin 2) (j : Fin 4) (ht : t.val = 4 * b.val + j.val)
    (CO : Vec Ideal S1x16x1024 .f32) (cr : Fin 16 → Fin 1024 → ℝ)
    (hC : ∀ (k : Fin 16) (d : Fin 1024), CO (ix3 (0 : Fin 1) k d) = ((cr k d : ℝ) : EReal)) (k : Fin 16) (d : Fin 1024) :
    Outs.cNext (F := Ideal) (xblk V c t) (pblk V c t) (lblk V c t) (ablk V c t) CO (ix3 (0 : Fin 1) k d)
      = ((cr k d + cPart xr (affK xr pr lr ar eps) b j k d : ℝ) : EReal) :=
  Tile.cNext_apply (xblk V c t) (pblk V c t) (lblk V c t) (ablk V c t) (fun s d => xr b (tile j s) d) pr lr ar
    (fun s d => xblk_apply V c xr hX t b j ht s d) (fun k d => pblk_apply V c pr hP t k d) (fun k => lblk_apply V c lr hL t k)
    (fun k => ablk_apply V c ar hA t k) CO cr hC k d
private theorem gNext_at (t : Fin cfg0.N) (b : Fin 2) (j : Fin 4) (ht : t.val = 4 * b.val + j.val)
    (GO : Vec Ideal S1x1x16 .f32) (gr : Fin 16 → ℝ)
    (hG : ∀ k : Fin 16, GO (ix3 (0 : Fin 1) (0 : Fin 1) k) = ((gr k : ℝ) : EReal)) (k : Fin 16) :
    Outs.gNext (F := Ideal) (xblk V c t) (pblk V c t) (lblk V c t) (ablk V c t) GO (ix3 (0 : Fin 1) (0 : Fin 1) k)
      = ((gr k + gPart (affK xr pr lr ar eps) b j k : ℝ) : EReal) :=
  Tile.gNext_apply (xblk V c t) (pblk V c t) (lblk V c t) (ablk V c t) (fun s d => xr b (tile j s) d) pr lr ar
    (fun s d => xblk_apply V c xr hX t b j ht s d) (fun k d => pblk_apply V c pr hP t k d) (fun k => lblk_apply V c lr hL t k)
    (fun k => ablk_apply V c ar hA t k) GO gr hG k

/-- THE INVARIANT: after tile `j` of batch `b` the two accumulator blocks hold the partial sums over tiles `0 … j`. -/
private theorem acc_inv (b : Fin 2) : ∀ (jn : ℕ) (hj : jn < 4) (hn : 4 * b.val + jn < cfg0.N),
      (∀ (k : Fin 16) (d : Fin 1024), ((accAt0 V c (4 * b.val + jn) hn).1 : S1x16x1024.Idx → EReal) (ix3 (0 : Fin 1) k d)
          = ((cUpTo xr (affK xr pr lr ar eps) b k d jn hj : ℝ) : EReal))
    ∧ (∀ k : Fin 16, ((accAt0 V c (4 * b.val + jn) hn).2 : S1x1x16.Idx → EReal) (ix3 (0 : Fin 1) (0 : Fin 1) k)
          = ((gUpTo (affK xr pr lr ar eps) b k jn hj : ℝ) : EReal))
  | 0, hj, hn => by
    have h := accAt0_A V c ⟨4 * b.val + 0, hn⟩ (by dsimp only; omega)
    rw [show accAt0 V c (4 * b.val + 0) hn = _ from h]
    dsimp only
    exact ⟨fun k d => cFirst_at V c xr pr lr ar hX hP hL hA ⟨4 * b.val + 0, hn⟩ b ⟨0, hj⟩ rfl k d,
      fun k => gFirst_at V c xr pr lr ar hX hP hL hA ⟨4 * b.val + 0, hn⟩ b ⟨0, hj⟩ rfl k⟩
  | jn + 1, hj, hn => by
    have hN : cfg0.N = 8 := N_0
    have hn' : 4 * b.val + jn < cfg0.N := by omega
    have ih := acc_inv b jn (Nat.lt_of_succ_lt hj) hn'
    have h := accAt0_B V c ⟨4 * b.val + (jn + 1), hn⟩ (by dsimp only; omega)
    rw [show accAt0 V c (4 * b.val + (jn + 1)) hn = _ from h]
    dsimp only
    rw [accAt0_congr V c (show 4 * b.val + (jn + 1) - 1 = 4 * b.val + jn by omega) _ hn']
    exact ⟨fun k d => cNext_at V c xr pr lr ar hX hP hL hA ⟨4 * b.val + (jn + 1), hn⟩ b ⟨jn + 1, hj⟩ rfl
        (accAt0 V c (4 * b.val + jn) hn').1 (fun k d => cUpTo xr (affK xr pr lr ar eps) b k d jn (Nat.lt_of_succ_lt hj)) ih.1 k d,
      fun k => gNext_at V c xr pr lr ar hX hP hL hA ⟨4 * b.val + (jn + 1), hn⟩ b ⟨jn + 1, hj⟩ rfl
        (accAt0 V c (4 * b.val + jn) hn').2 (fun k => gUpTo (affK xr pr lr ar eps) b k jn (Nat.lt_of_succ_lt hj)) ih.2 k⟩

end Acc

section AccFinal

variable (V : (c : Dev nD) → (b : Ref sig .tc) → Buf (Elt Ideal) ((c : Thread nD τ).loc b)) (c : Dev nD)
  (xr : Fin 2 → Fin 2048 → Fin 1024 → ℝ) (pr : Fin 16 → Fin 1024 → ℝ) (lr ar : Fin 16 → ℝ)
  (hX : ∀ (b : Fin 2) (s : Fin 2048) (d : Fin 1024), (V c main_arg0 : S2x2048x1024.Idx → EReal) (ix3 b s d) = ((xr b s d : ℝ) : EReal))
  (hP : ∀ (k : Fin 16) (d : Fin 1024), (V c main_arg1 : S16x1024.Idx → EReal) (ix2 k d) = ((pr k d : ℝ) : EReal))
  (hL : ∀ k : Fin 16, (V c main_v0 : S1x16.Idx → EReal) (ix2 (0 : Fin 1) k) = ((lr k : ℝ) : EReal))
  (hA : ∀ k : Fin 16, (V c main_v1 : S1x16.Idx → EReal) (ix2 (0 : Fin 1) k) = ((ar k : ℝ) : EReal))

include hX hP hL hA

/-- What a batch's last point writes back to the `affᵀ x` array is its block of the accumulated sums. -/
private theorem flushed0_5_eq (t : Fin cfg0.N) (hf : (cfg0.win 5).flush t = true) :
    (dat0 V c).flushed 5 t = ((cfg0.win 5).blk t).view.read (Elt Ideal) (cArr xr pr lr ar) := by
  have hN : cfg0.N = 8 := N_0
  have htN : t.val < 8 := lt_of_lt_of_eq t.isLt hN
  have h3 : t.val % 4 = 3 := (flush0_5 t).mp hf
  have hb : t.val / 4 < 2 := by omega
  have hn3 : 4 * (⟨t.val / 4, hb⟩ : Fin 2).val + 3 < cfg0.N := by dsimp only; omega
  show (cfg0.win 5).cut (grid0.coords t) ((dat0 V c).after 5 t) = _
  rw [after0_5]
  obtain ⟨-, -, -, -, -, -, -, -, -, -, -, -, e0, e1, e2, -⟩ := idx_facts0 t
  funext y
  obtain ⟨u, k, d, rfl⟩ : ∃ (u : Fin 1) (k : Fin 16) (d : Fin 1024), y = ix3 u k d := ⟨y 0, y 1, y 2, eq_ix3 y⟩
  obtain rfl : u = 0 := Subsingleton.elim _ _
  rw [accAt0_congr V c (show t.val = 4 * (⟨t.val / 4, hb⟩ : Fin 2).val + 3 by dsimp only; omega) t.isLt hn3]
  refine ((acc_inv V c xr pr lr ar hX hP hL hA ⟨t.val / 4, hb⟩ 3 (by decide) hn3).1 k d).trans ?_
  rw [cUpTo_three]
  have he : ((cfg0.win 5).blk t).view.emb (ix3 (0 : Fin 1) k d) = ix3 (⟨t.val / 4, hb⟩ : Fin 2) k d :=
    funext fun a => Fin.ext (by
      match a with
      | ⟨0, _⟩ => show win0_5.index t (0 : Fin 3) * 1 + 1 * 0 = t.val / 4; omega
      | ⟨1, _⟩ => show win0_5.index t (1 : Fin 3) * 16 + 1 * k.val = k.val; omega
      | ⟨2, _⟩ => show win0_5.index t (2 : Fin 3) * 1024 + 1 * d.val = d.val; omega)
  exact (congrArg (cArr xr pr lr ar) he).symm

/-- What a batch's last point writes back to the column-sum array is its block of the accumulated sums. -/
private theorem flushed0_6_eq (t : Fin cfg0.N) (hf : (cfg0.win 6).flush t = true) :
    (dat0 V c).flushed 6 t = ((cfg0.win 6).blk t).view.read (Elt Ideal) (gArr xr pr lr ar) := by
  have hN : cfg0.N = 8 := N_0
  have htN : t.val < 8 := lt_of_lt_of_eq t.isLt hN
  have h3 : t.val % 4 = 3 := (flush0_6 t).mp hf
  have hb : t.val / 4 < 2 := by omega
  have hn3 : 4 * (⟨t.val / 4, hb⟩ : Fin 2).val + 3 < cfg0.N := by dsimp only; omega
  show (cfg0.win 6).cut (grid0.coords t) ((dat0 V c).after 6 t) = _
  rw [after0_6]
  obtain ⟨-, -, -, -, -, -, -, -, -, -, -, -, -, -, -, e0, e1, e2⟩ := idx_facts0 t
  funext y
  obtain ⟨u, u', k, rfl⟩ : ∃ (u u' : Fin 1) (k : Fin 16), y = ix3 u u' k := ⟨y 0, y 1, y 2, eq_ix3 y⟩
  obtain rfl : u = 0 := Subsingleton.elim _ _
  obtain rfl : u' = 0 := Subsingleton.elim _ _
  rw [accAt0_congr V c (show t.val = 4 * (⟨t.val / 4, hb⟩ : Fin 2).val + 3 by dsimp only; omega) t.isLt hn3]
  refine ((acc_inv V c xr pr lr ar hX hP hL hA ⟨t.val / 4, hb⟩ 3 (by decide) hn3).2 k).trans ?_
  rw [gUpTo_three]
  have he : ((cfg0.win 6).blk t).view.emb (ix3 (0 : Fin 1) (0 : Fin 1) k) = ix3 (⟨t.val / 4, hb⟩ : Fin 2) (0 : Fin 1) k :=
    funext fun a => Fin.ext (by
      match a with
      | ⟨0, _⟩ => show win0_6.index t (0 : Fin 3) * 1 + 1 * 0 = t.val / 4; omega
      | ⟨1, _⟩ => show win0_6.index t (1 : Fin 3) * 1 + 1 * 0 = 0; omega
      | ⟨2, _⟩ => show win0_6.index t (2 : Fin 3) * 16 + 1 * k.val = k.val; omega)
  exact (congrArg (gArr xr pr lr ar) he).symm

end AccFinal

section

variable (V : (c : Dev nD) → (b : Ref sig .tc) → Buf (Elt Ideal) ((c : Thread nD τ).loc b)) (c : Dev nD)
  (xr : Fin 2 → Fin 2048 → Fin 1024 → ℝ) (pr : Fin 16 → Fin 1024 → ℝ) (lr ar : Fin 16 → ℝ)
  (hX : ∀ (b : Fin 2) (s : Fin 2048) (d : Fin 1024), (V c main_arg0 : S2x2048x1024.Idx → EReal) (ix3 b s d) = ((xr b s d : ℝ) : EReal))
  (hP : ∀ (k : Fin 16) (d : Fin 1024), (V c main_arg1 : S16x1024.Idx → EReal) (ix2 k d) = ((pr k d : ℝ) : EReal))
  (hL : ∀ k : Fin 16, (V c main_v0 : S1x16.Idx → EReal) (ix2 (0 : Fin 1) k) = ((lr k : ℝ) : EReal))
  (hA : ∀ k : Fin 16, (V c main_v1 : S1x16.Idx → EReal) (ix2 (0 : Fin 1) k) = ((ar k : ℝ) : EReal))

include hX hP hL hA

/-- The affinity array after the region. -/
theorem aff_final (b : Fin 2) (s : Fin 2048) (k : Fin 16) :
    ((dat0 V c).arrAt 4 cfg0.N : S2x2048x16.Idx → EReal) (ix3 b s k) = ((affK xr pr lr ar eps b s k : ℝ) : EReal) := by
  exact congrFun ((dat0 V c).arrAt_eq_of_cover 4 (affArr xr pr lr ar) (fun t _ => flushed0_4_eq V c xr pr lr ar hX hP hL hA t) cover0_4) (ix3 b s k)

/-- `affᵀ x` after the region, accumulated tile after tile. -/
theorem c_final (b : Fin 2) (k : Fin 16) (d : Fin 1024) :
    ((dat0 V c).arrAt 5 cfg0.N : S2x16x1024.Idx → EReal) (ix3 b k d) = ((cAcc xr (affK xr pr lr ar eps) b k d : ℝ) : EReal) := by
  exact congrFun ((dat0 V c).arrAt_eq_of_cover 5 (cArr xr pr lr ar) (fun t hf => flushed0_5_eq V c xr pr lr ar hX hP hL hA t hf) cover0_5) (ix3 b k d)

/-- The column sums of the affinities after the region, accumulated tile after tile. -/
theorem g_final (b : Fin 2) (k : Fin 16) :
    ((dat0 V c).arrAt 6 cfg0.N : S2x1x16.Idx → EReal) (ix3 b (0 : Fin 1) k) = ((gAcc (affK xr pr lr ar eps) b k : ℝ) : EReal) := by
  exact congrFun ((dat0 V c).arrAt_eq_of_cover 6 (gArr xr pr lr ar) (fun t hf => flushed0_6_eq V c xr pr lr ar hX hP hL hA t hf) cover0_6) (ix3 b (0 : Fin 1) k)

end

end Cert.KernelIdeal.Hand

end
-- ==== Proof.KI.Tile1.lean ====
/-
  The second kernel's blocks read at an index, over the reals: the folded matrix `(C Wv) Wo` and the output tile
  `(aff M) / (aff · g + ε)`, the quotient a real quotient where the denominator is not zero.
-/
import proofs.«104191_g80702435492106_cont_9to1c4b_850_6_alg».proof.Proof.KI.Outs
import proofs.«104191_g80702435492106_cont_9to1c4b_850_6_alg».proof.Proof.Spec
import proofs.«104191_g80702435492106_cont_9to1c4b_850_6_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Spec Cert.Consts

/-! ## Small facts the two readings share -/

/-- The coercion of the reals into the extended reals carries a finite sum to the sum of the coercions. -/
private theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products of the fold: `[16, 1024] × [1024, 1024]`, contracting the left operand's axis 1 with
    the right operand's axis 0 -/

private theorem lhs_fold_0 (i : S16x1024.Idx) (q : dot_S16x1024_S1024x1024_S16x1024_1_0_0_1_n_n.contr.Idx) :
    (dot_S16x1024_S1024x1024_S16x1024_1_0_0_1_n_n.lhsIdx i q 0).val = (i 0).val := by
  unfold DotDims.lhsIdx
  rw [dif_neg (show ¬(0 : Fin S16x1024.rank) ∈ dot_S16x1024_S1024x1024_S16x1024_1_0_0_1_n_n.lhsBatch by decide), dif_pos (show (0 : Fin S16x1024.rank) ∈ dot_S16x1024_S1024x1024_S16x1024_1_0_0_1_n_n.lhsNonContracting by decide)]
  rfl
private theorem lhs_fold_1 (i : S16x1024.Idx) (q : dot_S16x1024_S1024x1024_S16x1024_1_0_0_1_n_n.contr.Idx) :
    (dot_S16x1024_S1024x1024_S16x1024_1_0_0_1_n_n.lhsIdx i q 1).val = (q ⟨0, by decide⟩).val :=
  dot_S16x1024_S1024x1024_S16x1024_1_0_0_1_n_n.lhsIdx_val_of_single rfl i q
private theorem rhs_fold_0 (i : S16x1024.Idx) (q : dot_S16x1024_S1024x1024_S16x1024_1_0_0_1_n_n.contr.Idx) :
    (dot_S16x1024_S1024x1024_S16x1024_1_0_0_1_n_n.rhsIdx i q 0).val = (q ⟨0, by decide⟩).val :=
  dot_S16x1024_S1024x1024_S16x1024_1_0_0_1_n_n.rhsIdx_val_of_single rfl i q
private theorem rhs_fold_1 (i : S16x1024.Idx) (q : dot_S16x1024_S1024x1024_S16x1024_1_0_0_1_n_n.contr.Idx) :
    (dot_S16x1024_S1024x1024_S16x1024_1_0_0_1_n_n.rhsIdx i q 1).val = (i 1).val := by
  unfold DotDims.rhsIdx
  rw [dif_neg (show ¬(1 : Fin S1024x1024.rank) ∈ dot_S16x1024_S1024x1024_S16x1024_1_0_0_1_n_n.rhsBatch by decide), dif_pos (show (1 : Fin S1024x1024.rank) ∈ dot_S16x1024_S1024x1024_S16x1024_1_0_0_1_n_n.rhsNonContracting by decide)]
  rfl

/-- Such a product onto the zero accumulator, at row `k`, column `e`: the sum over `d` of `x (k, d) · y (d, e)`. -/
private theorem matmul_fold_apply (x : FVec Ideal S16x1024 .f32) (y : FVec Ideal S1024x1024 .f32) (k : Fin 16) (e : Fin 1024) :
    matmul dot_S16x1024_S1024x1024_S16x1024_1_0_0_1_n_n none x y (constant S16x1024 .f32 0x00000000#32) (ix2 k e)
      = ∑ d : Fin 1024, x (ix2 k d) * y (ix2 d e) := by
  simp only [matmul]
  rw [Ideal.matmul_constant_zero_apply, ← Equiv.sum_comp (contrEquiv1 dot_S16x1024_S1024x1024_S16x1024_1_0_0_1_n_n 1024 rfl rfl).symm]
  refine Finset.sum_congr rfl fun d _ => ?_
  have hd := contrEquiv1_symm_val dot_S16x1024_S1024x1024_S16x1024_1_0_0_1_n_n 1024 rfl rfl d
  have el : dot_S16x1024_S1024x1024_S16x1024_1_0_0_1_n_n.lhsIdx (ix2 k e) ((contrEquiv1 dot_S16x1024_S1024x1024_S16x1024_1_0_0_1_n_n 1024 rfl rfl).symm d) = ix2 k d := funext fun a => Fin.ext (by
    match a with
    | ⟨0, _⟩ => exact lhs_fold_0 _ _
    | ⟨1, _⟩ => exact (lhs_fold_1 _ _).trans hd)
  have er : dot_S16x1024_S1024x1024_S16x1024_1_0_0_1_n_n.rhsIdx (ix2 k e) ((contrEquiv1 dot_S16x1024_S1024x1024_S16x1024_1_0_0_1_n_n 1024 rfl rfl).symm d) = ix2 d e := funext fun a => Fin.ext (by
    match a with
    | ⟨0, _⟩ => exact (rhs_fold_0 _ _).trans hd
    | ⟨1, _⟩ => exact rhs_fold_1 _ _)
  rw [el, er]

/-- The folded matrix at splat `k`, column `e`. -/
theorem mFold_apply (CB : Vec Ideal S1x16x1024 .f32) (WV WO : Vec Ideal S1024x1024 .f32)
    (cb : Fin 16 → Fin 1024 → ℝ) (wv wo : Fin 1024 → Fin 1024 → ℝ)
    (hC : ∀ (k : Fin 16) (d : Fin 1024), CB (ix3 (0 : Fin 1) k d) = ((cb k d : ℝ) : EReal))
    (hV : ∀ i j : Fin 1024, WV (ix2 i j) = ((wv i j : ℝ) : EReal))
    (hO : ∀ i j : Fin 1024, WO (ix2 i j) = ((wo i j : ℝ) : EReal)) (k : Fin 16) (e : Fin 1024) :
    Outs.mFold (F := Ideal) CB WV WO (ix2 k e) = ((∑ d, (∑ d', cb k d' * wv d' d) * wo d e : ℝ) : EReal) := by
  show shapeCast S16x1024
      (matmul (F := Ideal) dot_S16x1024_S1024x1024_S16x1024_1_0_0_1_n_n none
        (matmul (F := Ideal) dot_S16x1024_S1024x1024_S16x1024_1_0_0_1_n_n none
          (shapeCast S16x1024 (CB : FVec Ideal S1x16x1024 .f32) shapeCasts_S1x16x1024_S16x1024)
          (WV : FVec Ideal S1024x1024 .f32) (constant S16x1024 .f32 0x00000000#32))
        (WO : FVec Ideal S1024x1024 .f32) (constant S16x1024 .f32 0x00000000#32))
      shapeCasts_S16x1024_S16x1024 (ix2 k e) = _
  rw [shapeCast_self, matmul_fold_apply, coe_finset_sum]
  refine Finset.sum_congr rfl fun d _ => ?_
  rw [matmul_fold_apply, EReal.coe_mul, coe_finset_sum, hO]
  refine congrArg (· * _) (Finset.sum_congr rfl fun d' _ => ?_)
  rw [shapeCast_1ab_ab_apply, hC, hV, EReal.coe_mul]

/-! ## The product of the output tile: `[512, 16] × [16, 1024]`, contracting the left operand's axis 1 with the right
    operand's axis 0 -/

private theorem lhs_out_0 (i : S512x1024.Idx) (q : dot_S512x16_S16x1024_S512x1024_1_0_0_1_n_n.contr.Idx) :
    (dot_S512x16_S16x1024_S512x1024_1_0_0_1_n_n.lhsIdx i q 0).val = (i 0).val := by
  unfold DotDims.lhsIdx
  rw [dif_neg (show ¬(0 : Fin S512x16.rank) ∈ dot_S512x16_S16x1024_S512x1024_1_0_0_1_n_n.lhsBatch by decide), dif_pos (show (0 : Fin S512x16.rank) ∈ dot_S512x16_S16x1024_S512x1024_1_0_0_1_n_n.lhsNonContracting by decide)]
  rfl
private theorem lhs_out_1 (i : S512x1024.Idx) (q : dot_S512x16_S16x1024_S512x1024_1_0_0_1_n_n.contr.Idx) :
    (dot_S512x16_S16x1024_S512x1024_1_0_0_1_n_n.lhsIdx i q 1).val = (q ⟨0, by decide⟩).val :=
  dot_S512x16_S16x1024_S512x1024_1_0_0_1_n_n.lhsIdx_val_of_single rfl i q
private theorem rhs_out_0 (i : S512x1024.Idx) (q : dot_S512x16_S16x1024_S512x1024_1_0_0_1_n_n.contr.Idx) :
    (dot_S512x16_S16x1024_S512x1024_1_0_0_1_n_n.rhsIdx i q 0).val = (q ⟨0, by decide⟩).val :=
  dot_S512x16_S16x1024_S512x1024_1_0_0_1_n_n.rhsIdx_val_of_single rfl i q
private theorem rhs_out_1 (i : S512x1024.Idx) (q : dot_S512x16_S16x1024_S512x1024_1_0_0_1_n_n.contr.Idx) :
    (dot_S512x16_S16x1024_S512x1024_1_0_0_1_n_n.rhsIdx i q 1).val = (i 1).val := by
  unfold DotDims.rhsIdx
  rw [dif_neg (show ¬(1 : Fin S16x1024.rank) ∈ dot_S512x16_S16x1024_S512x1024_1_0_0_1_n_n.rhsBatch by decide), dif_pos (show (1 : Fin S16x1024.rank) ∈ dot_S512x16_S16x1024_S512x1024_1_0_0_1_n_n.rhsNonContracting by decide)]
  rfl

/-- That product onto the zero accumulator, at row `s`, column `e`: the sum over `k` of `x (s, k) · y (k, e)`. -/
private theorem matmul_out_apply (x : FVec Ideal S512x16 .f32) (y : FVec Ideal S16x1024 .f32) (s : Fin 512) (e : Fin 1024) :
    matmul dot_S512x16_S16x1024_S512x1024_1_0_0_1_n_n none x y (constant S512x1024 .f32 0x00000000#32) (ix2 s e)
      = ∑ k : Fin 16, x (ix2 s k) * y (ix2 k e) := by
  simp only [matmul]
  rw [Ideal.matmul_constant_zero_apply, ← Equiv.sum_comp (contrEquiv1 dot_S512x16_S16x1024_S512x1024_1_0_0_1_n_n 16 rfl rfl).symm]
  refine Finset.sum_congr rfl fun k _ => ?_
  have hk := contrEquiv1_symm_val dot_S512x16_S16x1024_S512x1024_1_0_0_1_n_n 16 rfl rfl k
  have el : dot_S512x16_S16x1024_S512x1024_1_0_0_1_n_n.lhsIdx (ix2 s e) ((contrEquiv1 dot_S512x16_S16x1024_S512x1024_1_0_0_1_n_n 16 rfl rfl).symm k) = ix2 s k := funext fun a => Fin.ext (by
    match a with
    | ⟨0, _⟩ => exact lhs_out_0 _ _
    | ⟨1, _⟩ => exact (lhs_out_1 _ _).trans hk)
  have er : dot_S512x16_S16x1024_S512x1024_1_0_0_1_n_n.rhsIdx (ix2 s e) ((contrEquiv1 dot_S512x16_S16x1024_S512x1024_1_0_0_1_n_n 16 rfl rfl).symm k) = ix2 k e := funext fun a => Fin.ext (by
    match a with
    | ⟨0, _⟩ => exact (rhs_out_0 _ _).trans hk
    | ⟨1, _⟩ => exact rhs_out_1 _ _)
  rw [el, er]

/-! ## The lane sum of the denominator -/

/-- The reduced index `s` with lane `k` put back is `(s, k)`. -/
private theorem lift_lane (h : S512x16.Reduces [1] S512) (s : Fin 512) (k : Fin (S512x16.size 1)) :
    h.lift (ix1 s) k = ix2 s (⟨k.val, k.isLt⟩ : Fin 16) := by
  funext c; apply Fin.ext
  match c with
  | ⟨0, _⟩ => rfl
  | ⟨1, _⟩ => rfl

/-- The sum over axis 1 of a `[512, 16]` array, from the zero pattern, at row `s`: the sum over the sixteen lanes. -/
private theorem laneSum_apply (v : FVec Ideal S512x16 .f32) (h : S512x16.Reduces [1] S512) (hφ : FKind.Formats .f32)
    (hacc : (0x00000000#32 : BitVec 32) = 0x00000000#32) (s : Fin 512) :
    multiReduction .add [1] S512 v 0x00000000#32 h hφ hacc (ix1 s) = ∑ k : Fin 16, v (ix2 s k) := by
  refine (Ideal.multiReduction_add_single v 0x00000000#32 h hφ hacc (ix1 s)).trans ?_
  exact Finset.sum_congr rfl fun k _ => congrArg v (lift_lane h s k)

/-- The output tile at row `s`, column `e`. -/
theorem outT_apply (A : Vec Ideal S1x512x16 .f32) (G : Vec Ideal S1x1x16 .f32) (MM : Vec Ideal S16x1024 .f32)
    (a : Fin 512 → Fin 16 → ℝ) (g : Fin 16 → ℝ) (mm : Fin 16 → Fin 1024 → ℝ)
    (hA : ∀ (s : Fin 512) (k : Fin 16), A (ix3 (0 : Fin 1) s k) = ((a s k : ℝ) : EReal))
    (hG : ∀ k : Fin 16, G (ix3 (0 : Fin 1) (0 : Fin 1) k) = ((g k : ℝ) : EReal))
    (hM : ∀ (k : Fin 16) (e : Fin 1024), MM (ix2 k e) = ((mm k e : ℝ) : EReal))
    (s : Fin 512) (e : Fin 1024) (hden : (∑ k, a s k * g k) + eps ≠ 0) :
    Outs.outT (F := Ideal) A G MM (ix3 (0 : Fin 1) s e)
      = (((∑ k, a s k * mm k e) / ((∑ k, a s k * g k) + eps) : ℝ) : EReal) := by
  show shapeCast S1x512x1024
      (divf (F := Ideal)
        (matmul (F := Ideal) dot_S512x16_S16x1024_S512x1024_1_0_0_1_n_n none
          (shapeCast S512x16 (A : FVec Ideal S1x512x16 .f32) shapeCasts_S1x512x16_S512x16)
          (MM : FVec Ideal S16x1024 .f32) (constant S512x1024 .f32 0x00000000#32))
        (broadcastTo S512x1024
          (addf (F := Ideal)
            (shapeCast S512x1
              (multiReduction (F := Ideal) .add [1] S512
                (mulf (F := Ideal) (shapeCast S512x16 (A : FVec Ideal S1x512x16 .f32) shapeCasts_S1x512x16_S512x16)
                  (broadcastTo S512x16 (shapeCast S1x16 (G : FVec Ideal S1x1x16 .f32) shapeCasts_S1x1x16_S1x16)
                    broadcasts_S1x16_S512x16))
                0x00000000#32 reduces_S512x16_S512 (.inl rfl) rfl)
              shapeCasts_S512_S512x1)
            (broadcast S512x1 (Scalar.ofBits (F := Ideal) .f32 0x322BCC77#32)))
          broadcasts_S512x1_S512x1024))
      shapeCasts_S512x1024_S1x512x1024 (ix3 (0 : Fin 1) s e) = _
  rw [shapeCast_ab_1ab_apply, divf_apply, matmul_out_apply, broadcastTo_a1_ab_apply, addf_apply, broadcast_apply,
    shapeCast_a_a1_apply, laneSum_apply]
  have e1 : ∀ k : Fin 16, shapeCast S512x16 (A : FVec Ideal S1x512x16 .f32) shapeCasts_S1x512x16_S512x16 (ix2 s k)
      = ((a s k : ℝ) : EReal) := fun k => by rw [shapeCast_1ab_ab_apply, hA]
  have e2 : ∀ k : Fin 16, broadcastTo S512x16 (shapeCast S1x16 (G : FVec Ideal S1x1x16 .f32) shapeCasts_S1x1x16_S1x16)
      broadcasts_S1x16_S512x16 (ix2 s k) = ((g k : ℝ) : EReal) := fun k => by
    rw [broadcastTo_1b_ab_apply, shapeCast_1ab_ab_apply, hG]
  have hnum : (∑ k : Fin 16, ((a s k : ℝ) : EReal) * ((mm k e : ℝ) : EReal)) = ((∑ k, a s k * mm k e : ℝ) : EReal) := by
    rw [coe_finset_sum]; exact Finset.sum_congr rfl fun k _ => (EReal.coe_mul _ _).symm
  have hsum : (∑ k : Fin 16, ((a s k : ℝ) : EReal) * ((g k : ℝ) : EReal)) = ((∑ k, a s k * g k : ℝ) : EReal) := by
    rw [coe_finset_sum]; exact Finset.sum_congr rfl fun k _ => (EReal.coe_mul _ _).symm
  simp only [mulf_apply, e1, e2, hM]
  rw [hnum, hsum, Ideal.ofBits_def, ofBits_eps, ← EReal.coe_add, Ideal.div_coe hden, ← EReal.coe_mul, mul_one_div]

end Cert.KernelIdeal.Tile

end
-- ==== Proof.KI.Array1.lean ====
/-
  From blocks to arrays, second region: with the affinities, the accumulated `affᵀ x`, the column sums and the two
  weight matrices real numbers when the region is entered, and every denominator nonzero, the result array ends, entry
  by entry, at `(a M) / (a · g + ε)` with `M = (C Wv) Wo` folded once per batch.
-/
import proofs.«104191_g80702435492106_cont_9to1c4b_850_6_alg».proof.Proof.KI.Region1
import proofs.«104191_g80702435492106_cont_9to1c4b_850_6_alg».proof.Proof.KI.Tile1
import proofs.«104191_g80702435492106_cont_9to1c4b_850_6_alg».proof.Proof.Spec
import proofs.«104191_g80702435492106_cont_9to1c4b_850_6_alg».proof.Proof.Consts
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.Spec Cert.Consts

/-! ## The grid: point `t` is tile `t % 4` of batch `t / 4` -/

section Blocks

variable (V : (c : Dev nD) → (b : Ref sig .tc) → Buf (Elt Ideal) ((c : Thread nD τ).loc b)) (c : Dev nD)

/-- The printed index maps, decided over the eight points: the affinity and result windows move with the tile and the
    batch, the accumulated blocks with the batch only, the weight matrices not at all. -/
private theorem idx_facts1 : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 3) = t.val / 4 ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val / 4 ∧ win1_5.index t (1 : Fin 3) = t.val % 4 ∧ win1_5.index t (2 : Fin 3) = 0) :=
  (by decide +kernel : ∀ t : Fin grid1.N, _)

/-! ## The blocks a point reads, at explicit coordinates -/

/-- The affinity block at point `t` holds rows `512 (t % 4) + s` of batch `t / 4`. -/
private theorem blk0_apply (t : Fin cfg1.N) (b : Fin 2) (hb : b.val = t.val / 4) (s : Fin 512) (r : Fin 2048)
    (hr : r.val = 512 * (t.val % 4) + s.val) (k : Fin 16) :
    (iblk1 V c 0 t : S1x512x16.Idx → EReal) (ix3 (0 : Fin 1) s k) = (V c main_v2_0 : S2x2048x16.Idx → EReal) (ix3 b r k) := by
  obtain ⟨⟨e0, e1, e2⟩, -⟩ := idx_facts1 t
  unfold iblk1
  rw [View.read_apply]
  show (V c main_v2_0 : S2x2048x16.Idx → EReal) _ = _
  refine congrArg _ (funext fun ax => Fin.ext ?_)
  match ax with
  | ⟨0, _⟩ => show win1_0.index t (0 : Fin 3) * 1 + 1 * 0 = b.val; omega
  | ⟨1, _⟩ => show win1_0.index t (1 : Fin 3) * 512 + 1 * s.val = r.val; omega
  | ⟨2, _⟩ => show win1_0.index t (2 : Fin 3) * 16 + 1 * k.val = k.val; omega

/-- The accumulated `affᵀ x` block at point `t` is batch `t / 4`'s. -/
private theorem blk1_apply (t : Fin cfg1.N) (b : Fin 2) (hb : b.val = t.val / 4) (k : Fin 16) (d : Fin 1024) :
    (iblk1 V c 1 t : S1x16x1024.Idx → EReal) (ix3 (0 : Fin 1) k d) = (V c main_v2_1 : S2x16x1024.Idx → EReal) (ix3 b k d) := by
  obtain ⟨-, ⟨e0, e1, e2⟩, -⟩ := idx_facts1 t
  unfold iblk1
  rw [View.read_apply]
  show (V c main_v2_1 : S2x16x1024.Idx → EReal) _ = _
  refine congrArg _ (funext fun ax => Fin.ext ?_)
  match ax with
  | ⟨0, _⟩ => show win1_1.index t (0 : Fin 3) * 1 + 1 * 0 = b.val; omega
  | ⟨1, _⟩ => show win1_1.index t (1 : Fin 3) * 16 + 1 * k.val = k.val; omega
  | ⟨2, _⟩ => show win1_1.index t (2 : Fin 3) * 1024 + 1 * d.val = d.val; omega

/-- The column-sum block at point `t` is batch `t / 4`'s. -/
private theorem blk2_apply (t : Fin cfg1.N) (b : Fin 2) (hb : b.val = t.val / 4) (k : Fin 16) :
    (iblk1 V c 2 t : S1x1x16.Idx → EReal) (ix3 (0 : Fin 1) (0 : Fin 1) k)
      = (V c main_v2_2 : S2x1x16.Idx → EReal) (ix3 b (0 : Fin 1) k) := by
  obtain ⟨-, -, ⟨e0, e1, e2⟩, -⟩ := idx_facts1 t
  unfold iblk1
  rw [View.read_apply]
  show (V c main_v2_2 : S2x1x16.Idx → EReal) _ = _
  refine congrArg _ (funext fun ax => Fin.ext ?_)
  match ax with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 16 + 1 * k.val = k.val; omega

/-- The first weight matrix's block is the whole matrix at every point. -/
private theorem blk3_apply (t : Fin cfg1.N) (i j : Fin 1024) :
    (iblk1 V c 3 t : S1024x1024.Idx → EReal) (ix2 i j) = (V c main_arg4 : S1024x1024.Idx → EReal) (ix2 i j) := by
  obtain ⟨-, -, -, ⟨e0, e1⟩, -⟩ := idx_facts1 t
  unfold iblk1
  rw [View.read_apply]
  show (V c main_arg4 : S1024x1024.Idx → EReal) _ = _
  refine congrArg _ (funext fun ax => Fin.ext ?_)
  match ax with
  | ⟨0, _⟩ => show win1_3.index t (0 : Fin 2) * 1024 + 1 * i.val = i.val; omega
  | ⟨1, _⟩ => show win1_3.index t (1 : Fin 2) * 1024 + 1 * j.val = j.val; omega

/-- The second weight matrix's block is the whole matrix at every point. -/
private theorem blk4_apply (t : Fin cfg1.N) (i j : Fin 1024) :
    (iblk1 V c 4 t : S1024x1024.Idx → EReal) (ix2 i j) = (V c main_arg5 : S1024x1024.Idx → EReal) (ix2 i j) := by
  obtain ⟨-, -, -, -, ⟨e0, e1⟩, -⟩ := idx_facts1 t
  unfold iblk1
  rw [View.read_apply]
  show (V c main_arg5 : S1024x1024.Idx → EReal) _ = _
  refine congrArg _ (funext fun ax => Fin.ext ?_)
  match ax with
  | ⟨0, _⟩ => show win1_4.index t (0 : Fin 2) * 1024 + 1 * i.val = i.val; omega
  | ⟨1, _⟩ => show win1_4.index t (1 : Fin 2) * 1024 + 1 * j.val = j.val; omega

/-- Where an element of the result block at point `t` sits in the result array. -/
private theorem emb5_apply (t : Fin cfg1.N) (b : Fin 2) (hb : b.val = t.val / 4) (s : Fin 512) (r : Fin 2048)
    (hr : r.val = 512 * (t.val % 4) + s.val) (e : Fin 1024) :
    (((cfg1.win 5).blk t).view.emb (ix3 (0 : Fin 1) s e) : S2x2048x1024.Idx) = ix3 b r e := by
  obtain ⟨-, -, -, -, -, e0, e1, e2⟩ := idx_facts1 t
  refine funext fun ax => Fin.ext ?_
  match ax with
  | ⟨0, _⟩ => show win1_5.index t (0 : Fin 3) * 1 + 1 * 0 = b.val; omega
  | ⟨1, _⟩ => show win1_5.index t (1 : Fin 3) * 512 + 1 * s.val = r.val; omega
  | ⟨2, _⟩ => show win1_5.index t (2 : Fin 3) * 1024 + 1 * e.val = e.val; omega

/-- An index of the result array is in point `t`'s block iff each coordinate is in the block's range on its axis. -/
private theorem mem_blk5 (t : Fin cfg1.N) (i : S2x2048x1024.Idx) :
    i ∈ ((cfg1.win 5).blk t).view.set ↔ ∀ ax : Fin 3, win1_5.index t ax * S1x512x1024.size ax ≤ (i ax).val
      ∧ (i ax).val < win1_5.index t ax * S1x512x1024.size ax + S1x512x1024.size ax := by
  show i ∈ ((View.whole main_v3).slice (win1_5.rect t)).set ↔ _
  rw [View.set_slice_whole, Rect.mem_set_unit]
  exact Iff.rfl

/-- Every index of the result array is in the block of the point of its batch and tile. -/
private theorem cover5 (i : S2x2048x1024.Idx) :
    ∃ t : Fin cfg1.N, (cfg1.win 5).flush t = true ∧ i ∈ ((cfg1.win 5).blk t).view.set := by
  have hN : cfg1.N = 8 := N_1
  have h0 : (i 0).val < 2 := (i 0).isLt
  have h1 : (i 1).val < 2048 := (i 1).isLt
  have h2 : (i 2).val < 1024 := (i 2).isLt
  refine ⟨⟨4 * (i 0).val + (i 1).val / 512, by omega⟩, flush1_5 _, ?_⟩
  rw [mem_blk5]
  obtain ⟨-, -, -, -, -, e0, e1, e2⟩ := idx_facts1 ⟨4 * (i 0).val + (i 1).val / 512, by omega⟩
  dsimp only at e0 e1 e2
  intro ax
  match ax with
  | ⟨0, _⟩ =>
    show win1_5.index _ (0 : Fin 3) * 1 ≤ (i 0).val ∧ (i 0).val < win1_5.index _ (0 : Fin 3) * 1 + 1
    omega
  | ⟨1, _⟩ =>
    show win1_5.index _ (1 : Fin 3) * 512 ≤ (i 1).val ∧ (i 1).val < win1_5.index _ (1 : Fin 3) * 512 + 512
    omega
  | ⟨2, _⟩ =>
    show win1_5.index _ (2 : Fin 3) * 1024 ≤ (i 2).val ∧ (i 2).val < win1_5.index _ (2 : Fin 3) * 1024 + 1024
    omega

end Blocks

/-! ## The folded matrix carried through a batch, and the tile a point leaves -/

section Points

variable (V : (c : Dev nD) → (b : Ref sig .tc) → Buf (Elt Ideal) ((c : Thread nD τ).loc b)) (c : Dev nD)
  (a : Fin 2 → Fin 2048 → Fin 16 → ℝ) (cc : Fin 2 → Fin 16 → Fin 1024 → ℝ) (gg : Fin 2 → Fin 16 → ℝ) (wv wo : Fin 1024 → Fin 1024 → ℝ)

/-- At a batch's first tile the scratch block is the batch's folded matrix `(C Wv) Wo`. -/
private theorem mAt1_first (hC : ∀ (b : Fin 2) (k : Fin 16) (d : Fin 1024), (V c main_v2_1 : S2x16x1024.Idx → EReal) (ix3 b k d) = ((cc b k d : ℝ) : EReal)) (hV : ∀ i j : Fin 1024, (V c main_arg4 : S1024x1024.Idx → EReal) (ix2 i j) = ((wv i j : ℝ) : EReal)) (hO : ∀ i j : Fin 1024, (V c main_arg5 : S1024x1024.Idx → EReal) (ix2 i j) = ((wo i j : ℝ) : EReal)) (t : Fin cfg1.N) (h0 : t.val % 4 = 0) (b : Fin 2) (hb : b.val = t.val / 4)
    (k : Fin 16) (e : Fin 1024) :
    (mAt1 V c t.val t.isLt : S16x1024.Idx → EReal) (ix2 k e) = (((∑ d, (∑ d', cc b k d' * wv d' d) * wo d e) : ℝ) : EReal) := by
  refine (congrFun (mAt1_A V c t h0) (ix2 k e)).trans ?_
  exact Tile.mFold_apply (iblk1 V c 1 t) (iblk1 V c 3 t) (iblk1 V c 4 t) (cc b) wv wo
    (fun k d => (blk1_apply V c t b hb k d).trans (hC b k d))
    (fun i j => (blk3_apply V c t i j).trans (hV i j))
    (fun i j => (blk4_apply V c t i j).trans (hO i j)) k e

/-- At every point the scratch block is the folded matrix of the point's batch: computed at the batch's first tile,
    kept by the later ones. -/
private theorem mAt1_apply (hC : ∀ (b : Fin 2) (k : Fin 16) (d : Fin 1024), (V c main_v2_1 : S2x16x1024.Idx → EReal) (ix3 b k d) = ((cc b k d : ℝ) : EReal)) (hV : ∀ i j : Fin 1024, (V c main_arg4 : S1024x1024.Idx → EReal) (ix2 i j) = ((wv i j : ℝ) : EReal)) (hO : ∀ i j : Fin 1024, (V c main_arg5 : S1024x1024.Idx → EReal) (ix2 i j) = ((wo i j : ℝ) : EReal)) :
    ∀ (n : ℕ) (hn : n < cfg1.N) (b : Fin 2), b.val = n / 4 → ∀ (k : Fin 16) (e : Fin 1024),
      (mAt1 V c n hn : S16x1024.Idx → EReal) (ix2 k e) = (((∑ d, (∑ d', cc b k d' * wv d' d) * wo d e) : ℝ) : EReal) := by
  intro n
  induction n with
  | zero => intro hn b hb k e; exact mAt1_first V c cc wv wo hC hV hO ⟨0, hn⟩ rfl b hb k e
  | succ n ih =>
    intro hn b hb k e
    by_cases h0 : (n + 1) % 4 = 0
    · exact mAt1_first V c cc wv wo hC hV hO ⟨n + 1, hn⟩ h0 b hb k e
    · refine (congrFun (mAt1_B V c ⟨n + 1, hn⟩ h0) (ix2 k e)).trans ?_
      exact ih (Nat.lt_of_succ_lt hn) b (by omega) k e

/-- The tile point `t` leaves, at row `s` and column `e`: the result at row `512 (t % 4) + s` of batch `t / 4`. -/
private theorem outT1_apply (hA : ∀ (b : Fin 2) (s : Fin 2048) (k : Fin 16), (V c main_v2_0 : S2x2048x16.Idx → EReal) (ix3 b s k) = ((a b s k : ℝ) : EReal)) (hC : ∀ (b : Fin 2) (k : Fin 16) (d : Fin 1024), (V c main_v2_1 : S2x16x1024.Idx → EReal) (ix3 b k d) = ((cc b k d : ℝ) : EReal)) (hG : ∀ (b : Fin 2) (k : Fin 16), (V c main_v2_2 : S2x1x16.Idx → EReal) (ix3 b (0 : Fin 1) k) = ((gg b k : ℝ) : EReal)) (hV : ∀ i j : Fin 1024, (V c main_arg4 : S1024x1024.Idx → EReal) (ix2 i j) = ((wv i j : ℝ) : EReal)) (hO : ∀ i j : Fin 1024, (V c main_arg5 : S1024x1024.Idx → EReal) (ix2 i j) = ((wo i j : ℝ) : EReal)) (hden : ∀ (b : Fin 2) (i : Fin 2048), (∑ k, a b i k * gg b k) + eps ≠ 0)
    (t : Fin cfg1.N) (b : Fin 2) (hb : b.val = t.val / 4) (s : Fin 512) (r : Fin 2048) (hr : r.val = 512 * (t.val % 4) + s.val)
    (e : Fin 1024) :
    (Outs.outT (F := Ideal) (iblk1 V c 0 t) (iblk1 V c 2 t) (mAt1 V c t.val t.isLt) : S1x512x1024.Idx → EReal) (ix3 (0 : Fin 1) s e)
      = (((∑ k, a b r k * (∑ d, (∑ d', cc b k d' * wv d' d) * wo d e)) / ((∑ k, a b r k * gg b k) + eps) : ℝ) : EReal) := by
  have hrow : ∀ s' : Fin 512, 512 * (t.val % 4) + s'.val < 2048 := fun s' => by have := s'.isLt; omega
  have hre : (⟨512 * (t.val % 4) + s.val, hrow s⟩ : Fin 2048) = r := Fin.ext hr.symm
  have key := Tile.outT_apply (iblk1 V c 0 t) (iblk1 V c 2 t) (mAt1 V c t.val t.isLt)
    (fun s' k => a b ⟨512 * (t.val % 4) + s'.val, hrow s'⟩ k) (gg b) (fun k e => (∑ d, (∑ d', cc b k d' * wv d' d) * wo d e))
    (fun s' k => (blk0_apply V c t b hb s' ⟨512 * (t.val % 4) + s'.val, hrow s'⟩ rfl k).trans (hA b _ k))
    (fun k => (blk2_apply V c t b hb k).trans (hG b k))
    (fun k e => mAt1_apply V c cc wv wo hC hV hO t.val t.isLt b hb k e)
    s e (by rw [hre]; exact hden b r)
  rw [hre] at key
  exact key

end Points

section

variable (V : (c : Dev nD) → (b : Ref sig .tc) → Buf (Elt Ideal) ((c : Thread nD τ).loc b)) (c : Dev nD)
  (a : Fin 2 → Fin 2048 → Fin 16 → ℝ) (cc : Fin 2 → Fin 16 → Fin 1024 → ℝ) (gg : Fin 2 → Fin 16 → ℝ) (wv wo : Fin 1024 → Fin 1024 → ℝ)
  (hA : ∀ (b : Fin 2) (s : Fin 2048) (k : Fin 16), (V c main_v2_0 : S2x2048x16.Idx → EReal) (ix3 b s k) = ((a b s k : ℝ) : EReal))
  (hC : ∀ (b : Fin 2) (k : Fin 16) (d : Fin 1024), (V c main_v2_1 : S2x16x1024.Idx → EReal) (ix3 b k d) = ((cc b k d : ℝ) : EReal))
  (hG : ∀ (b : Fin 2) (k : Fin 16), (V c main_v2_2 : S2x1x16.Idx → EReal) (ix3 b (0 : Fin 1) k) = ((gg b k : ℝ) : EReal))
  (hV : ∀ i j : Fin 1024, (V c main_arg4 : S1024x1024.Idx → EReal) (ix2 i j) = ((wv i j : ℝ) : EReal))
  (hO : ∀ i j : Fin 1024, (V c main_arg5 : S1024x1024.Idx → EReal) (ix2 i j) = ((wo i j : ℝ) : EReal))
  (hden : ∀ (b : Fin 2) (i : Fin 2048), (∑ k, a b i k * gg b k) + eps ≠ 0)

include hA hC hG hV hO hden

/-- The result array after the region. -/
theorem out_final (b : Fin 2) (i : Fin 2048) (e : Fin 1024) :
    ((dat1 V c).arrAt 5 cfg1.N : S2x2048x1024.Idx → EReal) (ix3 b i e)
      = (((∑ k, a b i k * (∑ d, (∑ d', cc b k d' * wv d' d) * wo d e)) / ((∑ k, a b i k * gg b k) + eps) : ℝ) : EReal) := by
  -- The array ends holding, index by index, the real quotient: every point's tile is its block of that function,
  -- and the eight blocks cover the array.
  have hfin := (dat1 V c).arrAt_eq_of_cover 5
    (fun idx : S2x2048x1024.Idx =>
      (((∑ k, a (idx 0) (idx 1) k * (∑ d, (∑ d', cc (idx 0) k d' * wv d' d) * wo d (idx 2)))
        / ((∑ k, a (idx 0) (idx 1) k * gg (idx 0) k) + eps) : ℝ) : EReal))
    (fun t _ => by
      have ht8 : t.val < 8 := lt_of_lt_of_eq t.isLt N_1
      have hbt : t.val / 4 < 2 := by omega
      show (cfg1.win 5).cut (grid1.coords t) ((dat1 V c).after 5 t) = _
      rw [after1_5]
      funext y
      obtain ⟨u, s, e, rfl⟩ : ∃ (u : Fin 1) (s : Fin 512) (e : Fin 1024), y = ix3 u s e := ⟨y 0, y 1, y 2, eq_ix3 y⟩
      obtain rfl : u = 0 := Subsingleton.elim _ _
      have hrow : 512 * (t.val % 4) + s.val < 2048 := by have := s.isLt; omega
      rw [View.read_apply, emb5_apply t ⟨t.val / 4, hbt⟩ rfl s ⟨512 * (t.val % 4) + s.val, hrow⟩ rfl e]
      exact outT1_apply V c a cc gg wv wo hA hC hG hV hO hden t ⟨t.val / 4, hbt⟩ rfl s ⟨512 * (t.val % 4) + s.val, hrow⟩ rfl e)
    (fun i => cover5 i)
  exact congrFun hfin (ix3 b i e)

end

end Cert.KernelIdeal.Hand

end
-- ==== Proof.KI.Value.lean ====
/-
  The idealized kernel's result over the reals: with every input entry a real number the result array ends, entry by
  entry, at the kernel's real specification `(a M) / (a · g + ε)`.
-/
import proofs.«104191_g80702435492106_cont_9to1c4b_850_6_alg».proof.Proof.KI.Run
import proofs.«104191_g80702435492106_cont_9to1c4b_850_6_alg».proof.Proof.KI.Array0
import proofs.«104191_g80702435492106_cont_9to1c4b_850_6_alg».proof.Proof.KI.Array1
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx Idealize.ShloMosaic.StableHlo
open Idealize.ShloMosaic.Pipeline (Dat)
open Cert.KernelIdeal Cert.KernelIdeal.Gen Cert.Spec Cert.Consts

variable (m : (ℓ : Loc nD τ sig) → Buf (Elt Ideal) ℓ) (c : Dev nD)

/-- The host's reshape of a 16-vector to a 1 × 16 block, read at an index. -/
theorem reshape16_apply (r w : Ref sig .tc) (hr : r = main_arg2 ∨ r = main_arg3) (x : S16.Idx → EReal) (k : Fin 16) :
    shapeCast S1x16 x shapeCasts_S16_S1x16 (ix2 (0 : Fin 1) k) = x (ix1 k) := by
  rw [shapeCast_apply _ _ _ (ix1 k)]
  show ((⟨1, ![16]⟩ : Shape).rowMajor (ix1 k)).val = ((⟨2, ![1, 16]⟩ : Shape).rowMajor (ix2 (0 : Fin 1) k)).val
  rw [Shape.rowMajor_val_one, Shape.rowMajor_val_two]
  simp

/-- The log-scales as the first region finds them: the host's reshape of the argument. -/
theorem V1_v0_apply (k : Fin 16) : (V1 m c main_v0 : S1x16.Idx → EReal) (ix2 (0 : Fin 1) k)
    = (m ((c : Thread nD τ).loc main_arg2) : S16.Idx → EReal) (ix1 k) := by
  have e : (Gen.V1 m c (Proc.devRef .tc main_v0) : S1x16.Idx → EReal)
      = shapeCast S1x16 (m ((c : Thread nD τ).loc main_arg2) : S16.Idx → EReal) shapeCasts_S16_S1x16 := by
    dsimp only [Gen.V1, Gen.V0, Gen.hostOps0]
    after_results
    rfl
  show (Gen.V1 m c (Proc.devRef .tc main_v0) : S1x16.Idx → EReal) (ix2 (0 : Fin 1) k) = _
  rw [e]; exact reshape16_apply main_arg2 main_v0 (.inl rfl) _ k

/-- The amplitudes as the first region finds them. -/
theorem V1_v1_apply (k : Fin 16) : (V1 m c main_v1 : S1x16.Idx → EReal) (ix2 (0 : Fin 1) k)
    = (m ((c : Thread nD τ).loc main_arg3) : S16.Idx → EReal) (ix1 k) := by
  have e : (Gen.V1 m c (Proc.devRef .tc main_v1) : S1x16.Idx → EReal)
      = shapeCast S1x16 (m ((c : Thread nD τ).loc main_arg3) : S16.Idx → EReal) shapeCasts_S16_S1x16 := by
    dsimp only [Gen.V1, Gen.V0, Gen.hostOps0]
    after_results
    rfl
  show (Gen.V1 m c (Proc.devRef .tc main_v1) : S1x16.Idx → EReal) (ix2 (0 : Fin 1) k) = _
  rw [e]; exact reshape16_apply main_arg3 main_v1 (.inr rfl) _ k

section

variable (xr : Fin 2 → Fin 2048 → Fin 1024 → ℝ) (pr : Fin 16 → Fin 1024 → ℝ) (lr ar : Fin 16 → ℝ) (wv wo : Fin 1024 → Fin 1024 → ℝ)
  (hX : ∀ (b : Fin 2) (s : Fin 2048) (d : Fin 1024), (m ((c : Thread nD τ).loc main_arg0) : S2x2048x1024.Idx → EReal) (ix3 b s d) = ((xr b s d : ℝ) : EReal))
  (hP : ∀ (k : Fin 16) (d : Fin 1024), (m ((c : Thread nD τ).loc main_arg1) : S16x1024.Idx → EReal) (ix2 k d) = ((pr k d : ℝ) : EReal))
  (hL : ∀ k : Fin 16, (m ((c : Thread nD τ).loc main_arg2) : S16.Idx → EReal) (ix1 k) = ((lr k : ℝ) : EReal))
  (hA : ∀ k : Fin 16, (m ((c : Thread nD τ).loc main_arg3) : S16.Idx → EReal) (ix1 k) = ((ar k : ℝ) : EReal))
  (hV : ∀ i j : Fin 1024, (m ((c : Thread nD τ).loc main_arg4) : S1024x1024.Idx → EReal) (ix2 i j) = ((wv i j : ℝ) : EReal))
  (hO : ∀ i j : Fin 1024, (m ((c : Thread nD τ).loc main_arg5) : S1024x1024.Idx → EReal) (ix2 i j) = ((wo i j : ℝ) : EReal))

include hX hP hL hA hV hO

/-- The kernel's result array at an entry is the coercion of the kernel's real specification. -/
theorem kernel_value (b : Fin 2) (i : Fin 2048) (e : Fin 1024) :
    ((dat1 (V2 m) c).arrAt 5 cfg1.N : S2x2048x1024.Idx → EReal) (ix3 b i e)
      = ((outK xr wv wo eps (affK xr pr lr ar eps) b i e : ℝ) : EReal) := by
  -- the first region's entry contents are the arguments (and the host's reshapes of two of them)
  have h1X : ∀ (b : Fin 2) (s : Fin 2048) (d : Fin 1024), (V1 m c main_arg0 : S2x2048x1024.Idx → EReal) (ix3 b s d) = ((xr b s d : ℝ) : EReal) :=
    fun b s d => (congrFun (Gen.V1_of m c main_arg0 (by decide)) (ix3 b s d)).trans (hX b s d)
  have h1P : ∀ (k : Fin 16) (d : Fin 1024), (V1 m c main_arg1 : S16x1024.Idx → EReal) (ix2 k d) = ((pr k d : ℝ) : EReal) :=
    fun k d => (congrFun (Gen.V1_of m c main_arg1 (by decide)) (ix2 k d)).trans (hP k d)
  have h1L : ∀ k : Fin 16, (V1 m c main_v0 : S1x16.Idx → EReal) (ix2 (0 : Fin 1) k) = ((lr k : ℝ) : EReal) :=
    fun k => (V1_v0_apply m c k).trans (hL k)
  have h1A : ∀ k : Fin 16, (V1 m c main_v1 : S1x16.Idx → EReal) (ix2 (0 : Fin 1) k) = ((ar k : ℝ) : EReal) :=
    fun k => (V1_v1_apply m c k).trans (hA k)
  -- the second region's entry contents: the first region's three results, and the two weight matrices as launched
  have h2A : ∀ (b : Fin 2) (s : Fin 2048) (k : Fin 16), (V2 m c main_v2_0 : S2x2048x16.Idx → EReal) (ix3 b s k)
      = ((affK xr pr lr ar eps b s k : ℝ) : EReal) :=
    fun b s k => (congrFun (hF0 m c 4).symm (ix3 b s k)).trans (aff_final (V1 m) c xr pr lr ar h1X h1P h1L h1A b s k)
  have h2C : ∀ (b : Fin 2) (k : Fin 16) (d : Fin 1024), (V2 m c main_v2_1 : S2x16x1024.Idx → EReal) (ix3 b k d)
      = ((cAcc xr (affK xr pr lr ar eps) b k d : ℝ) : EReal) :=
    fun b k d => (congrFun (hF0 m c 5).symm (ix3 b k d)).trans (c_final (V1 m) c xr pr lr ar h1X h1P h1L h1A b k d)
  have h2G : ∀ (b : Fin 2) (k : Fin 16), (V2 m c main_v2_2 : S2x1x16.Idx → EReal) (ix3 b (0 : Fin 1) k)
      = ((gAcc (affK xr pr lr ar eps) b k : ℝ) : EReal) :=
    fun b k => (congrFun (hF0 m c 6).symm (ix3 b (0 : Fin 1) k)).trans (g_final (V1 m) c xr pr lr ar h1X h1P h1L h1A b k)
  have h2V : ∀ i j : Fin 1024, (V2 m c main_arg4 : S1024x1024.Idx → EReal) (ix2 i j) = ((wv i j : ℝ) : EReal) :=
    fun i j => (congrFun ((W2_of_ne m c main_arg4 (by decide)).trans (Gen.V1_of m c main_arg4 (by decide))) (ix2 i j)).trans (hV i j)
  have h2O : ∀ i j : Fin 1024, (V2 m c main_arg5 : S1024x1024.Idx → EReal) (ix2 i j) = ((wo i j : ℝ) : EReal) :=
    fun i j => (congrFun ((W2_of_ne m c main_arg5 (by decide)).trans (Gen.V1_of m c main_arg5 (by decide))) (ix2 i j)).trans (hO i j)
  have hden : ∀ (b : Fin 2) (i : Fin 2048), (∑ k, affK xr pr lr ar eps b i k * gAcc (affK xr pr lr ar eps) b k) + eps ≠ 0 :=
    fun b i => ne_of_gt (denK_affK_pos xr pr lr ar eps eps_pos b i)
  exact (out_final (V2 m) c (affK xr pr lr ar eps) (cAcc xr (affK xr pr lr ar eps)) (gAcc (affK xr pr lr ar eps)) wv wo
    h2A h2C h2G h2V h2O hden b i e).trans rfl

end

end Cert.KernelIdeal.Hand

end
-- ==== Proof.RefReal.lean ====
/-
  The reference's result over the reals: with every input entry a real number, the reference's result at (b, i, e) is the
  real number `Σ_d (Σ_j (A[i,j] / (Σ_j' A[i,j'] + ε)) (x Wv)[j,d]) Wo[d,e]`, `A = a aᵀ` at the reference's affinities.
-/
import proofs.«104191_g80702435492106_cont_9to1c4b_850_6_alg».proof.Proof.Gen.ReferenceIdeal.Read
import proofs.«104191_g80702435492106_cont_9to1c4b_850_6_alg».proof.Proof.Spec
import proofs.«104191_g80702435492106_cont_9to1c4b_850_6_alg».proof.Proof.Consts
import Idealize.ShloMosaic.Lib.ValueIdx
import Idealize.ShloMosaic.PureOps.Ideal.Laws

noncomputable section

open scoped BigOperators

namespace Cert.ReferenceIdeal.RefReal

open Idealize.ShloMosaic Idealize.ShloMosaic.ValueIdx Cert.ReferenceIdeal Cert.ReferenceIdeal.Read

/-! ## Sums of coercions -/

/-- The sum of the coercions of finitely many reals is the coercion of their sum. -/
private theorem coe_sum {ι : Type} (S : Finset ι) (f : ι → ℝ) :
    ∑ k ∈ S, ((f k : ℝ) : EReal) = ((∑ k ∈ S, f k : ℝ) : EReal) := by
  classical
  induction S using Finset.induction_on with
  | empty => rw [Finset.sum_empty, Finset.sum_empty, EReal.coe_zero]
  | insert a S ha ih => rw [Finset.sum_insert ha, Finset.sum_insert ha, ih, EReal.coe_add]

private theorem coe_sum_univ {ι : Type} [Fintype ι] (f : ι → ℝ) :
    ∑ k, ((f k : ℝ) : EReal) = ((∑ k, f k : ℝ) : EReal) := coe_sum Finset.univ f

/-! ## The stages, bottom-up, each at explicit coordinates and each the coercion of a real -/

section Stages

variable {X : (⟨S2x2048x1024, .f32⟩ : BufTy).Contents (Elt Ideal)} {P : (⟨S16x1024, .f32⟩ : BufTy).Contents (Elt Ideal)}
  {LS AMP : (⟨S16, .f32⟩ : BufTy).Contents (Elt Ideal)} {WV WO : (⟨S1024x1024, .f32⟩ : BufTy).Contents (Elt Ideal)}
  {xr : Fin 2 → Fin 2048 → Fin 1024 → ℝ} {pr : Fin 16 → Fin 1024 → ℝ} {lr ar : Fin 16 → ℝ} {wv wo : Fin 1024 → Fin 1024 → ℝ}

/-- The squared length of row `(b, s)`, broadcast along the splats. -/
private theorem v8_real (hX : ∀ (b : Fin 2) (s : Fin 2048) (d : Fin 1024), X (ix3 b s d) = ((xr b s d : ℝ) : EReal)) (b : Fin 2) (s : Fin 2048) (k : Fin 16) :
    val_main_v8 (F := Ideal) X (ix3 b s k) = ((Cert.Spec.rsq (xr b s) : ℝ) : EReal) := by
  have h8 : idx_main_v8 (ix3 b s k) = ix3 b s (⟨0, Nat.one_pos⟩ : Fin 1) := funext fun a => by match a with | ⟨0, _⟩ => rfl | ⟨1, _⟩ => rfl | ⟨2, _⟩ => rfl
  have h3 : idx_main_v3 (ix3 b s (⟨0, Nat.one_pos⟩ : Fin 1)) = ix2 b s := funext fun a => by match a with | ⟨0, _⟩ => rfl | ⟨1, _⟩ => rfl
  have h2 : ∀ d : Fin 1024, idx_main_v2 (ix2 b s) d = ix3 b s d := fun d => funext fun a => by match a with | ⟨0, _⟩ => rfl | ⟨1, _⟩ => rfl | ⟨2, _⟩ => rfl
  rw [val_main_v8_apply, h8, val_main_v3_apply, h3, val_main_v2_apply, val_main_cst_apply, Ideal.ofBits_def, Cert.Consts.ofBits_zero]
  refine (congrArg (_ + ·) ((Finset.sum_congr rfl fun d _ => ?_).trans (coe_sum_univ fun d => xr b s d * xr b s d))).trans ?_
  · rw [h2 d, val_main_v1_apply, Ideal.mulf_def, hX, ← EReal.coe_mul]
  · rw [← EReal.coe_add, zero_add]; rfl

/-- The squared length of splat centre `k`, broadcast along the rows. -/
private theorem v9_real (hP : ∀ (k : Fin 16) (d : Fin 1024), P (ix2 k d) = ((pr k d : ℝ) : EReal)) (b : Fin 2) (s : Fin 2048) (k : Fin 16) :
    val_main_v9 (F := Ideal) P (ix3 b s k) = ((Cert.Spec.rsq (pr k) : ℝ) : EReal) := by
  have h9 : idx_main_v9 (ix3 b s k) = ix3 (⟨0, Nat.one_pos⟩ : Fin 1) (⟨0, Nat.one_pos⟩ : Fin 1) k := funext fun a => by match a with | ⟨0, _⟩ => rfl | ⟨1, _⟩ => rfl | ⟨2, _⟩ => rfl
  have h7 : idx_main_v7 (ix3 (⟨0, Nat.one_pos⟩ : Fin 1) (⟨0, Nat.one_pos⟩ : Fin 1) k) = ix1 k := funext fun a => by match a with | ⟨0, _⟩ => rfl
  have h5 : ∀ d : Fin 1024, idx_main_v5 (ix1 k) d = ix2 k d := fun d => funext fun a => by match a with | ⟨0, _⟩ => rfl | ⟨1, _⟩ => rfl
  rw [val_main_v9_apply, h9, val_main_v7_apply, h7, val_main_v5_apply, val_main_cst_0_apply, Ideal.ofBits_def, Cert.Consts.ofBits_zero]
  refine (congrArg (_ + ·) ((Finset.sum_congr rfl fun d _ => ?_).trans (coe_sum_univ fun d => pr k d * pr k d))).trans ?_
  · rw [h5 d, val_main_v4_apply, Ideal.mulf_def, hP, ← EReal.coe_mul]
  · rw [← EReal.coe_add, zero_add]; rfl

/-- The inner product of row `(b, s)` with splat centre `k`. -/
private theorem v6_real (hX : ∀ (b : Fin 2) (s : Fin 2048) (d : Fin 1024), X (ix3 b s d) = ((xr b s d : ℝ) : EReal)) (hP : ∀ (k : Fin 16) (d : Fin 1024), P (ix2 k d) = ((pr k d : ℝ) : EReal)) (b : Fin 2) (s : Fin 2048) (k : Fin 16) :
    val_main_v6 (F := Ideal) X P (ix3 b s k) = ((Cert.Spec.rdot (xr b s) (pr k) : ℝ) : EReal) := by
  have hl : ∀ d : Fin 1024, lidx_main_v6 (ix3 b s k) d = ix3 b s d := fun d => funext fun a => by match a with | ⟨0, _⟩ => rfl | ⟨1, _⟩ => rfl | ⟨2, _⟩ => rfl
  have hr : ∀ d : Fin 1024, ridx_main_v6 (ix3 b s k) d = ix2 k d := fun d => funext fun a => by match a with | ⟨0, _⟩ => rfl | ⟨1, _⟩ => rfl
  refine (val_main_v6_apply X P (ix3 b s k)).trans
    ((Finset.sum_congr rfl fun d _ => ?_).trans (coe_sum_univ fun d => xr b s d * pr k d))
  rw [hl d, hr d, hX, hP, ← EReal.coe_mul]

/-- The clamped squared distance. -/
private theorem v15_real (hX : ∀ (b : Fin 2) (s : Fin 2048) (d : Fin 1024), X (ix3 b s d) = ((xr b s d : ℝ) : EReal)) (hP : ∀ (k : Fin 16) (d : Fin 1024), P (ix2 k d) = ((pr k d : ℝ) : EReal)) (b : Fin 2) (s : Fin 2048) (k : Fin 16) :
    val_main_v15 (F := Ideal) X P (ix3 b s k) = ((Cert.Spec.rdist (xr b s) (pr k) : ℝ) : EReal) := by
  rw [val_main_v15_apply, val_main_v13_apply, val_main_v10_apply, val_main_v12_apply, val_main_v14_apply, val_main_v11_apply,
    val_main_cst_1_apply, val_main_cst_2_apply, v8_real hX, v9_real hP, v6_real hX hP]
  simp only [Ideal.maximumf_def, Ideal.subf_def, Ideal.addf_def, Ideal.mulf_def, Ideal.ofBits_def, Cert.Consts.ofBits_zero,
    Cert.Consts.ofBits_two]
  rw [← EReal.coe_add, ← EReal.coe_mul, ← EReal.coe_sub, ← EReal.coe_strictMono.monotone.map_max]
  rfl

/-- The affinity's scale denominator `2 (e^l)² + ε`, broadcast over rows. -/
private theorem v24_real (hL : ∀ k : Fin 16, LS (ix1 k) = ((lr k : ℝ) : EReal)) (b : Fin 2) (s : Fin 2048) (k : Fin 16) :
    val_main_v24 (F := Ideal) LS (ix3 b s k)
      = ((2 * (Real.exp (lr k) * Real.exp (lr k)) + Cert.Consts.eps : ℝ) : EReal) := by
  have h24 : idx_main_v24 (ix3 b s k) = ix3 (⟨0, Nat.one_pos⟩ : Fin 1) (⟨0, Nat.one_pos⟩ : Fin 1) k := funext fun a => by match a with | ⟨0, _⟩ => rfl | ⟨1, _⟩ => rfl | ⟨2, _⟩ => rfl
  have h18 : idx_main_v18 (ix3 (⟨0, Nat.one_pos⟩ : Fin 1) (⟨0, Nat.one_pos⟩ : Fin 1) k) = ix1 k := funext fun a => by match a with | ⟨0, _⟩ => rfl
  rw [val_main_v24_apply, h24, val_main_v23_apply, val_main_v21_apply, val_main_v22_apply, val_main_v20_apply, val_main_v19_apply,
    val_main_v18_apply, h18, val_main_v0_apply, val_main_cst_3_apply, val_main_cst_4_apply, hL]
  simp only [Ideal.addf_def, Ideal.mulf_def, Ideal.ofBits_def, Ideal.hostUnary_exp_def, Ideal.exp_coe, Cert.Consts.ofBits_two,
    Cert.Consts.ofBits_eps]
  rw [← EReal.coe_mul, ← EReal.coe_mul, ← EReal.coe_add]

/-- The reference's affinity. -/
private theorem v28_real (hX : ∀ (b : Fin 2) (s : Fin 2048) (d : Fin 1024), X (ix3 b s d) = ((xr b s d : ℝ) : EReal)) (hP : ∀ (k : Fin 16) (d : Fin 1024), P (ix2 k d) = ((pr k d : ℝ) : EReal)) (hL : ∀ k : Fin 16, LS (ix1 k) = ((lr k : ℝ) : EReal)) (hA : ∀ k : Fin 16, AMP (ix1 k) = ((ar k : ℝ) : EReal)) (b : Fin 2) (s : Fin 2048) (k : Fin 16) :
    val_main_v28 (F := Ideal) X P LS AMP (ix3 b s k) = (((Cert.Spec.affR xr pr lr ar Cert.Consts.eps) b s k : ℝ) : EReal) := by
  have h27 : idx_main_v27 (ix3 b s k) = ix3 (⟨0, Nat.one_pos⟩ : Fin 1) (⟨0, Nat.one_pos⟩ : Fin 1) k := funext fun a => by match a with | ⟨0, _⟩ => rfl | ⟨1, _⟩ => rfl | ⟨2, _⟩ => rfl
  have h16 : idx_main_v16 (ix3 (⟨0, Nat.one_pos⟩ : Fin 1) (⟨0, Nat.one_pos⟩ : Fin 1) k) = ix1 k := funext fun a => by match a with | ⟨0, _⟩ => rfl
  rw [val_main_v28_apply, val_main_v27_apply, h27, val_main_v16_apply, h16, hA, val_main_v26_apply, val_main_v25_apply,
    val_main_v17_apply, v15_real hX hP, v24_real hL]
  simp only [Ideal.mulf_def, Ideal.hostUnary_exp_def, Ideal.hostDivf_def, Ideal.hostNegf_def, Ideal.negf_def]
  rw [Ideal.div_coe (Cert.Spec.scaleR_pos (lr k) Cert.Consts.eps Cert.Consts.eps_pos).ne', ← EReal.coe_neg, ← EReal.coe_mul,
    Ideal.exp_coe, ← EReal.coe_mul, mul_one_div]
  rfl

/-- The attention matrix `a aᵀ`. -/
private theorem v29_real (hX : ∀ (b : Fin 2) (s : Fin 2048) (d : Fin 1024), X (ix3 b s d) = ((xr b s d : ℝ) : EReal)) (hP : ∀ (k : Fin 16) (d : Fin 1024), P (ix2 k d) = ((pr k d : ℝ) : EReal)) (hL : ∀ k : Fin 16, LS (ix1 k) = ((lr k : ℝ) : EReal)) (hA : ∀ k : Fin 16, AMP (ix1 k) = ((ar k : ℝ) : EReal)) (b : Fin 2) (i j : Fin 2048) :
    val_main_v29 (F := Ideal) X P LS AMP (ix3 b i j) = ((Cert.Spec.attn (Cert.Spec.affR xr pr lr ar Cert.Consts.eps) b i j : ℝ) : EReal) := by
  have hl : ∀ k : Fin 16, lidx_main_v29 (ix3 b i j) k = ix3 b i k := fun k => funext fun a => by match a with | ⟨0, _⟩ => rfl | ⟨1, _⟩ => rfl | ⟨2, _⟩ => rfl
  have hr : ∀ k : Fin 16, ridx_main_v29 (ix3 b i j) k = ix3 b j k := fun k => funext fun a => by match a with | ⟨0, _⟩ => rfl | ⟨1, _⟩ => rfl | ⟨2, _⟩ => rfl
  refine (val_main_v29_apply X P LS AMP (ix3 b i j)).trans
    ((Finset.sum_congr rfl fun k _ => ?_).trans (coe_sum_univ fun k => (Cert.Spec.affR xr pr lr ar Cert.Consts.eps) b i k * (Cert.Spec.affR xr pr lr ar Cert.Consts.eps) b j k))
  rw [hl k, hr k, v28_real hX hP hL hA, v28_real hX hP hL hA, ← EReal.coe_mul]

/-- The row sum plus `ε`, broadcast along the row. -/
private theorem v34_real (hX : ∀ (b : Fin 2) (s : Fin 2048) (d : Fin 1024), X (ix3 b s d) = ((xr b s d : ℝ) : EReal)) (hP : ∀ (k : Fin 16) (d : Fin 1024), P (ix2 k d) = ((pr k d : ℝ) : EReal)) (hL : ∀ k : Fin 16, LS (ix1 k) = ((lr k : ℝ) : EReal)) (hA : ∀ k : Fin 16, AMP (ix1 k) = ((ar k : ℝ) : EReal)) (b : Fin 2) (i j : Fin 2048) :
    val_main_v34 (F := Ideal) X P LS AMP (ix3 b i j)
      = ((Cert.Spec.rowsum (Cert.Spec.affR xr pr lr ar Cert.Consts.eps) b i + Cert.Consts.eps : ℝ) : EReal) := by
  have h34 : idx_main_v34 (ix3 b i j) = ix3 b i (⟨0, Nat.one_pos⟩ : Fin 1) := funext fun a => by match a with | ⟨0, _⟩ => rfl | ⟨1, _⟩ => rfl | ⟨2, _⟩ => rfl
  have h31 : idx_main_v31 (ix3 b i (⟨0, Nat.one_pos⟩ : Fin 1)) = ix2 b i := funext fun a => by match a with | ⟨0, _⟩ => rfl | ⟨1, _⟩ => rfl
  have h30 : ∀ j' : Fin 2048, idx_main_v30 (ix2 b i) j' = ix3 b i j' := fun j' => funext fun a => by match a with | ⟨0, _⟩ => rfl | ⟨1, _⟩ => rfl | ⟨2, _⟩ => rfl
  rw [val_main_v34_apply, h34, val_main_v33_apply, val_main_v31_apply, h31, val_main_v32_apply, val_main_v30_apply,
    val_main_cst_5_apply, val_main_cst_6_apply, Ideal.addf_def, Ideal.ofBits_def, Ideal.ofBits_def, Cert.Consts.ofBits_zero,
    Cert.Consts.ofBits_eps]
  refine (congrArg (· + _) ((congrArg (_ + ·) ((Finset.sum_congr rfl fun j' _ => ?_).trans
    (coe_sum_univ fun j' => Cert.Spec.attn (Cert.Spec.affR xr pr lr ar Cert.Consts.eps) b i j'))))).trans ?_
  · rw [h30 j', v29_real hX hP hL hA]
  · rw [← EReal.coe_add, zero_add, ← EReal.coe_add]; rfl

/-- The normalised attention matrix. -/
private theorem v35_real (hX : ∀ (b : Fin 2) (s : Fin 2048) (d : Fin 1024), X (ix3 b s d) = ((xr b s d : ℝ) : EReal)) (hP : ∀ (k : Fin 16) (d : Fin 1024), P (ix2 k d) = ((pr k d : ℝ) : EReal)) (hL : ∀ k : Fin 16, LS (ix1 k) = ((lr k : ℝ) : EReal)) (hA : ∀ k : Fin 16, AMP (ix1 k) = ((ar k : ℝ) : EReal)) (b : Fin 2) (i j : Fin 2048) :
    val_main_v35 (F := Ideal) X P LS AMP (ix3 b i j)
      = ((Cert.Spec.attn (Cert.Spec.affR xr pr lr ar Cert.Consts.eps) b i j / (Cert.Spec.rowsum (Cert.Spec.affR xr pr lr ar Cert.Consts.eps) b i + Cert.Consts.eps) : ℝ) : EReal) := by
  rw [val_main_v35_apply, v29_real hX hP hL hA, v34_real hX hP hL hA, Ideal.hostDivf_def,
    Ideal.div_coe (Cert.Spec.rowsum_affR_pos xr pr lr ar Cert.Consts.eps Cert.Consts.eps_pos b i).ne', ← EReal.coe_mul, mul_one_div]

/-- The value projection `x Wv`. -/
private theorem v36_real (hX : ∀ (b : Fin 2) (s : Fin 2048) (d : Fin 1024), X (ix3 b s d) = ((xr b s d : ℝ) : EReal)) (hV : ∀ i j : Fin 1024, WV (ix2 i j) = ((wv i j : ℝ) : EReal)) (b : Fin 2) (j : Fin 2048) (d : Fin 1024) :
    val_main_v36 (F := Ideal) X WV (ix3 b j d) = ((Cert.Spec.vproj xr wv b j d : ℝ) : EReal) := by
  have hl : ∀ d' : Fin 1024, lidx_main_v36 (ix3 b j d) d' = ix3 b j d' := fun d' => funext fun a => by match a with | ⟨0, _⟩ => rfl | ⟨1, _⟩ => rfl | ⟨2, _⟩ => rfl
  have hr : ∀ d' : Fin 1024, ridx_main_v36 (ix3 b j d) d' = ix2 d' d := fun d' => funext fun a => by match a with | ⟨0, _⟩ => rfl | ⟨1, _⟩ => rfl
  refine (val_main_v36_apply X WV (ix3 b j d)).trans
    ((Finset.sum_congr rfl fun d' _ => ?_).trans (coe_sum_univ fun d' => xr b j d' * wv d' d))
  rw [hl d', hr d', hX, hV, ← EReal.coe_mul]

/-- The normalised attention applied to the values. -/
private theorem v37_real (hX : ∀ (b : Fin 2) (s : Fin 2048) (d : Fin 1024), X (ix3 b s d) = ((xr b s d : ℝ) : EReal)) (hP : ∀ (k : Fin 16) (d : Fin 1024), P (ix2 k d) = ((pr k d : ℝ) : EReal)) (hL : ∀ k : Fin 16, LS (ix1 k) = ((lr k : ℝ) : EReal)) (hA : ∀ k : Fin 16, AMP (ix1 k) = ((ar k : ℝ) : EReal)) (hV : ∀ i j : Fin 1024, WV (ix2 i j) = ((wv i j : ℝ) : EReal)) (b : Fin 2) (i : Fin 2048) (d : Fin 1024) :
    val_main_v37 (F := Ideal) X P LS AMP WV (ix3 b i d)
      = ((∑ j, (Cert.Spec.attn (Cert.Spec.affR xr pr lr ar Cert.Consts.eps) b i j / (Cert.Spec.rowsum (Cert.Spec.affR xr pr lr ar Cert.Consts.eps) b i + Cert.Consts.eps))
          * Cert.Spec.vproj xr wv b j d : ℝ) : EReal) := by
  have hl : ∀ j : Fin 2048, lidx_main_v37 (ix3 b i d) j = ix3 b i j := fun j => funext fun a => by match a with | ⟨0, _⟩ => rfl | ⟨1, _⟩ => rfl | ⟨2, _⟩ => rfl
  have hr : ∀ j : Fin 2048, ridx_main_v37 (ix3 b i d) j = ix3 b j d := fun j => funext fun a => by match a with | ⟨0, _⟩ => rfl | ⟨1, _⟩ => rfl | ⟨2, _⟩ => rfl
  refine (val_main_v37_apply X P LS AMP WV (ix3 b i d)).trans
    ((Finset.sum_congr rfl fun j _ => ?_).trans (coe_sum_univ fun j =>
      (Cert.Spec.attn (Cert.Spec.affR xr pr lr ar Cert.Consts.eps) b i j / (Cert.Spec.rowsum (Cert.Spec.affR xr pr lr ar Cert.Consts.eps) b i + Cert.Consts.eps)) * Cert.Spec.vproj xr wv b j d))
  rw [hl j, hr j, v35_real hX hP hL hA, v36_real hX hV, ← EReal.coe_mul]

end Stages

/-- The reference's last stage at an index, as the coercion of the real specification. -/
theorem result_real
    (X : (⟨S2x2048x1024, .f32⟩ : BufTy).Contents (Elt Ideal)) (P : (⟨S16x1024, .f32⟩ : BufTy).Contents (Elt Ideal))
    (LS AMP : (⟨S16, .f32⟩ : BufTy).Contents (Elt Ideal)) (WV WO : (⟨S1024x1024, .f32⟩ : BufTy).Contents (Elt Ideal))
    (xr : Fin 2 → Fin 2048 → Fin 1024 → ℝ) (pr : Fin 16 → Fin 1024 → ℝ) (lr ar : Fin 16 → ℝ) (wv wo : Fin 1024 → Fin 1024 → ℝ)
    (hX : ∀ (b : Fin 2) (s : Fin 2048) (d : Fin 1024), X (ix3 b s d) = ((xr b s d : ℝ) : EReal))
    (hP : ∀ (k : Fin 16) (d : Fin 1024), P (ix2 k d) = ((pr k d : ℝ) : EReal))
    (hL : ∀ k : Fin 16, LS (ix1 k) = ((lr k : ℝ) : EReal)) (hA : ∀ k : Fin 16, AMP (ix1 k) = ((ar k : ℝ) : EReal))
    (hV : ∀ i j : Fin 1024, WV (ix2 i j) = ((wv i j : ℝ) : EReal)) (hO : ∀ i j : Fin 1024, WO (ix2 i j) = ((wo i j : ℝ) : EReal))
    (b : Fin 2) (i : Fin 2048) (e : Fin 1024) :
    val_main_v38 (F := Ideal) X P LS AMP WV WO (ix3 b i e)
      = ((Cert.Spec.outR xr wv wo Cert.Consts.eps (Cert.Spec.affR xr pr lr ar Cert.Consts.eps) b i e : ℝ) : EReal) := by
  have hl : ∀ d : Fin 1024, lidx_main_v38 (ix3 b i e) d = ix3 b i d := fun d => funext fun a => by match a with | ⟨0, _⟩ => rfl | ⟨1, _⟩ => rfl | ⟨2, _⟩ => rfl
  have hr : ∀ d : Fin 1024, ridx_main_v38 (ix3 b i e) d = ix2 d e := fun d => funext fun a => by match a with | ⟨0, _⟩ => rfl | ⟨1, _⟩ => rfl
  refine (val_main_v38_apply X P LS AMP WV WO (ix3 b i e)).trans
    ((Finset.sum_congr rfl fun d _ => ?_).trans (coe_sum_univ fun d =>
      (∑ j, (Cert.Spec.attn (Cert.Spec.affR xr pr lr ar Cert.Consts.eps) b i j / (Cert.Spec.rowsum (Cert.Spec.affR xr pr lr ar Cert.Consts.eps) b i + Cert.Consts.eps))
        * Cert.Spec.vproj xr wv b j d) * wo d e))
  rw [hl d, hr d, v37_real hX hP hL hA hV, hO, ← EReal.coe_mul]

end Cert.ReferenceIdeal.RefReal

end
-- ==== Proof.Finite.lean ====
/-
  From the precondition to real numbers: the precondition says of every input entry `|x| < +∞`, so every entry of every
  input array is the coercion of a real number.
-/
import proofs.«104191_g80702435492106_cont_9to1c4b_850_6_alg».proof.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

variable [Cert.Pre_finite_inputs.Facts]

/-- An index-wise conjunction of one-bit arrays reads the conjunction of the elements. -/
private theorem andi_apply {s : Shape} {w : Nat} (a b : IVec s w) (i : s.Idx) : andi a b i = IntOp.andi (a i) (b i) := rfl

/-- Where the comparison `|x| < +∞` holds, the entry is neither infinity, so it is the coercion of a real. -/
private theorem real_of_finite {s : Shape} (x : FVec Ideal s .f32) (hb : S_.BroadcastsInDim s (![] : Fin 0 → Fin s.rank))
    (i : s.Idx) (h : cmpf .olt (Host.absf x) (broadcastInDim s ![] hb (constant S_ .f32 0x7F800000#32)) i = 1#1) :
    x i = (((x i).toReal : ℝ) : EReal) := by
  have htop : Ideal.ofBits .f32 0x7F800000#32 = ⊤ := by simp [Ideal.ofBits, Ideal.ieee]
  have h' : BitVec.ofBool (decide (max (x i) (-(x i)) < Ideal.ofBits .f32 0x7F800000#32)) = 1#1 := h
  rw [htop] at h'
  have hlt : max (x i) (-(x i)) < ⊤ := by
    cases hd : decide (max (x i) (-(x i)) < (⊤ : EReal)) with
    | true => exact of_decide_eq_true hd
    | false => rw [hd] at h'; exact absurd h' (by decide)
  have hnt : x i ≠ ⊤ := ((le_max_left _ _).trans_lt hlt).ne
  have hnb : x i ≠ ⊥ := fun e => by
    have h2 : -(x i) < ⊤ := (le_max_right _ _).trans_lt hlt
    rw [e, EReal.neg_bot] at h2
    exact lt_irrefl _ h2
  exact (EReal.coe_toReal hnt hnb).symm

/-- Under the precondition every input array is, entry by entry, the coercion of a real array. -/
theorem reals_of_pre (x0 : FVec Ideal S2x2048x1024 .f32) (x1 : FVec Ideal S16x1024 .f32) (x2 x3 : FVec Ideal S16 .f32)
    (x4 x5 : FVec Ideal S1024x1024 .f32)
    (h : Cert.Pre_finite_inputs.fn (F := Ideal) x0 x1 x2 x3 x4 x5 = (fun _ => 1#1)) :
    (∃ xr : Fin 2 → Fin 2048 → Fin 1024 → ℝ, ∀ (b : Fin 2) (s : Fin 2048) (d : Fin 1024), x0 (ix3 b s d) = ((xr b s d : ℝ) : EReal))
    ∧ (∃ pr : Fin 16 → Fin 1024 → ℝ, ∀ (k : Fin 16) (d : Fin 1024), x1 (ix2 k d) = ((pr k d : ℝ) : EReal))
    ∧ (∃ lr : Fin 16 → ℝ, ∀ k : Fin 16, x2 (ix1 k) = ((lr k : ℝ) : EReal))
    ∧ (∃ ar : Fin 16 → ℝ, ∀ k : Fin 16, x3 (ix1 k) = ((ar k : ℝ) : EReal))
    ∧ (∃ wv : Fin 1024 → Fin 1024 → ℝ, ∀ i j : Fin 1024, x4 (ix2 i j) = ((wv i j : ℝ) : EReal))
    ∧ (∃ wo : Fin 1024 → Fin 1024 → ℝ, ∀ i j : Fin 1024, x5 (ix2 i j) = ((wo i j : ℝ) : EReal)) := by
  haveI : Subsingleton S_.Idx := ⟨fun a b => funext fun d => d.elim0⟩
  -- The precondition at its one index is a conjunction of six reductions by `and`, one per input.
  have h0 := congrFun h ix0
  dsimp only [fn, fn_part1] at h0
  simp only [andi_apply, IntOp.andi_eq_one] at h0
  obtain ⟨⟨⟨⟨⟨h3, h7⟩, h12⟩, h17⟩, h22⟩, h27⟩ := h0
  exact ⟨⟨fun b s d => (x0 (ix3 b s d)).toReal, fun b s d => real_of_finite x0 _ _ (Host.reduce_andi_all _ _ _ _ _ h3 (ix3 b s d))⟩,
    ⟨fun k d => (x1 (ix2 k d)).toReal, fun k d => real_of_finite x1 _ _ (Host.reduce_andi_all _ _ _ _ _ h7 (ix2 k d))⟩,
    ⟨fun k => (x2 (ix1 k)).toReal, fun k => real_of_finite x2 _ _ (Host.reduce_andi_all _ _ _ _ _ h12 (ix1 k))⟩,
    ⟨fun k => (x3 (ix1 k)).toReal, fun k => real_of_finite x3 _ _ (Host.reduce_andi_all _ _ _ _ _ h17 (ix1 k))⟩,
    ⟨fun i j => (x4 (ix2 i j)).toReal, fun i j => real_of_finite x4 _ _ (Host.reduce_andi_all _ _ _ _ _ h22 (ix2 i j))⟩,
    ⟨fun i j => (x5 (ix2 i j)).toReal, fun i j => real_of_finite x5 _ _ (Host.reduce_andi_all _ _ _ _ _ h27 (ix2 i j))⟩⟩

end Cert.Finite

end
-- ==== Proof.lean ====
/-
  The certificate. Splat attention through K = 16 Gaussian splats: the reference forms the S × S matrix A = a aᵀ of the
  affinities a[b,s,k] = amp[k] · exp(-dist(x[b,s], p[k]) / (2 scale[k]² + ε)), divides each row by its sum plus ε and applies
  it to (x Wv), then Wo; the kernel never forms A: a first pass stores the affinities and accumulates g = Σ_s a[b,s,:] and
  C = aᵀ x over each batch's four tiles, a second pass folds M = (C Wv) Wo once per batch and returns (a M) / (a · g + ε).
  Over the reals the two are one function: the row sum of A is a · g and the products reassociate; the quotients are by
  the same positive number (a · g = Σ_k amp_k² e_ik Σ_j e_jk ≥ 0 with e the exponentials, and ε > 0), and the affinity's two
  spellings agree because (e^l)² = e^{2l}. The precondition makes every input entry a real number, so the extended reals'
  operations are the reals' throughout.

  The three frames: both kernels' programs run region by region (each grid point's body a triple over the blocks it is
  handed, the accumulators and the scratch block carried from point to point) and end with the arguments as launched;
  the reference is a straight line of host operations.
-/
import proofs.«104191_g80702435492106_cont_9to1c4b_850_6_alg».proof.Defs
import proofs.«104191_g80702435492106_cont_9to1c4b_850_6_alg».proof.Proof.Gen.Kernel
import proofs.«104191_g80702435492106_cont_9to1c4b_850_6_alg».proof.Proof.Gen.KernelIdeal
import proofs.«104191_g80702435492106_cont_9to1c4b_850_6_alg».proof.Proof.Gen.ReferenceIdeal
import proofs.«104191_g80702435492106_cont_9to1c4b_850_6_alg».proof.Proof.Gen.Pre_finite_inputs
import proofs.«104191_g80702435492106_cont_9to1c4b_850_6_alg».proof.Proof.Gen.ReferenceIdeal.Run
import proofs.«104191_g80702435492106_cont_9to1c4b_850_6_alg».proof.Proof.Gen.ReferenceIdeal.Read
import proofs.«104191_g80702435492106_cont_9to1c4b_850_6_alg».proof.Proof.K.Run
import proofs.«104191_g80702435492106_cont_9to1c4b_850_6_alg».proof.Proof.KI.Value
import proofs.«104191_g80702435492106_cont_9to1c4b_850_6_alg».proof.Proof.RefReal
import proofs.«104191_g80702435492106_cont_9to1c4b_850_6_alg».proof.Proof.Finite
import proofs.«104191_g80702435492106_cont_9to1c4b_850_6_alg».proof.Proof.Spec
import Idealize.ShloMosaic.Adequacy
import Idealize.ShloMosaic.Init

set_option maxRecDepth 16384

noncomputable section

namespace Cert.Proof

open Idealize.ShloMosaic Idealize.ShloMosaic.ValueIdx Idealize.SL.Sem

/-- The word-level kernel runs and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference, a line of host operations, runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: entry by entry the
    kernel's is the coercion of `outK` and the reference's of `outR`, the same real number. -/
theorem algebraic : Cert.algebraic_KernelIdeal_ReferenceIdeal := by
  intro m ρ m' ρ' hpre hagree
  refine ⟨fun c => (Cert.KernelIdeal.Hand.dat1 (Cert.KernelIdeal.Hand.V2 m) c).arrAt 5 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨⟨xr, hX⟩, ⟨pr, hP⟩, ⟨lr, hL⟩, ⟨ar, hA⟩, ⟨wv, hV⟩, ⟨wo, hO⟩⟩ := Cert.Finite.reals_of_pre _ _ _ _ _ _ (hpre c)
  rw [Cert.ReferenceIdeal.Read.val_main_v38_eq, (hagree c).1, (hagree c).2.1, (hagree c).2.2.1, (hagree c).2.2.2.1,
    (hagree c).2.2.2.2.1, (hagree c).2.2.2.2.2]
  funext idx
  obtain ⟨b, i, e, rfl⟩ : ∃ (b : Fin 2) (i : Fin 2048) (e : Fin 1024), idx = ix3 b i e := ⟨idx 0, idx 1, idx 2, eq_ix3 idx⟩
  refine (Cert.ReferenceIdeal.RefReal.result_real _ _ _ _ _ _ xr pr lr ar wv wo hX hP hL hA hV hO b i e).trans ?_
  refine Eq.trans ?_ (Cert.KernelIdeal.Hand.kernel_value m c xr pr lr ar wv wo hX hP hL hA hV hO b i e).symm
  rw [Cert.Spec.outK_eq, Cert.Spec.affK_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
